-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x256 : Shape := ⟨3, ![8, 1024, 256]⟩
abbrev S256x64 : Shape := ⟨2, ![256, 64]⟩
abbrev S_ : Shape := ⟨0, ![]⟩

class Facts : Prop where
  bcast_S_S8x1024x256 : S_.BroadcastsInDim S8x1024x256 (![] : Fin 0 → Fin S8x1024x256.rank)
  reducesTo_S8x1024x256_S_d0_1_2 : S8x1024x256.ReducesTo [0, 1, 2] S_
  h_S_ : 0 < S_.numel
  bcast_S_S256x64 : S_.BroadcastsInDim S256x64 (![] : Fin 0 → Fin S256x64.rank)
  reducesTo_S256x64_S_d0_1 : S256x64.ReducesTo [0, 1] S_

variable [Facts]

def fn {F : FTy → Type} [FloatOps F] (main_arg0 : FVec F S8x1024x256 .f32) (main_arg1 : FVec F S256x64 .f32) (main_arg2 : FVec F S256x64 .f32) : IVec S_ 1 :=
  let main_v0 : FVec F S8x1024x256 .f32 := Host.absf main_arg0
  let main_cst : FVec F S_ .f32 := constant S_ .f32 0x7F800000#32
  let main_v1 : FVec F S8x1024x256 .f32 := broadcastInDim S8x1024x256 ![] bcast_S_S8x1024x256 main_cst
  let main_v2 : IVec S8x1024x256 1 := cmpf .olt main_v0 main_v1
  let main_c : IVec S_ 1 := constantI S_ 1 1#1
  let main_v3 : IVec S_ 1 := (fun x v => Host.reduce IntOp.andi x v reducesTo_S8x1024x256_S_d0_1_2 h_S_) main_v2 main_c
  let main_v4 : FVec F S256x64 .f32 := Host.absf main_arg1
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S256x64 .f32 := Host.absf main_arg2
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  main_v13
-- ==== Kernel.lean ====
abbrev S8x1024x256 : Shape := ⟨3, ![8, 1024, 256]⟩
abbrev S256x64 : Shape := ⟨2, ![256, 64]⟩
abbrev S8192x256 : Shape := ⟨2, ![8192, 256]⟩
abbrev S8192x64 : Shape := ⟨2, ![8192, 64]⟩
abbrev S1024x256 : Shape := ⟨2, ![1024, 256]⟩
abbrev S1024x64 : Shape := ⟨2, ![1024, 64]⟩
abbrev S1024x1 : Shape := ⟨2, ![1024, 1]⟩
abbrev S1024x1024 : Shape := ⟨2, ![1024, 1024]⟩
abbrev S1024 : Shape := ⟨1, ![1024]⟩

abbrev nBuf : Space → Nat
  | .hbm => 9
  | .vmem => 19
  | .smem => 0
  | _ => 0

abbrev bufTy : (tb : Table) → Fin (tcTables nBuf tb) → BufTy
  | .hbm, ⟨0, _⟩ => ⟨S8x1024x256, .f32⟩
  | .hbm, ⟨1, _⟩ => ⟨S256x64, .f32⟩
  | .hbm, ⟨2, _⟩ => ⟨S256x64, .f32⟩
  | .hbm, ⟨3, _⟩ => ⟨S8192x256, .f32⟩
  | .hbm, ⟨4, _⟩ => ⟨S8192x64, .bf16⟩
  | .hbm, ⟨5, _⟩ => ⟨S8192x64, .bf16⟩
  | .hbm, ⟨6, _⟩ => ⟨S8192x256, .bf16⟩
  | .hbm, ⟨7, _⟩ => ⟨S8192x256, .f32⟩
  | .hbm, ⟨8, _⟩ => ⟨S8x1024x256, .f32⟩
  | .local _ .vmem, ⟨0, _⟩ => ⟨S1024x256, .f32⟩
  | .local _ .vmem, ⟨1, _⟩ => ⟨S1024x256, .f32⟩
  | .local _ .vmem, ⟨2, _⟩ => ⟨S256x64, .f32⟩
  | .local _ .vmem, ⟨3, _⟩ => ⟨S256x64, .f32⟩
  | .local _ .vmem, ⟨4, _⟩ => ⟨S1024x64, .bf16⟩
  | .local _ .vmem, ⟨5, _⟩ => ⟨S1024x64, .bf16⟩
  | .local _ .vmem, ⟨6, _⟩ => ⟨S1024x64, .bf16⟩
  | .local _ .vmem, ⟨7, _⟩ => ⟨S1024x64, .bf16⟩
  | .local _ .vmem, ⟨8, _⟩ => ⟨S1024x256, .bf16⟩
  | .local _ .vmem, ⟨9, _⟩ => ⟨S1024x256, .bf16⟩
  | .local _ .vmem, ⟨10, _⟩ => ⟨S1024x64, .bf16⟩
  | .local _ .vmem, ⟨11, _⟩ => ⟨S1024x64, .bf16⟩
  | .local _ .vmem, ⟨12, _⟩ => ⟨S8192x64, .bf16⟩
  | .local _ .vmem, ⟨13, _⟩ => ⟨S8192x256, .bf16⟩
  | .local _ .vmem, ⟨14, _⟩ => ⟨S1024x256, .f32⟩
  | .local _ .vmem, ⟨15, _⟩ => ⟨S1024x256, .f32⟩
  | .local _ .vmem, ⟨16, _⟩ => ⟨S1024x1, .f32⟩
  | .local _ .vmem, ⟨17, _⟩ => ⟨S1024x1, .f32⟩
  | .local _ .vmem, ⟨18, _⟩ => ⟨S1024x256, .f32⟩
  | _, _ => ⟨S8x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_scratch0 : Ref sig .tc := ⟨.vmem, 16, rfl⟩
abbrev cc1_scratch1 : Ref sig .tc := ⟨.vmem, 17, rfl⟩
abbrev cc1_scratch2 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![8, 8], ![false, false]⟩

def k1_mult1 (i : grid1.Coords) : BitVec 32 :=
  let arg1 : BitVec 32 := BitVec.ofNat 32 (i 1).val
  let c1024_i32 : BitVec 32 := 1024#32
  let v5 : BitVec 32 := Scalar.muli arg1 c1024_i32
  v5
def k1_off1 (i : grid1.Coords) : Fin 2 → Nat :=
  let arg1 : BitVec 32 := BitVec.ofNat 32 (i 1).val
  let c1024_i32 : BitVec 32 := 1024#32
  let v5 : BitVec 32 := Scalar.muli arg1 c1024_i32
  let v6 : BitVec 32 := v5
  let v7 : Index := Scalar.indexCast v6
  let c0_2 : Index := 0#32
  ![v7.toNat, 0]
def k1_off2 (i : grid1.Coords) : Fin 2 → Nat :=
  let arg1 : BitVec 32 := BitVec.ofNat 32 (i 1).val
  let c1024_i32 : BitVec 32 := 1024#32
  let v5 : BitVec 32 := Scalar.muli arg1 c1024_i32
  let v6 : BitVec 32 := v5
  let v10 : Index := Scalar.indexCast v6
  let c0_3 : Index := 0#32
  ![v10.toNat, 0]
def k1_cond2 (i : grid1.Coords) : BitVec 1 :=
  let arg1 : BitVec 32 := BitVec.ofNat 32 (i 1).val
  let c7_i32 : BitVec 32 := 7#32
  let v44 : BitVec 1 := Scalar.cmpi .eq arg1 c7_i32
  let v45 : BitVec 32 := Scalar.extui v44
  let c0_i32_21 : BitVec 32 := 0#32
  let v46 : BitVec 1 := Scalar.cmpi .ne v45 c0_i32_21
  v46

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S8192x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S8192x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  shapeCasts_S8x1024x256_S8192x256 : S8x1024x256.ShapeCasts S8192x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S1024x64_S1024x64_0_0 : ∀ a, (![0, 0] : Fin 2 → Nat) a + S1024x64.size a ≤ S1024x64.size a
  h_S1024x64 : 0 < S1024x64.numel
  packedbf16_S1024x64_S1024x64_0_0 : (Rect.unit (s := S1024x64) ![0, 0] S1024x64.size inb_S1024x64_S1024x64_0_0).PackedRows (EltTy.packing .bf16)
  packedbf16_S1024x256_S1024x256_0_0 : (Rect.unit (s := S1024x256) ![0, 0] S1024x256.size inb_S1024x256_S1024x256_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  shapeCasts_S1024x64_S1024x64 : S1024x64.ShapeCasts S1024x64
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x256 : S1024x1.Broadcasts S1024x256
  shapeCasts_S8192x256_S8x1024x256 : S8192x256.ShapeCasts S8x1024x256
  dot_S1024x256_S256x64_S1024x64_1_0_0_1_n_n_wf : DotDims.WF S1024x256 S256x64 S1024x64 [1] [0] [0] [1] [] []
  dot_S1024x64_S1024x64_S1024x1024_1_1_0_0_n_n_wf : DotDims.WF S1024x64 S1024x64 S1024x1024 [1] [1] [0] [0] [] []
  dot_S1024x1024_S1024x256_S1024x256_1_0_0_1_n_n_wf : DotDims.WF S1024x1024 S1024x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S256x64.size a
  hwx0_2 : ∀ i : grid0.Coords, EltTy.bits .f32 = 32 ∨ (Rect.block (s := S256x64) S256x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S8192x64.size a
  hwx0_3 : ∀ i : grid0.Coords, EltTy.bits .bf16 = 32 ∨ (Rect.block (s := S8192x64) S1024x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x64.size a ≤ S8192x64.size a
  hwx0_4 : ∀ i : grid0.Coords, EltTy.bits .bf16 = 32 ∨ (Rect.block (s := S8192x64) S1024x64.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S8192x256.size a
  hwx0_5 : ∀ i : grid0.Coords, EltTy.bits .bf16 = 32 ∨ (Rect.block (s := S8192x256) S1024x256.size (cc0_transform_5 i) (hinb0_5 i)).WholeWords (EltTy.packing .bf16)
  hrank1 : 0 < grid1.rank
  k1_mult1_dvd : ∀ i : grid1.Coords, 1024 ∣ (k1_mult1 i).toNat
  k1_off1_inb : ∀ i : grid1.Coords, ∀ a, (k1_off1 i) a + S1024x64.size a ≤ S8192x64.size a
  k1_off2_inb : ∀ i : grid1.Coords, ∀ a, (k1_off2 i) a + S1024x256.size a ≤ S8192x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x64.size a ≤ S8192x64.size a
  hwx1_0 : ∀ i : grid1.Coords, EltTy.bits .bf16 = 32 ∨ (Rect.block (s := S8192x64) S1024x64.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x64.size a ≤ S8192x64.size a
  hwx1_1 : ∀ i : grid1.Coords, EltTy.bits .bf16 = 32 ∨ (Rect.block (s := S8192x64) S8192x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8192x256.size a ≤ S8192x256.size a
  hwx1_2 : ∀ i : grid1.Coords, EltTy.bits .bf16 = 32 ∨ (Rect.block (s := S8192x256) S8192x256.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x256.size a ≤ S8192x256.size a
  hwx1_3 : ∀ i : grid1.Coords, EltTy.bits .f32 = 32 ∨ (Rect.block (s := S8192x256) S1024x256.size (cc1_transform_3 i) (hinb1_3 i)).WholeWords (EltTy.packing .f32)

variable [Facts₀]

def dot_S1024x256_S256x64_S1024x64_1_0_0_1_n_n : DotDims S1024x256 S256x64 S1024x64 where
  lhsContracting := [1]
  rhsContracting := [0]
  lhsNonContracting := [0]
  rhsNonContracting := [1]
  lhsBatch := []
  rhsBatch := []
  wf := dot_S1024x256_S256x64_S1024x64_1_0_0_1_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_v0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S1024x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S1024x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_2) S1024x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v1_0) S1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_1) S8192x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1_2) S8192x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1024x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8x1024x256 : Shape := ⟨3, ![8, 1024, 256]⟩
abbrev S256x64 : Shape := ⟨2, ![256, 64]⟩
abbrev S8192x256 : Shape := ⟨2, ![8192, 256]⟩
abbrev S8192x64 : Shape := ⟨2, ![8192, 64]⟩
abbrev S_ : Shape := ⟨0, ![]⟩
abbrev S64x8192 : Shape := ⟨2, ![64, 8192]⟩
abbrev S8192x8192 : Shape := ⟨2, ![8192, 8192]⟩
abbrev S8192 : Shape := ⟨1, ![8192]⟩
abbrev S8192x1 : Shape := ⟨2, ![8192, 1]⟩

abbrev nBuf : Space → Nat
  | .hbm => 30
  | .vmem => 0
  | .smem => 0
  | _ => 0

abbrev bufTy : (tb : Table) → Fin (tcTables nBuf tb) → BufTy
  | .hbm, ⟨0, _⟩ => ⟨S8x1024x256, .f32⟩
  | .hbm, ⟨1, _⟩ => ⟨S256x64, .f32⟩
  | .hbm, ⟨2, _⟩ => ⟨S256x64, .f32⟩
  | .hbm, ⟨3, _⟩ => ⟨S8192x256, .f32⟩
  | .hbm, ⟨4, _⟩ => ⟨S8192x64, .f32⟩
  | .hbm, ⟨5, _⟩ => ⟨S8192x64, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S64x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192, .f32⟩
  | .hbm, ⟨16, _⟩ => ⟨S_, .f32⟩
  | .hbm, ⟨17, _⟩ => ⟨S8192, .f32⟩
  | .hbm, ⟨18, _⟩ => ⟨S8192, .f32⟩
  | .hbm, ⟨19, _⟩ => ⟨S8192x1, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S8192x8192, .f32⟩
  | .hbm, ⟨27, _⟩ => ⟨S8192x8192, .f32⟩
  | .hbm, ⟨28, _⟩ => ⟨S8192x256, .f32⟩
  | .hbm, ⟨29, _⟩ => ⟨S8x1024x256, .f32⟩
  | _, _ => ⟨S8x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]

class Facts₀ : Prop where
  shapeCasts_S8x1024x256_S8192x256 : S8x1024x256.ShapeCasts S8192x256
  transposes_S8192x64_S64x8192_1_0 : S8192x64.Transposes [1, 0] S64x8192
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  shapeCasts_S8192x256_S8x1024x256 : S8192x256.ShapeCasts S8x1024x256
  dot_S8192x256_S256x64_S8192x64_1_0_0_1_n_n_wf : DotDims.WF S8192x256 S256x64 S8192x64 [1] [0] [0] [1] [] []
  dot_S8192x64_S64x8192_S8192x8192_1_0_0_1_n_n_wf : DotDims.WF S8192x64 S64x8192 S8192x8192 [1] [0] [0] [1] [] []
  dot_S8192x8192_S8192x256_S8192x256_1_0_0_1_n_n_wf : DotDims.WF S8192x8192 S8192x256 S8192x256 [1] [0] [0] [1] [] []

variable [Facts₀]

def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf

class Facts : Prop extends Facts₀ where

variable [Facts]
-- ==== Proof.K.Proj.lean ====
/- The projection region (the first of the two kernel launches): per grid point the body loads a 1024-row block of the
   flattened input and both 256×64 parameter matrices, and stores three blocks — the scaled product with the first
   matrix, the product with the second, and the block itself in the narrow format. Stated at any float instance and
   at any contents `V` of the core's buffers when the region is entered: each window's block at a point, what the
   body leaves in each output's staging buffer as a function of the input blocks, the body's triple, the pipeline's
   proof data and its body obligation at every point. -/
import proofs.«407828_j65481071406882_3_alg».proof.Proof.Gen.Kernel.Launch
import proofs.«407828_j65481071406882_3_alg».proof.Proof.Gen.Kernel.Skeleton
import proofs.«407828_j65481071406882_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the pipeline fetched it there or
    the block index has not moved since it did. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole buffer -/

abbrev rX : Rect S1024x256 := Rect.unit (s := S1024x256) ![0, 0] S1024x256.size inb_S1024x256_S1024x256_0_0
abbrev rW : Rect S256x64 := Rect.unit (s := S256x64) ![0, 0] S256x64.size inb_S256x64_S256x64_0_0
abbrev rQ : Rect S1024x64 := Rect.unit (s := S1024x64) ![0, 0] S1024x64.size inb_S1024x64_S1024x64_0_0

/-! ## What the body leaves in each output window's buffer -/

/-- The scaled product of the input block with the first parameter matrix. -/
def out0_3 (x0 : Vec F S1024x256 .f32) (x1 : Vec F S256x64 .f32) : Vec F S1024x64 .bf16 :=
  View.canon [⟨rQ, k0_pay2 (View.ld x0 rX) (View.ld x1 rW)⟩]
/-- The product of the input block with the second parameter matrix. -/
def out0_4 (x0 : Vec F S1024x256 .f32) (x2 : Vec F S256x64 .f32) : Vec F S1024x64 .bf16 :=
  View.canon [⟨rQ, k0_pay3 (View.ld x0 rX) (View.ld x2 rW)⟩]
/-- The input block itself, in the narrow format. -/
def out0_5 (x0 : Vec F S1024x256 .f32) : Vec F S1024x256 .bf16 :=
  View.canon [⟨rX, k0_pay1 (View.ld x0 rX)⟩]

/-- Each output is written by one store of the whole buffer, so that store covers it. -/
theorem cover0_Q (p0 : Vec F S1024x64 .bf16) (y : S1024x64.Idx) :
    ∃ pc ∈ ([⟨rQ, p0⟩] : List (View.Piece (Elt F) S1024x64 .bf16)), y ∈ pc.1.set :=
  View.cover_of_tiled [⟨rQ, p0⟩] S1024x64.size (by rfl) y
theorem cover0_X (p0 : Vec F S1024x256 .bf16) (y : S1024x256.Idx) :
    ∃ pc ∈ ([⟨rX, p0⟩] : List (View.Piece (Elt F) S1024x256 .bf16)), y ∈ pc.1.set :=
  View.cover_of_tiled [⟨rX, p0⟩] S1024x256.size (by rfl) y

/-! ## The body's triple -/

set_option maxHeartbeats 1000000 in
/-- The body on whole staging memrefs — the three inputs' at read contents, the three outputs' at anything — runs to the
    continuation holding the inputs' as they were and each output's at its function of the inputs'. -/
theorem sound_kernel0 (c : Dev nD) (E : Set ℕ) (i : grid0.Coords)
    (arg1 : Memref sig .tc .vmem S1024x256 .f32) (harg1 : arg1.IsWhole) (arg2 : Memref sig .tc .vmem S256x64 .f32) (harg2 : arg2.IsWhole)
    (arg3 : Memref sig .tc .vmem S256x64 .f32) (harg3 : arg3.IsWhole) (arg4 : Memref sig .tc .vmem S1024x64 .bf16) (harg4 : arg4.IsWhole)
    (arg5 : Memref sig .tc .vmem S1024x64 .bf16) (harg5 : arg5.IsWhole) (arg6 : Memref sig .tc .vmem S1024x256 .bf16) (harg6 : arg6.IsWhole)
    (x0 : Vec F S1024x256 .f32) (x1 : Vec F S256x64 .f32) (x2 : Vec F S256x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1) ∗ owns (c : Thread nD τ) arg5 fullShare (out0_4 x0 x2)
            ∗ owns (c : Thread nD τ) arg6 fullShare (out0_5 x0)) -∗ K ⟨⟩))
      ⊢ wp frame (wpE (defs₀ (F := F)) Variants.none c none) E (cc0__proj_kernel i arg1 harg1 arg2 harg2 arg3 harg3 arg4 harg4 arg5 harg5 arg6 harg6) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_Q _)
  isplitl [H4]
  · iexists _; isplitr
    swap; · iexact H4
    ipureintro
    exact View.read_writes_eq_canon _ _ _ (cover0_Q _)
  iexists _; isplitr
  swap; · iexact H5
  ipureintro
  exact View.read_writes_eq_canon _ _ _ (cover0_X _)

/-! ## The pipeline's proof data -/

/-- The arrays as the region finds them; after the body at a point each input's buffer at its block and each output's
    at its function of the input blocks; the invariant the scoped rest and the generator register, untouched; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 2 t)
    | ⟨5, _⟩ => out0_5 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 2 t) := by dsimp only [dat0]
theorem after0_5 (c : Dev nD) (t : Fin cfg0.N) : (dat0 V c).after 5 t = out0_5 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Frm

end
-- ==== Proof.K.AttnShared.lean ====
/- The attention region (the second kernel launch), what its three control cases share: the windows' blocks at a point;
   the two branch conditions of the body (the first key block of a query block resets the running maximum, the running
   normaliser and the accumulator; the last one divides and stores the output block) decided over the 8 × 8 grid; where
   the output window is idle; the staging and scratch memrefs; and the region invariant with the three scratch buffers
   split out of the scoped rest. Stated at any float instance and any entry contents `V`. -/
import proofs.«407828_j65481071406882_3_alg».proof.Proof.Gen.Kernel.Launch
import proofs.«407828_j65481071406882_3_alg».proof.Proof.Gen.Kernel.Skeleton
import proofs.«407828_j65481071406882_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions, decided over the grid -/

/-- "This is the first key block of its query block": the reset branch. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- "This is the last key block of its query block": the branch that normalises and stores the output block. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Before the last key block the body stores nothing into the output window, and the pipeline does not write it back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The memrefs the body is called with -/

/-- One staging buffer of the output window, through which its contents are stated. -/
abbrev VO1_3 : View sig .tc .vmem S1024x256 .f32 := (Memref.whole cc1_stg3_0 : Memref sig .tc .vmem S1024x256 .f32).view
abbrev ms1_0 (t : Fin cfg1.N) : Memref sig .tc .vmem S1024x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8192x256 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x256 .f32 := win1_3.stage (cfg1.slots t 3)
abbrev hs1_3 (t : Fin cfg1.N) : (ms1_3 t).IsWhole := hstage1_3 ((cfg1.slots t 3).cast nbuf1_3)
/-- The scratch operands: the running maximum, the running normaliser, the accumulator. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x256 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x256 .f32 := scM1_2.view

/-! ## The region invariant with the scratch split out -/

/-- The scoped rest of this region — the other launch's ten staging buffers at anything, then the three scratch
    buffers as given — and the generator register at some state. -/
def PhiWith (c : Dev nD) (S0 S1 S2 : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ S0 ∗ S1 ∗ S2) ∗ (∃ r, prngReg c r))

/-- What of it the body never touches. -/
def PhiRest (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ r, prngReg c r))

theorem PhiWith_out (c : Dev nD) (S0 S1 S2 : sProp 𝕄) : PhiWith c S0 S1 S2 ⊢ iprop(PhiRest c ∗ S0 ∗ S1 ∗ S2) := by
  unfold PhiWith PhiRest
  iintro ⟨⟨R0, R1, R2, R3, R4, R5, R6, R7, R8, R9, H0, H1, H2⟩, Hg⟩
  isplitl [R0 R1 R2 R3 R4 R5 R6 R7 R8 R9 Hg]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    iexact Hg
  isplitl [H0]; · iexact H0
  isplitl [H1]; · iexact H1
  iexact H2

theorem PhiWith_in (c : Dev nD) (S0 S1 S2 : sProp 𝕄) : iprop(PhiRest c ∗ S0 ∗ S1 ∗ S2) ⊢ PhiWith c S0 S1 S2 := by
  unfold PhiWith PhiRest
  iintro ⟨⟨R0, R1, R2, R3, R4, R5, R6, R7, R8, R9, Hg⟩, H0, H1, H2⟩
  isplitr [Hg]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [H0]; · iexact H0
    isplitl [H1]; · iexact H1
    iexact H2
  iexact Hg

/-- The class's invariant is this one with each scratch buffer at some contents. -/
theorem PhiA1_eq (c : Dev nD) :
    (Pipeline.ΦA spec1 c : sProp 𝕄)
      = PhiWith c (iprop(∃ d, owns (c : Thread nD τ) scM1_0 fullShare d)) (iprop(∃ d, owns (c : Thread nD τ) scM1_1 fullShare d)) (iprop(∃ d, owns (c : Thread nD τ) scM1_2 fullShare d)) := by
  unfold Pipeline.ΦA PhiWith; rw [scopedRest1_eq]; simp only [scM1_0, scM1_1, scM1_2, owns_whole]; try rfl

end Cert.Kernel.Frm

end
-- ==== Proof.K.AttnRunA.lean ====
/- The attention body run whole in the case of a query block's first key block (the reset branch taken, the output branch not): on whole staging memrefs, what its stores leave in the output's staging
   buffer and in the three scratch buffers, as pieces (last first) found by the run itself, with the body's triple. -/
import proofs.«407828_j65481071406882_3_alg».proof.Proof.K.AttnShared

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S1024x64 .bf16) (harg2 : arg2.IsWhole) (arg3 : Memref sig .tc .vmem S8192x64 .bf16) (harg3 : arg3.IsWhole)
    (arg4 : Memref sig .tc .vmem S8192x256 .bf16) (harg4 : arg4.IsWhole) (arg5 : Memref sig .tc .vmem S1024x256 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x256 .f32) (harg8 : arg8.IsWhole) (hc0 : cond1_0 i) (hc1 : ¬cond1_1 i)
    (x0 : Vec F S1024x64 .bf16) (x1 : Vec F S8192x64 .bf16) (x2 : Vec F S8192x256 .bf16) :
    Σ' (LS0 : List (View.Piece (Elt F) S1024x1 .f32)) (LS1 : List (View.Piece (Elt F) S1024x1 .f32)), { LS2 : List (View.Piece (Elt F) S1024x256 .f32) //
      ∀ (xi3 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Frm

end
-- ==== Proof.K.AttnRunB.lean ====
/- The attention body run whole in the case of a middle key block (neither branch taken): on whole staging memrefs, what its stores leave in the output's staging
   buffer and in the three scratch buffers, as pieces (last first) found by the run itself, with the body's triple. -/
import proofs.«407828_j65481071406882_3_alg».proof.Proof.K.AttnShared

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S1024x64 .bf16) (harg2 : arg2.IsWhole) (arg3 : Memref sig .tc .vmem S8192x64 .bf16) (harg3 : arg3.IsWhole)
    (arg4 : Memref sig .tc .vmem S8192x256 .bf16) (harg4 : arg4.IsWhole) (arg5 : Memref sig .tc .vmem S1024x256 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x256 .f32) (harg8 : arg8.IsWhole) (hc0 : ¬cond1_0 i) (hc1 : ¬cond1_1 i)
    (x0 : Vec F S1024x64 .bf16) (x1 : Vec F S8192x64 .bf16) (x2 : Vec F S8192x256 .bf16)
    (xs0 : Vec F S1024x1 .f32) (xs1 : Vec F S1024x1 .f32) (xs2 : Vec F S1024x256 .f32) :
    Σ' (LS0 : List (View.Piece (Elt F) S1024x1 .f32)) (LS1 : List (View.Piece (Elt F) S1024x1 .f32)), { LS2 : List (View.Piece (Elt F) S1024x256 .f32) //
      ∀ (xi3 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Frm

end
-- ==== Proof.K.AttnRunC.lean ====
/- The attention body run whole in the case of a query block's last key block (the output branch taken, the reset branch not): on whole staging memrefs, what its stores leave in the output's staging
   buffer and in the three scratch buffers, as pieces (last first) found by the run itself, with the body's triple. -/
import proofs.«407828_j65481071406882_3_alg».proof.Proof.K.AttnShared

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S1024x64 .bf16) (harg2 : arg2.IsWhole) (arg3 : Memref sig .tc .vmem S8192x64 .bf16) (harg3 : arg3.IsWhole)
    (arg4 : Memref sig .tc .vmem S8192x256 .bf16) (harg4 : arg4.IsWhole) (arg5 : Memref sig .tc .vmem S1024x256 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x256 .f32) (harg8 : arg8.IsWhole) (hc0 : ¬cond1_0 i) (hc1 : cond1_1 i)
    (x0 : Vec F S1024x64 .bf16) (x1 : Vec F S8192x64 .bf16) (x2 : Vec F S8192x256 .bf16)
    (xs0 : Vec F S1024x1 .f32) (xs1 : Vec F S1024x1 .f32) (xs2 : Vec F S1024x256 .f32) :
    Σ' (L3 : List (View.Piece (Elt F) S1024x256 .f32)) (LS0 : List (View.Piece (Elt F) S1024x1 .f32)) (LS1 : List (View.Piece (Elt F) S1024x1 .f32)), { LS2 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.Kernel.Frm

end
-- ==== Proof.K.Attn.lean ====
/- The attention region's proof data: what each control case leaves in the output's staging buffer and in the three
   scratch buffers (the running maximum, the running normaliser, the accumulator) as the run's pieces read back; what
   those buffers hold after each of the 64 grid points, by recursion on the point — a query block's first key block
   starts afresh, every later one continues from what the point before left —; the region invariant that carries the
   scratch from point to point; and the body obligation at every point. At any float instance and entry contents. -/
import proofs.«407828_j65481071406882_3_alg».proof.Proof.K.AttnRunA
import proofs.«407828_j65481071406882_3_alg».proof.Proof.K.AttnRunB
import proofs.«407828_j65481071406882_3_alg».proof.Proof.K.AttnRunC

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Where the body stores nothing into the output window (every key block but the last) the proof data names a
    placeholder for its contents: the window is idle there and not written back, so nothing reads it. -/
def outIdle : Vec F S1024x256 .f32 := VO1_3.read (Elt F) VO1_3.junk

theorem scover1_A_0 (c : Dev nD) (i : grid1.Coords) (arg2 : Memref sig .tc .vmem S1024x64 .bf16) (harg2 : arg2.IsWhole) (arg3 : Memref sig .tc .vmem S8192x64 .bf16) (harg3 : arg3.IsWhole) (arg4 : Memref sig .tc .vmem S8192x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : cond1_0 i) (hc1 : ¬cond1_1 i)
    (x0 : Vec F S1024x64 .bf16) (x1 : Vec F S8192x64 .bf16) (x2 : Vec F S8192x256 .bf16) (y : S1024x1.Idx) :
    ∃ pc ∈ (kernelRun1_A c i arg2 harg2 arg3 harg3 arg4 harg4 arg5 harg5 arg6 harg6 arg7 harg7 arg8 harg8 hc0 hc1 x0 x1 x2).1, y ∈ pc.1.set :=
  View.cover_of_tiledL (kernelRun1_A c i arg2 harg2 arg3 harg3 arg4 harg4 arg5 harg5 arg6 harg6 arg7 harg7 arg8 harg8 hc0 hc1 x0 x1 x2).1 S1024x1.size (by sl_kernel_rfl) y

def sout1_A_0 (c : Dev nD) (i : grid1.Coords) (arg2 : Memref sig .tc .vmem S1024x64 .bf16) (harg2 : arg2.IsWhole) (arg3 : Memref sig .tc .vmem S8192x64 .bf16) (harg3 : arg3.IsWhole) (arg4 : Memref sig .tc .vmem S8192x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : cond1_0 i) (hc1 : ¬cond1_1 i)
    (x0 : Vec F S1024x64 .bf16) (x1 : Vec F S8192x64 .bf16) (x2 : Vec F S8192x256 .bf16) : Vec F S1024x1 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2).1)

theorem scover1_A_1 (c : Dev nD) (i : grid1.Coords) (arg2 : Memref sig .tc .vmem S1024x64 .bf16) (harg2 : arg2.IsWhole) (arg3 : Memref sig .tc .vmem S8192x64 .bf16) (harg3 : arg3.IsWhole) (arg4 : Memref sig .tc .vmem S8192x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : cond1_0 i) (hc1 : ¬cond1_1 i)
    (x0 : Vec F S1024x64 .bf16) (x1 : Vec F S8192x64 .bf16) (x2 : Vec F S8192x256 .bf16) (y : S1024x1.Idx) :
    ∃ pc ∈ (kernelRun1_A c i arg2 harg2 arg3 harg3 arg4 harg4 arg5 harg5 arg6 harg6 arg7 harg7 arg8 harg8 hc0 hc1 x0 x1 x2).2.1, y ∈ pc.1.set :=
  View.cover_of_tiledL (kernelRun1_A c i arg2 harg2 arg3 harg3 arg4 harg4 arg5 harg5 arg6 harg6 arg7 harg7 arg8 harg8 hc0 hc1 x0 x1 x2).2.1 S1024x1.size (by sl_kernel_rfl) y

def sout1_A_1 (c : Dev nD) (i : grid1.Coords) (arg2 : Memref sig .tc .vmem S1024x64 .bf16) (harg2 : arg2.IsWhole) (arg3 : Memref sig .tc .vmem S8192x64 .bf16) (harg3 : arg3.IsWhole) (arg4 : Memref sig .tc .vmem S8192x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : cond1_0 i) (hc1 : ¬cond1_1 i)
    (x0 : Vec F S1024x64 .bf16) (x1 : Vec F S8192x64 .bf16) (x2 : Vec F S8192x256 .bf16) : Vec F S1024x1 .f32 :=
  VS1_1.read (Elt F) (VS1_1.writes (Elt F) VS1_1.junk (kernelRun1_A c i arg2 harg2 arg3 harg3 arg4 harg4 arg5 harg5 arg6 harg6 arg7 harg7 arg8 harg8 hc0 hc1 x0 x1 x2).2.1)

theorem scover1_A_2 (c : Dev nD) (i : grid1.Coords) (arg2 : Memref sig .tc .vmem S1024x64 .bf16) (harg2 : arg2.IsWhole) (arg3 : Memref sig .tc .vmem S8192x64 .bf16) (harg3 : arg3.IsWhole) (arg4 : Memref sig .tc .vmem S8192x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : cond1_0 i) (hc1 : ¬cond1_1 i)
    (x0 : Vec F S1024x64 .bf16) (x1 : Vec F S8192x64 .bf16) (x2 : Vec F S8192x256 .bf16) (y : S1024x256.Idx) :
    ∃ pc ∈ (kernelRun1_A c i arg2 harg2 arg3 harg3 arg4 harg4 arg5 harg5 arg6 harg6 arg7 harg7 arg8 harg8 hc0 hc1 x0 x1 x2).2.2.1, y ∈ pc.1.set :=
  View.cover_of_tiledL (kernelRun1_A c i arg2 harg2 arg3 harg3 arg4 harg4 arg5 harg5 arg6 harg6 arg7 harg7 arg8 harg8 hc0 hc1 x0 x1 x2).2.2.1 S1024x256.size (by sl_kernel_rfl) y

def sout1_A_2 (c : Dev nD) (i : grid1.Coords) (arg2 : Memref sig .tc .vmem S1024x64 .bf16) (harg2 : arg2.IsWhole) (arg3 : Memref sig .tc .vmem S8192x64 .bf16) (harg3 : arg3.IsWhole) (arg4 : Memref sig .tc .vmem S8192x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : cond1_0 i) (hc1 : ¬cond1_1 i)
    (x0 : Vec F S1024x64 .bf16) (x1 : Vec F S8192x64 .bf16) (x2 : Vec F S8192x256 .bf16) : Vec F S1024x256 .f32 :=
  VS1_2.read (Elt F) (VS1_2.writes (Elt F) VS1_2.junk (kernelRun1_A c i arg2 harg2 arg3 harg3 arg4 harg4 arg5 harg5 arg6 harg6 arg7 harg7 arg8 harg8 hc0 hc1 x0 x1 x2).2.2.1)

theorem scover1_B_0 (c : Dev nD) (i : grid1.Coords) (arg2 : Memref sig .tc .vmem S1024x64 .bf16) (harg2 : arg2.IsWhole) (arg3 : Memref sig .tc .vmem S8192x64 .bf16) (harg3 : arg3.IsWhole) (arg4 : Memref sig .tc .vmem S8192x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : ¬cond1_1 i)
    (x0 : Vec F S1024x64 .bf16) (x1 : Vec F S8192x64 .bf16) (x2 : Vec F S8192x256 .bf16) (xs0 : Vec F S1024x1 .f32) (xs1 : Vec F S1024x1 .f32) (xs2 : Vec F S1024x256 .f32) (y : S1024x1.Idx) :
    ∃ pc ∈ (kernelRun1_B c i arg2 harg2 arg3 harg3 arg4 harg4 arg5 harg5 arg6 harg6 arg7 harg7 arg8 harg8 hc0 hc1 x0 x1 x2 xs0 xs1 xs2).1, y ∈ pc.1.set :=
  View.cover_of_tiledL (kernelRun1_B c i arg2 harg2 arg3 harg3 arg4 harg4 arg5 harg5 arg6 harg6 arg7 harg7 arg8 harg8 hc0 hc1 x0 x1 x2 xs0 xs1 xs2).1 S1024x1.size (by sl_kernel_rfl) y

def sout1_B_0 (c : Dev nD) (i : grid1.Coords) (arg2 : Memref sig .tc .vmem S1024x64 .bf16) (harg2 : arg2.IsWhole) (arg3 : Memref sig .tc .vmem S8192x64 .bf16) (harg3 : arg3.IsWhole) (arg4 : Memref sig .tc .vmem S8192x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : ¬cond1_1 i)
    (x0 : Vec F S1024x64 .bf16) (x1 : Vec F S8192x64 .bf16) (x2 : Vec F S8192x256 .bf16) (xs0 : Vec F S1024x1 .f32) (xs1 : Vec F S1024x1 .f32) (xs2 : Vec F S1024x256 .f32) : Vec F S1024x1 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 xs0 xs1 xs2).1)

theorem scover1_B_1 (c : Dev nD) (i : grid1.Coords) (arg2 : Memref sig .tc .vmem S1024x64 .bf16) (harg2 : arg2.IsWhole) (arg3 : Memref sig .tc .vmem S8192x64 .bf16) (harg3 : arg3.IsWhole) (arg4 : Memref sig .tc .vmem S8192x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : ¬cond1_1 i)
    (x0 : Vec F S1024x64 .bf16) (x1 : Vec F S8192x64 .bf16) (x2 : Vec F S8192x256 .bf16) (xs0 : Vec F S1024x1 .f32) (xs1 : Vec F S1024x1 .f32) (xs2 : Vec F S1024x256 .f32) (y : S1024x1.Idx) :
    ∃ pc ∈ (kernelRun1_B c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.1 S1024x1.size (by sl_kernel_rfl) y

def sout1_B_1 (c : Dev nD) (i : grid1.Coords) (arg2 : Memref sig .tc .vmem S1024x64 .bf16) (harg2 : arg2.IsWhole) (arg3 : Memref sig .tc .vmem S8192x64 .bf16) (harg3 : arg3.IsWhole) (arg4 : Memref sig .tc .vmem S8192x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : ¬cond1_1 i)
    (x0 : Vec F S1024x64 .bf16) (x1 : Vec F S8192x64 .bf16) (x2 : Vec F S8192x256 .bf16) (xs0 : Vec F S1024x1 .f32) (xs1 : Vec F S1024x1 .f32) (xs2 : Vec F S1024x256 .f32) : Vec F S1024x1 .f32 :=
  VS1_1.read (Elt F) (VS1_1.writes (Elt F) VS1_1.junk (kernelRun1_B c i arg2 harg2 arg3 harg3 arg4 harg4 arg5 harg5 arg6 harg6 arg7 harg7 arg8 harg8 hc0 hc1 x0 x1 x2 xs0 xs1 xs2).2.1)

theorem scover1_B_2 (c : Dev nD) (i : grid1.Coords) (arg2 : Memref sig .tc .vmem S1024x64 .bf16) (harg2 : arg2.IsWhole) (arg3 : Memref sig .tc .vmem S8192x64 .bf16) (harg3 : arg3.IsWhole) (arg4 : Memref sig .tc .vmem S8192x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : ¬cond1_1 i)
    (x0 : Vec F S1024x64 .bf16) (x1 : Vec F S8192x64 .bf16) (x2 : Vec F S8192x256 .bf16) (xs0 : Vec F S1024x1 .f32) (xs1 : Vec F S1024x1 .f32) (xs2 : Vec F S1024x256 .f32) (y : S1024x256.Idx) :
    ∃ pc ∈ (kernelRun1_B c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.2.1 S1024x256.size (by sl_kernel_rfl) y

def sout1_B_2 (c : Dev nD) (i : grid1.Coords) (arg2 : Memref sig .tc .vmem S1024x64 .bf16) (harg2 : arg2.IsWhole) (arg3 : Memref sig .tc .vmem S8192x64 .bf16) (harg3 : arg3.IsWhole) (arg4 : Memref sig .tc .vmem S8192x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : ¬cond1_1 i)
    (x0 : Vec F S1024x64 .bf16) (x1 : Vec F S8192x64 .bf16) (x2 : Vec F S8192x256 .bf16) (xs0 : Vec F S1024x1 .f32) (xs1 : Vec F S1024x1 .f32) (xs2 : Vec F S1024x256 .f32) : Vec F S1024x256 .f32 :=
  VS1_2.read (Elt F) (VS1_2.writes (Elt F) VS1_2.junk (kernelRun1_B c i arg2 harg2 arg3 harg3 arg4 harg4 arg5 harg5 arg6 harg6 arg7 harg7 arg8 harg8 hc0 hc1 x0 x1 x2 xs0 xs1 xs2).2.2.1)

theorem scover1_C_0 (c : Dev nD) (i : grid1.Coords) (arg2 : Memref sig .tc .vmem S1024x64 .bf16) (harg2 : arg2.IsWhole) (arg3 : Memref sig .tc .vmem S8192x64 .bf16) (harg3 : arg3.IsWhole) (arg4 : Memref sig .tc .vmem S8192x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : cond1_1 i)
    (x0 : Vec F S1024x64 .bf16) (x1 : Vec F S8192x64 .bf16) (x2 : Vec F S8192x256 .bf16) (xs0 : Vec F S1024x1 .f32) (xs1 : Vec F S1024x1 .f32) (xs2 : Vec F S1024x256 .f32) (y : S1024x1.Idx) :
    ∃ pc ∈ (kernelRun1_C c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.1 S1024x1.size (by sl_kernel_rfl) y

def sout1_C_0 (c : Dev nD) (i : grid1.Coords) (arg2 : Memref sig .tc .vmem S1024x64 .bf16) (harg2 : arg2.IsWhole) (arg3 : Memref sig .tc .vmem S8192x64 .bf16) (harg3 : arg3.IsWhole) (arg4 : Memref sig .tc .vmem S8192x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : cond1_1 i)
    (x0 : Vec F S1024x64 .bf16) (x1 : Vec F S8192x64 .bf16) (x2 : Vec F S8192x256 .bf16) (xs0 : Vec F S1024x1 .f32) (xs1 : Vec F S1024x1 .f32) (xs2 : Vec F S1024x256 .f32) : Vec F S1024x1 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 xs0 xs1 xs2).2.1)

theorem scover1_C_1 (c : Dev nD) (i : grid1.Coords) (arg2 : Memref sig .tc .vmem S1024x64 .bf16) (harg2 : arg2.IsWhole) (arg3 : Memref sig .tc .vmem S8192x64 .bf16) (harg3 : arg3.IsWhole) (arg4 : Memref sig .tc .vmem S8192x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : cond1_1 i)
    (x0 : Vec F S1024x64 .bf16) (x1 : Vec F S8192x64 .bf16) (x2 : Vec F S8192x256 .bf16) (xs0 : Vec F S1024x1 .f32) (xs1 : Vec F S1024x1 .f32) (xs2 : Vec F S1024x256 .f32) (y : S1024x1.Idx) :
    ∃ pc ∈ (kernelRun1_C c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.2.1 S1024x1.size (by sl_kernel_rfl) y

def sout1_C_1 (c : Dev nD) (i : grid1.Coords) (arg2 : Memref sig .tc .vmem S1024x64 .bf16) (harg2 : arg2.IsWhole) (arg3 : Memref sig .tc .vmem S8192x64 .bf16) (harg3 : arg3.IsWhole) (arg4 : Memref sig .tc .vmem S8192x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : cond1_1 i)
    (x0 : Vec F S1024x64 .bf16) (x1 : Vec F S8192x64 .bf16) (x2 : Vec F S8192x256 .bf16) (xs0 : Vec F S1024x1 .f32) (xs1 : Vec F S1024x1 .f32) (xs2 : Vec F S1024x256 .f32) : Vec F S1024x1 .f32 :=
  VS1_1.read (Elt F) (VS1_1.writes (Elt F) VS1_1.junk (kernelRun1_C c i arg2 harg2 arg3 harg3 arg4 harg4 arg5 harg5 arg6 harg6 arg7 harg7 arg8 harg8 hc0 hc1 x0 x1 x2 xs0 xs1 xs2).2.2.1)

theorem scover1_C_2 (c : Dev nD) (i : grid1.Coords) (arg2 : Memref sig .tc .vmem S1024x64 .bf16) (harg2 : arg2.IsWhole) (arg3 : Memref sig .tc .vmem S8192x64 .bf16) (harg3 : arg3.IsWhole) (arg4 : Memref sig .tc .vmem S8192x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : cond1_1 i)
    (x0 : Vec F S1024x64 .bf16) (x1 : Vec F S8192x64 .bf16) (x2 : Vec F S8192x256 .bf16) (xs0 : Vec F S1024x1 .f32) (xs1 : Vec F S1024x1 .f32) (xs2 : Vec F S1024x256 .f32) (y : S1024x256.Idx) :
    ∃ pc ∈ (kernelRun1_C c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.2.2.1 S1024x256.size (by sl_kernel_rfl) y

def sout1_C_2 (c : Dev nD) (i : grid1.Coords) (arg2 : Memref sig .tc .vmem S1024x64 .bf16) (harg2 : arg2.IsWhole) (arg3 : Memref sig .tc .vmem S8192x64 .bf16) (harg3 : arg3.IsWhole) (arg4 : Memref sig .tc .vmem S8192x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : cond1_1 i)
    (x0 : Vec F S1024x64 .bf16) (x1 : Vec F S8192x64 .bf16) (x2 : Vec F S8192x256 .bf16) (xs0 : Vec F S1024x1 .f32) (xs1 : Vec F S1024x1 .f32) (xs2 : Vec F S1024x256 .f32) : Vec F S1024x256 .f32 :=
  VS1_2.read (Elt F) (VS1_2.writes (Elt F) VS1_2.junk (kernelRun1_C c i arg2 harg2 arg3 harg3 arg4 harg4 arg5 harg5 arg6 harg6 arg7 harg7 arg8 harg8 hc0 hc1 x0 x1 x2 xs0 xs1 xs2).2.2.2.1)

/-- The last key block's store of the output block covers it. -/
theorem cover1_C_3 (c : Dev nD) (i : grid1.Coords) (arg2 : Memref sig .tc .vmem S1024x64 .bf16) (harg2 : arg2.IsWhole) (arg3 : Memref sig .tc .vmem S8192x64 .bf16) (harg3 : arg3.IsWhole) (arg4 : Memref sig .tc .vmem S8192x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : cond1_1 i)
    (x0 : Vec F S1024x64 .bf16) (x1 : Vec F S8192x64 .bf16) (x2 : Vec F S8192x256 .bf16) (xs0 : Vec F S1024x1 .f32) (xs1 : Vec F S1024x1 .f32) (xs2 : Vec F S1024x256 .f32) (y : S1024x256.Idx) :
    ∃ pc ∈ (kernelRun1_C c i arg2 harg2 arg3 harg3 arg4 harg4 arg5 harg5 arg6 harg6 arg7 harg7 arg8 harg8 hc0 hc1 x0 x1 x2 xs0 xs1 xs2).1, y ∈ pc.1.set :=
  View.cover_of_tiledL (kernelRun1_C c i arg2 harg2 arg3 harg3 arg4 harg4 arg5 harg5 arg6 harg6 arg7 harg7 arg8 harg8 hc0 hc1 x0 x1 x2 xs0 xs1 xs2).1 S1024x256.size (by sl_kernel_rfl) y

def out1_C_3 (c : Dev nD) (i : grid1.Coords) (arg2 : Memref sig .tc .vmem S1024x64 .bf16) (harg2 : arg2.IsWhole) (arg3 : Memref sig .tc .vmem S8192x64 .bf16) (harg3 : arg3.IsWhole) (arg4 : Memref sig .tc .vmem S8192x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : cond1_1 i)
    (x0 : Vec F S1024x64 .bf16) (x1 : Vec F S8192x64 .bf16) (x2 : Vec F S8192x256 .bf16) (xs0 : Vec F S1024x1 .f32) (xs1 : Vec F S1024x1 .f32) (xs2 : Vec F S1024x256 .f32) : Vec F S1024x256 .f32 :=
  VO1_3.read (Elt F) (VO1_3.writes (Elt F) VO1_3.junk (kernelRun1_C c i arg2 harg2 arg3 harg3 arg4 harg4 arg5 harg5 arg6 harg6 arg7 harg7 arg8 harg8 hc0 hc1 x0 x1 x2 xs0 xs1 xs2).1)

/-! ## What the buffers hold after each point -/

/-- After the body at position `n`: the output's staging buffer, then the running maximum, the running normaliser and
    the accumulator — the case the position selects, run at the point's memrefs and blocks; a later key block over
    what the position before left in the scratch. -/
def outsAt1 (c : Dev nD) : (n : ℕ) → n < cfg1.N → Vec F S1024x256 .f32 × Vec F S1024x1 .f32 × Vec F S1024x1 .f32 × Vec F S1024x256 .f32
  | 0, hn => (outIdle (F := F), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 = 7 then
        False.elim (by omega)
      else
        (outIdle (F := F), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)
      else
        (outIdle (F := F), sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)

theorem outsAt1_A (c : Dev nD) (t : Fin cfg1.N) (h0 : t.val % 8 = 0) (h1 : ¬t.val % 8 = 7) :
    outsAt1 V c t.val t.isLt = (outIdle (F := F), sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (outIdle (F := F), sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The region invariant: the scratch carried from point to point -/

/-- Before the first point the class's invariant (every scratch buffer at anything); afterwards the three scratch
    buffers at what the point before left in them. -/
def PhiS1 (c : Dev nD) : (n : ℕ) → n ≤ cfg1.N → sProp 𝕄
  | 0, _ => Pipeline.ΦA spec1 c
  | n + 1, hn => PhiWith c (owns (c : Thread nD τ) scM1_0 fullShare ((outsAt1 V c n hn).2.1))
      (owns (c : Thread nD τ) scM1_1 fullShare ((outsAt1 V c n hn).2.2.1)) (owns (c : Thread nD τ) scM1_2 fullShare ((outsAt1 V c n hn).2.2.2))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = PhiWith c (owns (c : Thread nD τ) scM1_0 fullShare ((outsAt1 V c n hn).2.1))
      (owns (c : Thread nD τ) scM1_1 fullShare ((outsAt1 V c n hn).2.2.1)) (owns (c : Thread nD τ) scM1_2 fullShare ((outsAt1 V c n hn).2.2.2)) := rfl

theorem PhiS1_pos (c : Dev nD) (n : ℕ) (h : n ≤ cfg1.N) (hz : n ≠ 0) :
    PhiS1 V c n h = PhiWith c (owns (c : Thread nD τ) scM1_0 fullShare ((outsAt1 V c (n - 1) (by omega)).2.1))
      (owns (c : Thread nD τ) scM1_1 fullShare ((outsAt1 V c (n - 1) (by omega)).2.2.1)) (owns (c : Thread nD τ) scM1_2 fullShare ((outsAt1 V c (n - 1) (by omega)).2.2.2)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point: the position says which case the point is in; the inputs' memrefs hold their blocks; the
    invariant hands the body the scratch at what the point before left (at anything before the first point) and takes
    it back at this point's contents; the output window is handed back untouched except at a last key block. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 8 = 0
  · by_cases h1 : t.val % 8 = 7
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_A V c t h0 h1]
      unfold sout1_A_0 sout1_A_1 sout1_A_2; (try dsimp only)
      by_cases hz : t.val = 0
      · rw [PhiS1_castSucc V c t, PhiS1_zero V c _ _ hz, PhiA1_eq]
        iintro ⟨HΦ, Ho, ⟨%d0, H0⟩, ⟨%d1, H1⟩, ⟨%d2, H2⟩, ⟨%d3, H3⟩⟩
        ihave HΦ' := (PhiWith_out c _ _ _) $$ HΦ
        icases HΦ' with ⟨HR, HS0, HS1, HS2⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HR HS0 HS1 HS2]
        · iapply (PhiWith_in c _ _ _)
          isplitl [HR]; · iexact HR
          isplitl [HS0]
          · unfold owns; iexists _; isplitr
            swap; · iexact HS0
            ipureintro; exact View.read_writes_of_cover _ _ _ _ _ (scover1_A_0 c _ _ _ _ _ _ _ _ _ _ _ _ _ _ _ _ _ _ _ _ )
          isplitl [HS1]
          · unfold owns; iexists _; isplitr
            swap; · iexact HS1
            ipureintro; exact View.read_writes_of_cover _ _ _ _ _ (scover1_A_1 c _ _ _ _ _ _ _ _ _ _ _ _ _ _ _ _ _ _ _ _ )
          unfold owns; iexists _; isplitr
          swap; · iexact HS2
          ipureintro; exact View.read_writes_of_cover _ _ _ _ _ (scover1_A_2 c _ _ _ _ _ _ _ _ _ _ _ _ _ _ _ _ _ _ _ _ )
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨HΦ, Ho, ⟨%d0, H0⟩, ⟨%d1, H1⟩, ⟨%d2, H2⟩, ⟨%d3, H3⟩⟩
        ihave HΦ' := (PhiWith_out c _ _ _) $$ HΦ
        icases HΦ' with ⟨HR, HS0, HS1, HS2⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%es0, HS0⟩, ⟨%es1, HS1⟩, ⟨%es2, HS2⟩⟩
        isplitl [HR HS0 HS1 HS2]
        · iapply (PhiWith_in c _ _ _)
          isplitl [HR]; · iexact HR
          isplitl [HS0]
          · unfold owns; iexists _; isplitr
            swap; · iexact HS0
            ipureintro; exact View.read_writes_of_cover _ _ _ _ _ (scover1_A_0 c _ _ _ _ _ _ _ _ _ _ _ _ _ _ _ _ _ _ _ _ )
          isplitl [HS1]
          · unfold owns; iexists _; isplitr
            swap; · iexact HS1
            ipureintro; exact View.read_writes_of_cover _ _ _ _ _ (scover1_A_1 c _ _ _ _ _ _ _ _ _ _ _ _ _ _ _ _ _ _ _ _ )
          unfold owns; iexists _; isplitr
          swap; · iexact HS2
          ipureintro; exact View.read_writes_of_cover _ _ _ _ _ (scover1_A_2 c _ _ _ _ _ _ _ _ _ _ _ _ _ _ _ _ _ _ _ _ )
        isplitl [Ho]; · iexact Ho
        isplitl [H0]; · iexact H0
        isplitl [H1]; · iexact H1
        isplitl [H2]; · iexact H2
        iexists _; iexact H3
  · by_cases h1 : t.val % 8 = 7
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C_0 sout1_C_1 sout1_C_2; (try dsimp only)
      by_cases hz : t.val = 0
      · exfalso; omega
      · rw [PhiS1_castSucc V c t, PhiS1_pos V c _ _ hz]
        iintro ⟨HΦ, Ho, ⟨%d0, H0⟩, ⟨%d1, H1⟩, ⟨%d2, H2⟩, ⟨%d3, H3⟩⟩
        ihave HΦ' := (PhiWith_out c _ _ _) $$ HΦ
        icases HΦ' with ⟨HR, HS0, HS1, HS2⟩
        iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) _ _ _).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%es0, HS0⟩, ⟨%es1, HS1⟩, ⟨%es2, HS2⟩⟩
        isplitl [HR HS0 HS1 HS2]
        · iapply (PhiWith_in c _ _ _)
          isplitl [HR]; · iexact HR
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ )
          isplitl [HS1]
          · unfold owns; iexists _; isplitr
            swap; · iexact HS1
            ipureintro; exact View.read_writes_of_cover _ _ _ _ _ (scover1_C_1 c _ _ _ _ _ _ _ _ _ _ _ _ _ _ _ _ _ _ _ _ _ _ _ )
          unfold owns; iexists _; isplitr
          swap; · iexact HS2
          ipureintro; exact View.read_writes_of_cover _ _ _ _ _ (scover1_C_2 c _ _ _ _ _ _ _ _ _ _ _ _ _ _ _ _ _ _ _ _ _ _ _ )
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _ _ _ _ _ _ _ )
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B_0 sout1_B_1 sout1_B_2; (try dsimp only)
      by_cases hz : t.val = 0
      · exfalso; omega
      · rw [PhiS1_castSucc V c t, PhiS1_pos V c _ _ hz]
        iintro ⟨HΦ, Ho, ⟨%d0, H0⟩, ⟨%d1, H1⟩, ⟨%d2, H2⟩, ⟨%d3, H3⟩⟩
        ihave HΦ' := (PhiWith_out c _ _ _) $$ HΦ
        icases HΦ' with ⟨HR, HS0, HS1, HS2⟩
        iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _ _).2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HR HS0 HS1 HS2]
        · iapply (PhiWith_in c _ _ _)
          isplitl [HR]; · iexact HR
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ )
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _ _ )
          unfold owns; iexists _; isplitr
          swap; · iexact HS2
          ipureintro; exact View.read_writes_of_cover _ _ _ _ _ (scover1_B_2 c _ _ _ _ _ _ _ _ _ _ _ _ _ _ _ _ _ _ _ _ _ _ _ )
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro HΦ
  ihave HΦ' := (PhiWith_out c _ _ _) $$ HΦ
  icases HΦ' with ⟨HR, HS0, HS1, HS2⟩
  iapply (PhiWith_in c _ _ _)
  isplitl [HR]; · iexact HR
  isplitl [HS0]; · iexists _; iexact HS0
  isplitl [HS1]; · iexists _; iexact HS1
  iexists _; iexact HS2

theorem hout1 (c : Dev nD) : (dat1 V c).Φ (Fin.last cfg1.N) ⊢ Pipeline.ΦA spec1 c :=
  Phi_out1 V c _ (by rw [Fin.val_last]; have : cfg1.N = 64 := N_1; omega)

end Cert.Kernel.Frm

end
-- ==== Proof.K.Run.lean ====
/- The launch: @main as a host stretch (the flattening reshape), the projection region, the attention region and a host
   stretch (the reshape back), composed; the contents of every unscoped buffer at each boundary as a fold from the
   launch memory; each region as a segment entered from the boundary before it and left at the one after it; and the
   run — every weakly fair execution ends with every unscoped buffer at the last boundary's contents. At any float
   instance. -/
import proofs.«407828_j65481071406882_3_alg».proof.Proof.K.Proj
import proofs.«407828_j65481071406882_3_alg».proof.Proof.K.Attn

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through @main -/

/-- Core `c`'s buffers at launch. -/
abbrev W0 : Dev nD → Valuation τ sig (Elt F) := fun c b => (s₀ m ρ).mem ((c : Dev nD), b)
/-- After the flattening reshape: the projection region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the attention region's exit (it is entered from the projection's exit: no host line between them). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the reshape back: the end. -/
abbrev W4 : Dev nD → Valuation τ sig (Elt F) := fun c => StableHlo.after hostOps2 (W3 m ρ c)

/-! ### The arguments end as launched: no host line and no region writes one -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W2 m ρ c (Proc.devRef .tc main_arg1) := W3_of_ne m ρ c main_arg1 (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W2 m ρ c (Proc.devRef .tc main_arg2) := W3_of_ne m ρ c main_arg2 (by decide)
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = m ((c : Thread nD τ).loc main_arg2) := rfl

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec0 c ⊢ (pdats m ρ 0 c).Φ 0 from Entails.refl _)
    unfold Pipeline.ΦA
    iintro ⟨Hp, -, Hr⟩
    isplitl [Hr]; · iexact Hr
    iexact Hp
  hout c := by
    rw [Pipeline.ownSems0_none]
    refine BIBase.Entails.trans (show (pdats m ρ 0 c).Φ (Fin.last _) ⊢ Pipeline.ΦA spec0 c from Entails.refl _) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m ρ 1 c).Φ 0 from hin1 (V2 m ρ) c)
    unfold Pipeline.ΦA
    iintro ⟨Hp, -, Hr⟩
    isplitl [Hr]; · iexact Hr
    iexact Hp
  hout c := by
    rw [Pipeline.ownSems0_none]
    refine BIBase.Entails.trans (show (pdats m ρ 1 c).Φ (Fin.last _) ⊢ Pipeline.ΦA spec1 c from hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ),
    .host (hseg hostOps2 hostOps2_sub hostOps2_fresh' (W3 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    in every final state every unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_all m ρ)

end Cert.Kernel.Frm

end
-- ==== Proof.KI.Proj.lean ====
/- The projection region (the first of the two kernel launches): per grid point the body loads a 1024-row block of the
   flattened input and both 256×64 parameter matrices, and stores three blocks — the scaled product with the first
   matrix, the product with the second, and the block itself in the narrow format. Stated at any float instance and
   at any contents `V` of the core's buffers when the region is entered: each window's block at a point, what the
   body leaves in each output's staging buffer as a function of the input blocks, the body's triple, the pipeline's
   proof data and its body obligation at every point. -/
import proofs.«407828_j65481071406882_3_alg».proof.Proof.Gen.KernelIdeal.Launch
import proofs.«407828_j65481071406882_3_alg».proof.Proof.Gen.KernelIdeal.Skeleton
import proofs.«407828_j65481071406882_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the pipeline fetched it there or
    the block index has not moved since it did. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole buffer -/

abbrev rX : Rect S1024x256 := Rect.unit (s := S1024x256) ![0, 0] S1024x256.size inb_S1024x256_S1024x256_0_0
abbrev rW : Rect S256x64 := Rect.unit (s := S256x64) ![0, 0] S256x64.size inb_S256x64_S256x64_0_0
abbrev rQ : Rect S1024x64 := Rect.unit (s := S1024x64) ![0, 0] S1024x64.size inb_S1024x64_S1024x64_0_0

/-! ## What the body leaves in each output window's buffer -/

/-- The scaled product of the input block with the first parameter matrix. -/
def out0_3 (x0 : Vec F S1024x256 .f32) (x1 : Vec F S256x64 .f32) : Vec F S1024x64 .bf16 :=
  View.canon [⟨rQ, k0_pay2 (View.ld x0 rX) (View.ld x1 rW)⟩]
/-- The product of the input block with the second parameter matrix. -/
def out0_4 (x0 : Vec F S1024x256 .f32) (x2 : Vec F S256x64 .f32) : Vec F S1024x64 .bf16 :=
  View.canon [⟨rQ, k0_pay3 (View.ld x0 rX) (View.ld x2 rW)⟩]
/-- The input block itself, in the narrow format. -/
def out0_5 (x0 : Vec F S1024x256 .f32) : Vec F S1024x256 .bf16 :=
  View.canon [⟨rX, k0_pay1 (View.ld x0 rX)⟩]

/-- Each output is written by one store of the whole buffer, so that store covers it. -/
theorem cover0_Q (p0 : Vec F S1024x64 .bf16) (y : S1024x64.Idx) :
    ∃ pc ∈ ([⟨rQ, p0⟩] : List (View.Piece (Elt F) S1024x64 .bf16)), y ∈ pc.1.set :=
  View.cover_of_tiled [⟨rQ, p0⟩] S1024x64.size (by rfl) y
theorem cover0_X (p0 : Vec F S1024x256 .bf16) (y : S1024x256.Idx) :
    ∃ pc ∈ ([⟨rX, p0⟩] : List (View.Piece (Elt F) S1024x256 .bf16)), y ∈ pc.1.set :=
  View.cover_of_tiled [⟨rX, p0⟩] S1024x256.size (by rfl) y

/-! ## The body's triple -/

set_option maxHeartbeats 1000000 in
/-- The body on whole staging memrefs — the three inputs' at read contents, the three outputs' at anything — runs to the
    continuation holding the inputs' as they were and each output's at its function of the inputs'. -/
theorem sound_kernel0 (c : Dev nD) (E : Set ℕ) (i : grid0.Coords)
    (arg1 : Memref sig .tc .vmem S1024x256 .f32) (harg1 : arg1.IsWhole) (arg2 : Memref sig .tc .vmem S256x64 .f32) (harg2 : arg2.IsWhole)
    (arg3 : Memref sig .tc .vmem S256x64 .f32) (harg3 : arg3.IsWhole) (arg4 : Memref sig .tc .vmem S1024x64 .bf16) (harg4 : arg4.IsWhole)
    (arg5 : Memref sig .tc .vmem S1024x64 .bf16) (harg5 : arg5.IsWhole) (arg6 : Memref sig .tc .vmem S1024x256 .bf16) (harg6 : arg6.IsWhole)
    (x0 : Vec F S1024x256 .f32) (x1 : Vec F S256x64 .f32) (x2 : Vec F S256x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1) ∗ owns (c : Thread nD τ) arg5 fullShare (out0_4 x0 x2)
            ∗ owns (c : Thread nD τ) arg6 fullShare (out0_5 x0)) -∗ K ⟨⟩))
      ⊢ wp frame (wpE (defs₀ (F := F)) Variants.none c none) E (cc0__proj_kernel i arg1 harg1 arg2 harg2 arg3 harg3 arg4 harg4 arg5 harg5 arg6 harg6) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_Q _)
  isplitl [H4]
  · iexists _; isplitr
    swap; · iexact H4
    ipureintro
    exact View.read_writes_eq_canon _ _ _ (cover0_Q _)
  iexists _; isplitr
  swap; · iexact H5
  ipureintro
  exact View.read_writes_eq_canon _ _ _ (cover0_X _)

/-! ## The pipeline's proof data -/

/-- The arrays as the region finds them; after the body at a point each input's buffer at its block and each output's
    at its function of the input blocks; the invariant the scoped rest and the generator register, untouched; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 2 t)
    | ⟨5, _⟩ => out0_5 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 2 t) := by dsimp only [dat0]
theorem after0_5 (c : Dev nD) (t : Fin cfg0.N) : (dat0 V c).after 5 t = out0_5 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frm

end
-- ==== Proof.KI.AttnShared.lean ====
/- The attention region (the second kernel launch), what its three control cases share: the windows' blocks at a point;
   the two branch conditions of the body (the first key block of a query block resets the running maximum, the running
   normaliser and the accumulator; the last one divides and stores the output block) decided over the 8 × 8 grid; where
   the output window is idle; the staging and scratch memrefs; and the region invariant with the three scratch buffers
   split out of the scoped rest. Stated at any float instance and any entry contents `V`. -/
import proofs.«407828_j65481071406882_3_alg».proof.Proof.Gen.KernelIdeal.Launch
import proofs.«407828_j65481071406882_3_alg».proof.Proof.Gen.KernelIdeal.Skeleton
import proofs.«407828_j65481071406882_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions, decided over the grid -/

/-- "This is the first key block of its query block": the reset branch. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- "This is the last key block of its query block": the branch that normalises and stores the output block. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Before the last key block the body stores nothing into the output window, and the pipeline does not write it back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The memrefs the body is called with -/

/-- One staging buffer of the output window, through which its contents are stated. -/
abbrev VO1_3 : View sig .tc .vmem S1024x256 .f32 := (Memref.whole cc1_stg3_0 : Memref sig .tc .vmem S1024x256 .f32).view
abbrev ms1_0 (t : Fin cfg1.N) : Memref sig .tc .vmem S1024x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8192x256 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x256 .f32 := win1_3.stage (cfg1.slots t 3)
abbrev hs1_3 (t : Fin cfg1.N) : (ms1_3 t).IsWhole := hstage1_3 ((cfg1.slots t 3).cast nbuf1_3)
/-- The scratch operands: the running maximum, the running normaliser, the accumulator. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x256 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x256 .f32 := scM1_2.view

/-! ## The region invariant with the scratch split out -/

/-- The scoped rest of this region — the other launch's ten staging buffers at anything, then the three scratch
    buffers as given — and the generator register at some state. -/
def PhiWith (c : Dev nD) (S0 S1 S2 : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ S0 ∗ S1 ∗ S2) ∗ (∃ r, prngReg c r))

/-- What of it the body never touches. -/
def PhiRest (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ r, prngReg c r))

theorem PhiWith_out (c : Dev nD) (S0 S1 S2 : sProp 𝕄) : PhiWith c S0 S1 S2 ⊢ iprop(PhiRest c ∗ S0 ∗ S1 ∗ S2) := by
  unfold PhiWith PhiRest
  iintro ⟨⟨R0, R1, R2, R3, R4, R5, R6, R7, R8, R9, H0, H1, H2⟩, Hg⟩
  isplitl [R0 R1 R2 R3 R4 R5 R6 R7 R8 R9 Hg]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    iexact Hg
  isplitl [H0]; · iexact H0
  isplitl [H1]; · iexact H1
  iexact H2

theorem PhiWith_in (c : Dev nD) (S0 S1 S2 : sProp 𝕄) : iprop(PhiRest c ∗ S0 ∗ S1 ∗ S2) ⊢ PhiWith c S0 S1 S2 := by
  unfold PhiWith PhiRest
  iintro ⟨⟨R0, R1, R2, R3, R4, R5, R6, R7, R8, R9, Hg⟩, H0, H1, H2⟩
  isplitr [Hg]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [H0]; · iexact H0
    isplitl [H1]; · iexact H1
    iexact H2
  iexact Hg

/-- The class's invariant is this one with each scratch buffer at some contents. -/
theorem PhiA1_eq (c : Dev nD) :
    (Pipeline.ΦA spec1 c : sProp 𝕄)
      = PhiWith c (iprop(∃ d, owns (c : Thread nD τ) scM1_0 fullShare d)) (iprop(∃ d, owns (c : Thread nD τ) scM1_1 fullShare d)) (iprop(∃ d, owns (c : Thread nD τ) scM1_2 fullShare d)) := by
  unfold Pipeline.ΦA PhiWith; rw [scopedRest1_eq]; simp only [scM1_0, scM1_1, scM1_2, owns_whole]; try rfl

end Cert.KernelIdeal.Frm

end
-- ==== Proof.KI.AttnRunA.lean ====
/- The attention body run whole in the case of a query block's first key block (the reset branch taken, the output branch not): on whole staging memrefs, what its stores leave in the output's staging
   buffer and in the three scratch buffers, as pieces (last first) found by the run itself, with the body's triple. -/
import proofs.«407828_j65481071406882_3_alg».proof.Proof.KI.AttnShared

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S1024x64 .bf16) (harg2 : arg2.IsWhole) (arg3 : Memref sig .tc .vmem S8192x64 .bf16) (harg3 : arg3.IsWhole)
    (arg4 : Memref sig .tc .vmem S8192x256 .bf16) (harg4 : arg4.IsWhole) (arg5 : Memref sig .tc .vmem S1024x256 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x256 .f32) (harg8 : arg8.IsWhole) (hc0 : cond1_0 i) (hc1 : ¬cond1_1 i)
    (x0 : Vec F S1024x64 .bf16) (x1 : Vec F S8192x64 .bf16) (x2 : Vec F S8192x256 .bf16) :
    Σ' (LS0 : List (View.Piece (Elt F) S1024x1 .f32)) (LS1 : List (View.Piece (Elt F) S1024x1 .f32)), { LS2 : List (View.Piece (Elt F) S1024x256 .f32) //
      ∀ (xi3 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Frm

end
-- ==== Proof.KI.AttnRunB.lean ====
/- The attention body run whole in the case of a middle key block (neither branch taken): on whole staging memrefs, what its stores leave in the output's staging
   buffer and in the three scratch buffers, as pieces (last first) found by the run itself, with the body's triple. -/
import proofs.«407828_j65481071406882_3_alg».proof.Proof.KI.AttnShared

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S1024x64 .bf16) (harg2 : arg2.IsWhole) (arg3 : Memref sig .tc .vmem S8192x64 .bf16) (harg3 : arg3.IsWhole)
    (arg4 : Memref sig .tc .vmem S8192x256 .bf16) (harg4 : arg4.IsWhole) (arg5 : Memref sig .tc .vmem S1024x256 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x256 .f32) (harg8 : arg8.IsWhole) (hc0 : ¬cond1_0 i) (hc1 : ¬cond1_1 i)
    (x0 : Vec F S1024x64 .bf16) (x1 : Vec F S8192x64 .bf16) (x2 : Vec F S8192x256 .bf16)
    (xs0 : Vec F S1024x1 .f32) (xs1 : Vec F S1024x1 .f32) (xs2 : Vec F S1024x256 .f32) :
    Σ' (LS0 : List (View.Piece (Elt F) S1024x1 .f32)) (LS1 : List (View.Piece (Elt F) S1024x1 .f32)), { LS2 : List (View.Piece (Elt F) S1024x256 .f32) //
      ∀ (xi3 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Frm

end
-- ==== Proof.KI.AttnRunC.lean ====
/- The attention body run whole in the case of a query block's last key block (the output branch taken, the reset branch not): on whole staging memrefs, what its stores leave in the output's staging
   buffer and in the three scratch buffers, as pieces (last first) found by the run itself, with the body's triple. -/
import proofs.«407828_j65481071406882_3_alg».proof.Proof.KI.AttnShared

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S1024x64 .bf16) (harg2 : arg2.IsWhole) (arg3 : Memref sig .tc .vmem S8192x64 .bf16) (harg3 : arg3.IsWhole)
    (arg4 : Memref sig .tc .vmem S8192x256 .bf16) (harg4 : arg4.IsWhole) (arg5 : Memref sig .tc .vmem S1024x256 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x256 .f32) (harg8 : arg8.IsWhole) (hc0 : ¬cond1_0 i) (hc1 : cond1_1 i)
    (x0 : Vec F S1024x64 .bf16) (x1 : Vec F S8192x64 .bf16) (x2 : Vec F S8192x256 .bf16)
    (xs0 : Vec F S1024x1 .f32) (xs1 : Vec F S1024x1 .f32) (xs2 : Vec F S1024x256 .f32) :
    Σ' (L3 : List (View.Piece (Elt F) S1024x256 .f32)) (LS0 : List (View.Piece (Elt F) S1024x1 .f32)) (LS1 : List (View.Piece (Elt F) S1024x1 .f32)), { LS2 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.KernelIdeal.Frm

end
-- ==== Proof.KI.Attn.lean ====
/- The attention region's proof data: what each control case leaves in the output's staging buffer and in the three
   scratch buffers (the running maximum, the running normaliser, the accumulator) as the run's pieces read back; what
   those buffers hold after each of the 64 grid points, by recursion on the point — a query block's first key block
   starts afresh, every later one continues from what the point before left —; the region invariant that carries the
   scratch from point to point; and the body obligation at every point. At any float instance and entry contents. -/
import proofs.«407828_j65481071406882_3_alg».proof.Proof.KI.AttnRunA
import proofs.«407828_j65481071406882_3_alg».proof.Proof.KI.AttnRunB
import proofs.«407828_j65481071406882_3_alg».proof.Proof.KI.AttnRunC

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Where the body stores nothing into the output window (every key block but the last) the proof data names a
    placeholder for its contents: the window is idle there and not written back, so nothing reads it. -/
def outIdle : Vec F S1024x256 .f32 := VO1_3.read (Elt F) VO1_3.junk

theorem scover1_A_0 (c : Dev nD) (i : grid1.Coords) (arg2 : Memref sig .tc .vmem S1024x64 .bf16) (harg2 : arg2.IsWhole) (arg3 : Memref sig .tc .vmem S8192x64 .bf16) (harg3 : arg3.IsWhole) (arg4 : Memref sig .tc .vmem S8192x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : cond1_0 i) (hc1 : ¬cond1_1 i)
    (x0 : Vec F S1024x64 .bf16) (x1 : Vec F S8192x64 .bf16) (x2 : Vec F S8192x256 .bf16) (y : S1024x1.Idx) :
    ∃ pc ∈ (kernelRun1_A c i arg2 harg2 arg3 harg3 arg4 harg4 arg5 harg5 arg6 harg6 arg7 harg7 arg8 harg8 hc0 hc1 x0 x1 x2).1, y ∈ pc.1.set :=
  View.cover_of_tiledL (kernelRun1_A c i arg2 harg2 arg3 harg3 arg4 harg4 arg5 harg5 arg6 harg6 arg7 harg7 arg8 harg8 hc0 hc1 x0 x1 x2).1 S1024x1.size (by sl_kernel_rfl) y

def sout1_A_0 (c : Dev nD) (i : grid1.Coords) (arg2 : Memref sig .tc .vmem S1024x64 .bf16) (harg2 : arg2.IsWhole) (arg3 : Memref sig .tc .vmem S8192x64 .bf16) (harg3 : arg3.IsWhole) (arg4 : Memref sig .tc .vmem S8192x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : cond1_0 i) (hc1 : ¬cond1_1 i)
    (x0 : Vec F S1024x64 .bf16) (x1 : Vec F S8192x64 .bf16) (x2 : Vec F S8192x256 .bf16) : Vec F S1024x1 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2).1)

theorem scover1_A_1 (c : Dev nD) (i : grid1.Coords) (arg2 : Memref sig .tc .vmem S1024x64 .bf16) (harg2 : arg2.IsWhole) (arg3 : Memref sig .tc .vmem S8192x64 .bf16) (harg3 : arg3.IsWhole) (arg4 : Memref sig .tc .vmem S8192x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : cond1_0 i) (hc1 : ¬cond1_1 i)
    (x0 : Vec F S1024x64 .bf16) (x1 : Vec F S8192x64 .bf16) (x2 : Vec F S8192x256 .bf16) (y : S1024x1.Idx) :
    ∃ pc ∈ (kernelRun1_A c i arg2 harg2 arg3 harg3 arg4 harg4 arg5 harg5 arg6 harg6 arg7 harg7 arg8 harg8 hc0 hc1 x0 x1 x2).2.1, y ∈ pc.1.set :=
  View.cover_of_tiledL (kernelRun1_A c i arg2 harg2 arg3 harg3 arg4 harg4 arg5 harg5 arg6 harg6 arg7 harg7 arg8 harg8 hc0 hc1 x0 x1 x2).2.1 S1024x1.size (by sl_kernel_rfl) y

def sout1_A_1 (c : Dev nD) (i : grid1.Coords) (arg2 : Memref sig .tc .vmem S1024x64 .bf16) (harg2 : arg2.IsWhole) (arg3 : Memref sig .tc .vmem S8192x64 .bf16) (harg3 : arg3.IsWhole) (arg4 : Memref sig .tc .vmem S8192x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : cond1_0 i) (hc1 : ¬cond1_1 i)
    (x0 : Vec F S1024x64 .bf16) (x1 : Vec F S8192x64 .bf16) (x2 : Vec F S8192x256 .bf16) : Vec F S1024x1 .f32 :=
  VS1_1.read (Elt F) (VS1_1.writes (Elt F) VS1_1.junk (kernelRun1_A c i arg2 harg2 arg3 harg3 arg4 harg4 arg5 harg5 arg6 harg6 arg7 harg7 arg8 harg8 hc0 hc1 x0 x1 x2).2.1)

theorem scover1_A_2 (c : Dev nD) (i : grid1.Coords) (arg2 : Memref sig .tc .vmem S1024x64 .bf16) (harg2 : arg2.IsWhole) (arg3 : Memref sig .tc .vmem S8192x64 .bf16) (harg3 : arg3.IsWhole) (arg4 : Memref sig .tc .vmem S8192x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : cond1_0 i) (hc1 : ¬cond1_1 i)
    (x0 : Vec F S1024x64 .bf16) (x1 : Vec F S8192x64 .bf16) (x2 : Vec F S8192x256 .bf16) (y : S1024x256.Idx) :
    ∃ pc ∈ (kernelRun1_A c i arg2 harg2 arg3 harg3 arg4 harg4 arg5 harg5 arg6 harg6 arg7 harg7 arg8 harg8 hc0 hc1 x0 x1 x2).2.2.1, y ∈ pc.1.set :=
  View.cover_of_tiledL (kernelRun1_A c i arg2 harg2 arg3 harg3 arg4 harg4 arg5 harg5 arg6 harg6 arg7 harg7 arg8 harg8 hc0 hc1 x0 x1 x2).2.2.1 S1024x256.size (by sl_kernel_rfl) y

def sout1_A_2 (c : Dev nD) (i : grid1.Coords) (arg2 : Memref sig .tc .vmem S1024x64 .bf16) (harg2 : arg2.IsWhole) (arg3 : Memref sig .tc .vmem S8192x64 .bf16) (harg3 : arg3.IsWhole) (arg4 : Memref sig .tc .vmem S8192x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : cond1_0 i) (hc1 : ¬cond1_1 i)
    (x0 : Vec F S1024x64 .bf16) (x1 : Vec F S8192x64 .bf16) (x2 : Vec F S8192x256 .bf16) : Vec F S1024x256 .f32 :=
  VS1_2.read (Elt F) (VS1_2.writes (Elt F) VS1_2.junk (kernelRun1_A c i arg2 harg2 arg3 harg3 arg4 harg4 arg5 harg5 arg6 harg6 arg7 harg7 arg8 harg8 hc0 hc1 x0 x1 x2).2.2.1)

theorem scover1_B_0 (c : Dev nD) (i : grid1.Coords) (arg2 : Memref sig .tc .vmem S1024x64 .bf16) (harg2 : arg2.IsWhole) (arg3 : Memref sig .tc .vmem S8192x64 .bf16) (harg3 : arg3.IsWhole) (arg4 : Memref sig .tc .vmem S8192x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : ¬cond1_1 i)
    (x0 : Vec F S1024x64 .bf16) (x1 : Vec F S8192x64 .bf16) (x2 : Vec F S8192x256 .bf16) (xs0 : Vec F S1024x1 .f32) (xs1 : Vec F S1024x1 .f32) (xs2 : Vec F S1024x256 .f32) (y : S1024x1.Idx) :
    ∃ pc ∈ (kernelRun1_B c i arg2 harg2 arg3 harg3 arg4 harg4 arg5 harg5 arg6 harg6 arg7 harg7 arg8 harg8 hc0 hc1 x0 x1 x2 xs0 xs1 xs2).1, y ∈ pc.1.set :=
  View.cover_of_tiledL (kernelRun1_B c i arg2 harg2 arg3 harg3 arg4 harg4 arg5 harg5 arg6 harg6 arg7 harg7 arg8 harg8 hc0 hc1 x0 x1 x2 xs0 xs1 xs2).1 S1024x1.size (by sl_kernel_rfl) y

def sout1_B_0 (c : Dev nD) (i : grid1.Coords) (arg2 : Memref sig .tc .vmem S1024x64 .bf16) (harg2 : arg2.IsWhole) (arg3 : Memref sig .tc .vmem S8192x64 .bf16) (harg3 : arg3.IsWhole) (arg4 : Memref sig .tc .vmem S8192x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : ¬cond1_1 i)
    (x0 : Vec F S1024x64 .bf16) (x1 : Vec F S8192x64 .bf16) (x2 : Vec F S8192x256 .bf16) (xs0 : Vec F S1024x1 .f32) (xs1 : Vec F S1024x1 .f32) (xs2 : Vec F S1024x256 .f32) : Vec F S1024x1 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 xs0 xs1 xs2).1)

theorem scover1_B_1 (c : Dev nD) (i : grid1.Coords) (arg2 : Memref sig .tc .vmem S1024x64 .bf16) (harg2 : arg2.IsWhole) (arg3 : Memref sig .tc .vmem S8192x64 .bf16) (harg3 : arg3.IsWhole) (arg4 : Memref sig .tc .vmem S8192x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : ¬cond1_1 i)
    (x0 : Vec F S1024x64 .bf16) (x1 : Vec F S8192x64 .bf16) (x2 : Vec F S8192x256 .bf16) (xs0 : Vec F S1024x1 .f32) (xs1 : Vec F S1024x1 .f32) (xs2 : Vec F S1024x256 .f32) (y : S1024x1.Idx) :
    ∃ pc ∈ (kernelRun1_B c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.1 S1024x1.size (by sl_kernel_rfl) y

def sout1_B_1 (c : Dev nD) (i : grid1.Coords) (arg2 : Memref sig .tc .vmem S1024x64 .bf16) (harg2 : arg2.IsWhole) (arg3 : Memref sig .tc .vmem S8192x64 .bf16) (harg3 : arg3.IsWhole) (arg4 : Memref sig .tc .vmem S8192x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : ¬cond1_1 i)
    (x0 : Vec F S1024x64 .bf16) (x1 : Vec F S8192x64 .bf16) (x2 : Vec F S8192x256 .bf16) (xs0 : Vec F S1024x1 .f32) (xs1 : Vec F S1024x1 .f32) (xs2 : Vec F S1024x256 .f32) : Vec F S1024x1 .f32 :=
  VS1_1.read (Elt F) (VS1_1.writes (Elt F) VS1_1.junk (kernelRun1_B c i arg2 harg2 arg3 harg3 arg4 harg4 arg5 harg5 arg6 harg6 arg7 harg7 arg8 harg8 hc0 hc1 x0 x1 x2 xs0 xs1 xs2).2.1)

theorem scover1_B_2 (c : Dev nD) (i : grid1.Coords) (arg2 : Memref sig .tc .vmem S1024x64 .bf16) (harg2 : arg2.IsWhole) (arg3 : Memref sig .tc .vmem S8192x64 .bf16) (harg3 : arg3.IsWhole) (arg4 : Memref sig .tc .vmem S8192x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : ¬cond1_1 i)
    (x0 : Vec F S1024x64 .bf16) (x1 : Vec F S8192x64 .bf16) (x2 : Vec F S8192x256 .bf16) (xs0 : Vec F S1024x1 .f32) (xs1 : Vec F S1024x1 .f32) (xs2 : Vec F S1024x256 .f32) (y : S1024x256.Idx) :
    ∃ pc ∈ (kernelRun1_B c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.2.1 S1024x256.size (by sl_kernel_rfl) y

def sout1_B_2 (c : Dev nD) (i : grid1.Coords) (arg2 : Memref sig .tc .vmem S1024x64 .bf16) (harg2 : arg2.IsWhole) (arg3 : Memref sig .tc .vmem S8192x64 .bf16) (harg3 : arg3.IsWhole) (arg4 : Memref sig .tc .vmem S8192x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : ¬cond1_1 i)
    (x0 : Vec F S1024x64 .bf16) (x1 : Vec F S8192x64 .bf16) (x2 : Vec F S8192x256 .bf16) (xs0 : Vec F S1024x1 .f32) (xs1 : Vec F S1024x1 .f32) (xs2 : Vec F S1024x256 .f32) : Vec F S1024x256 .f32 :=
  VS1_2.read (Elt F) (VS1_2.writes (Elt F) VS1_2.junk (kernelRun1_B c i arg2 harg2 arg3 harg3 arg4 harg4 arg5 harg5 arg6 harg6 arg7 harg7 arg8 harg8 hc0 hc1 x0 x1 x2 xs0 xs1 xs2).2.2.1)

theorem scover1_C_0 (c : Dev nD) (i : grid1.Coords) (arg2 : Memref sig .tc .vmem S1024x64 .bf16) (harg2 : arg2.IsWhole) (arg3 : Memref sig .tc .vmem S8192x64 .bf16) (harg3 : arg3.IsWhole) (arg4 : Memref sig .tc .vmem S8192x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : cond1_1 i)
    (x0 : Vec F S1024x64 .bf16) (x1 : Vec F S8192x64 .bf16) (x2 : Vec F S8192x256 .bf16) (xs0 : Vec F S1024x1 .f32) (xs1 : Vec F S1024x1 .f32) (xs2 : Vec F S1024x256 .f32) (y : S1024x1.Idx) :
    ∃ pc ∈ (kernelRun1_C c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.1 S1024x1.size (by sl_kernel_rfl) y

def sout1_C_0 (c : Dev nD) (i : grid1.Coords) (arg2 : Memref sig .tc .vmem S1024x64 .bf16) (harg2 : arg2.IsWhole) (arg3 : Memref sig .tc .vmem S8192x64 .bf16) (harg3 : arg3.IsWhole) (arg4 : Memref sig .tc .vmem S8192x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : cond1_1 i)
    (x0 : Vec F S1024x64 .bf16) (x1 : Vec F S8192x64 .bf16) (x2 : Vec F S8192x256 .bf16) (xs0 : Vec F S1024x1 .f32) (xs1 : Vec F S1024x1 .f32) (xs2 : Vec F S1024x256 .f32) : Vec F S1024x1 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 xs0 xs1 xs2).2.1)

theorem scover1_C_1 (c : Dev nD) (i : grid1.Coords) (arg2 : Memref sig .tc .vmem S1024x64 .bf16) (harg2 : arg2.IsWhole) (arg3 : Memref sig .tc .vmem S8192x64 .bf16) (harg3 : arg3.IsWhole) (arg4 : Memref sig .tc .vmem S8192x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : cond1_1 i)
    (x0 : Vec F S1024x64 .bf16) (x1 : Vec F S8192x64 .bf16) (x2 : Vec F S8192x256 .bf16) (xs0 : Vec F S1024x1 .f32) (xs1 : Vec F S1024x1 .f32) (xs2 : Vec F S1024x256 .f32) (y : S1024x1.Idx) :
    ∃ pc ∈ (kernelRun1_C c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.2.1 S1024x1.size (by sl_kernel_rfl) y

def sout1_C_1 (c : Dev nD) (i : grid1.Coords) (arg2 : Memref sig .tc .vmem S1024x64 .bf16) (harg2 : arg2.IsWhole) (arg3 : Memref sig .tc .vmem S8192x64 .bf16) (harg3 : arg3.IsWhole) (arg4 : Memref sig .tc .vmem S8192x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : cond1_1 i)
    (x0 : Vec F S1024x64 .bf16) (x1 : Vec F S8192x64 .bf16) (x2 : Vec F S8192x256 .bf16) (xs0 : Vec F S1024x1 .f32) (xs1 : Vec F S1024x1 .f32) (xs2 : Vec F S1024x256 .f32) : Vec F S1024x1 .f32 :=
  VS1_1.read (Elt F) (VS1_1.writes (Elt F) VS1_1.junk (kernelRun1_C c i arg2 harg2 arg3 harg3 arg4 harg4 arg5 harg5 arg6 harg6 arg7 harg7 arg8 harg8 hc0 hc1 x0 x1 x2 xs0 xs1 xs2).2.2.1)

theorem scover1_C_2 (c : Dev nD) (i : grid1.Coords) (arg2 : Memref sig .tc .vmem S1024x64 .bf16) (harg2 : arg2.IsWhole) (arg3 : Memref sig .tc .vmem S8192x64 .bf16) (harg3 : arg3.IsWhole) (arg4 : Memref sig .tc .vmem S8192x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : cond1_1 i)
    (x0 : Vec F S1024x64 .bf16) (x1 : Vec F S8192x64 .bf16) (x2 : Vec F S8192x256 .bf16) (xs0 : Vec F S1024x1 .f32) (xs1 : Vec F S1024x1 .f32) (xs2 : Vec F S1024x256 .f32) (y : S1024x256.Idx) :
    ∃ pc ∈ (kernelRun1_C c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.2.2.1 S1024x256.size (by sl_kernel_rfl) y

def sout1_C_2 (c : Dev nD) (i : grid1.Coords) (arg2 : Memref sig .tc .vmem S1024x64 .bf16) (harg2 : arg2.IsWhole) (arg3 : Memref sig .tc .vmem S8192x64 .bf16) (harg3 : arg3.IsWhole) (arg4 : Memref sig .tc .vmem S8192x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : cond1_1 i)
    (x0 : Vec F S1024x64 .bf16) (x1 : Vec F S8192x64 .bf16) (x2 : Vec F S8192x256 .bf16) (xs0 : Vec F S1024x1 .f32) (xs1 : Vec F S1024x1 .f32) (xs2 : Vec F S1024x256 .f32) : Vec F S1024x256 .f32 :=
  VS1_2.read (Elt F) (VS1_2.writes (Elt F) VS1_2.junk (kernelRun1_C c i arg2 harg2 arg3 harg3 arg4 harg4 arg5 harg5 arg6 harg6 arg7 harg7 arg8 harg8 hc0 hc1 x0 x1 x2 xs0 xs1 xs2).2.2.2.1)

/-- The last key block's store of the output block covers it. -/
theorem cover1_C_3 (c : Dev nD) (i : grid1.Coords) (arg2 : Memref sig .tc .vmem S1024x64 .bf16) (harg2 : arg2.IsWhole) (arg3 : Memref sig .tc .vmem S8192x64 .bf16) (harg3 : arg3.IsWhole) (arg4 : Memref sig .tc .vmem S8192x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : cond1_1 i)
    (x0 : Vec F S1024x64 .bf16) (x1 : Vec F S8192x64 .bf16) (x2 : Vec F S8192x256 .bf16) (xs0 : Vec F S1024x1 .f32) (xs1 : Vec F S1024x1 .f32) (xs2 : Vec F S1024x256 .f32) (y : S1024x256.Idx) :
    ∃ pc ∈ (kernelRun1_C c i arg2 harg2 arg3 harg3 arg4 harg4 arg5 harg5 arg6 harg6 arg7 harg7 arg8 harg8 hc0 hc1 x0 x1 x2 xs0 xs1 xs2).1, y ∈ pc.1.set :=
  View.cover_of_tiledL (kernelRun1_C c i arg2 harg2 arg3 harg3 arg4 harg4 arg5 harg5 arg6 harg6 arg7 harg7 arg8 harg8 hc0 hc1 x0 x1 x2 xs0 xs1 xs2).1 S1024x256.size (by sl_kernel_rfl) y

def out1_C_3 (c : Dev nD) (i : grid1.Coords) (arg2 : Memref sig .tc .vmem S1024x64 .bf16) (harg2 : arg2.IsWhole) (arg3 : Memref sig .tc .vmem S8192x64 .bf16) (harg3 : arg3.IsWhole) (arg4 : Memref sig .tc .vmem S8192x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : cond1_1 i)
    (x0 : Vec F S1024x64 .bf16) (x1 : Vec F S8192x64 .bf16) (x2 : Vec F S8192x256 .bf16) (xs0 : Vec F S1024x1 .f32) (xs1 : Vec F S1024x1 .f32) (xs2 : Vec F S1024x256 .f32) : Vec F S1024x256 .f32 :=
  VO1_3.read (Elt F) (VO1_3.writes (Elt F) VO1_3.junk (kernelRun1_C c i arg2 harg2 arg3 harg3 arg4 harg4 arg5 harg5 arg6 harg6 arg7 harg7 arg8 harg8 hc0 hc1 x0 x1 x2 xs0 xs1 xs2).1)

/-! ## What the buffers hold after each point -/

/-- After the body at position `n`: the output's staging buffer, then the running maximum, the running normaliser and
    the accumulator — the case the position selects, run at the point's memrefs and blocks; a later key block over
    what the position before left in the scratch. -/
def outsAt1 (c : Dev nD) : (n : ℕ) → n < cfg1.N → Vec F S1024x256 .f32 × Vec F S1024x1 .f32 × Vec F S1024x1 .f32 × Vec F S1024x256 .f32
  | 0, hn => (outIdle (F := F), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 = 7 then
        False.elim (by omega)
      else
        (outIdle (F := F), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)
      else
        (outIdle (F := F), sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)

theorem outsAt1_A (c : Dev nD) (t : Fin cfg1.N) (h0 : t.val % 8 = 0) (h1 : ¬t.val % 8 = 7) :
    outsAt1 V c t.val t.isLt = (outIdle (F := F), sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (outIdle (F := F), sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The region invariant: the scratch carried from point to point -/

/-- Before the first point the class's invariant (every scratch buffer at anything); afterwards the three scratch
    buffers at what the point before left in them. -/
def PhiS1 (c : Dev nD) : (n : ℕ) → n ≤ cfg1.N → sProp 𝕄
  | 0, _ => Pipeline.ΦA spec1 c
  | n + 1, hn => PhiWith c (owns (c : Thread nD τ) scM1_0 fullShare ((outsAt1 V c n hn).2.1))
      (owns (c : Thread nD τ) scM1_1 fullShare ((outsAt1 V c n hn).2.2.1)) (owns (c : Thread nD τ) scM1_2 fullShare ((outsAt1 V c n hn).2.2.2))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = PhiWith c (owns (c : Thread nD τ) scM1_0 fullShare ((outsAt1 V c n hn).2.1))
      (owns (c : Thread nD τ) scM1_1 fullShare ((outsAt1 V c n hn).2.2.1)) (owns (c : Thread nD τ) scM1_2 fullShare ((outsAt1 V c n hn).2.2.2)) := rfl

theorem PhiS1_pos (c : Dev nD) (n : ℕ) (h : n ≤ cfg1.N) (hz : n ≠ 0) :
    PhiS1 V c n h = PhiWith c (owns (c : Thread nD τ) scM1_0 fullShare ((outsAt1 V c (n - 1) (by omega)).2.1))
      (owns (c : Thread nD τ) scM1_1 fullShare ((outsAt1 V c (n - 1) (by omega)).2.2.1)) (owns (c : Thread nD τ) scM1_2 fullShare ((outsAt1 V c (n - 1) (by omega)).2.2.2)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point: the position says which case the point is in; the inputs' memrefs hold their blocks; the
    invariant hands the body the scratch at what the point before left (at anything before the first point) and takes
    it back at this point's contents; the output window is handed back untouched except at a last key block. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 8 = 0
  · by_cases h1 : t.val % 8 = 7
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_A V c t h0 h1]
      unfold sout1_A_0 sout1_A_1 sout1_A_2; (try dsimp only)
      by_cases hz : t.val = 0
      · rw [PhiS1_castSucc V c t, PhiS1_zero V c _ _ hz, PhiA1_eq]
        iintro ⟨HΦ, Ho, ⟨%d0, H0⟩, ⟨%d1, H1⟩, ⟨%d2, H2⟩, ⟨%d3, H3⟩⟩
        ihave HΦ' := (PhiWith_out c _ _ _) $$ HΦ
        icases HΦ' with ⟨HR, HS0, HS1, HS2⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HR HS0 HS1 HS2]
        · iapply (PhiWith_in c _ _ _)
          isplitl [HR]; · iexact HR
          isplitl [HS0]
          · unfold owns; iexists _; isplitr
            swap; · iexact HS0
            ipureintro; exact View.read_writes_of_cover _ _ _ _ _ (scover1_A_0 c _ _ _ _ _ _ _ _ _ _ _ _ _ _ _ _ _ _ _ _ )
          isplitl [HS1]
          · unfold owns; iexists _; isplitr
            swap; · iexact HS1
            ipureintro; exact View.read_writes_of_cover _ _ _ _ _ (scover1_A_1 c _ _ _ _ _ _ _ _ _ _ _ _ _ _ _ _ _ _ _ _ )
          unfold owns; iexists _; isplitr
          swap; · iexact HS2
          ipureintro; exact View.read_writes_of_cover _ _ _ _ _ (scover1_A_2 c _ _ _ _ _ _ _ _ _ _ _ _ _ _ _ _ _ _ _ _ )
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨HΦ, Ho, ⟨%d0, H0⟩, ⟨%d1, H1⟩, ⟨%d2, H2⟩, ⟨%d3, H3⟩⟩
        ihave HΦ' := (PhiWith_out c _ _ _) $$ HΦ
        icases HΦ' with ⟨HR, HS0, HS1, HS2⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%es0, HS0⟩, ⟨%es1, HS1⟩, ⟨%es2, HS2⟩⟩
        isplitl [HR HS0 HS1 HS2]
        · iapply (PhiWith_in c _ _ _)
          isplitl [HR]; · iexact HR
          isplitl [HS0]
          · unfold owns; iexists _; isplitr
            swap; · iexact HS0
            ipureintro; exact View.read_writes_of_cover _ _ _ _ _ (scover1_A_0 c _ _ _ _ _ _ _ _ _ _ _ _ _ _ _ _ _ _ _ _ )
          isplitl [HS1]
          · unfold owns; iexists _; isplitr
            swap; · iexact HS1
            ipureintro; exact View.read_writes_of_cover _ _ _ _ _ (scover1_A_1 c _ _ _ _ _ _ _ _ _ _ _ _ _ _ _ _ _ _ _ _ )
          unfold owns; iexists _; isplitr
          swap; · iexact HS2
          ipureintro; exact View.read_writes_of_cover _ _ _ _ _ (scover1_A_2 c _ _ _ _ _ _ _ _ _ _ _ _ _ _ _ _ _ _ _ _ )
        isplitl [Ho]; · iexact Ho
        isplitl [H0]; · iexact H0
        isplitl [H1]; · iexact H1
        isplitl [H2]; · iexact H2
        iexists _; iexact H3
  · by_cases h1 : t.val % 8 = 7
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C_0 sout1_C_1 sout1_C_2; (try dsimp only)
      by_cases hz : t.val = 0
      · exfalso; omega
      · rw [PhiS1_castSucc V c t, PhiS1_pos V c _ _ hz]
        iintro ⟨HΦ, Ho, ⟨%d0, H0⟩, ⟨%d1, H1⟩, ⟨%d2, H2⟩, ⟨%d3, H3⟩⟩
        ihave HΦ' := (PhiWith_out c _ _ _) $$ HΦ
        icases HΦ' with ⟨HR, HS0, HS1, HS2⟩
        iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) _ _ _).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%es0, HS0⟩, ⟨%es1, HS1⟩, ⟨%es2, HS2⟩⟩
        isplitl [HR HS0 HS1 HS2]
        · iapply (PhiWith_in c _ _ _)
          isplitl [HR]; · iexact HR
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ )
          isplitl [HS1]
          · unfold owns; iexists _; isplitr
            swap; · iexact HS1
            ipureintro; exact View.read_writes_of_cover _ _ _ _ _ (scover1_C_1 c _ _ _ _ _ _ _ _ _ _ _ _ _ _ _ _ _ _ _ _ _ _ _ )
          unfold owns; iexists _; isplitr
          swap; · iexact HS2
          ipureintro; exact View.read_writes_of_cover _ _ _ _ _ (scover1_C_2 c _ _ _ _ _ _ _ _ _ _ _ _ _ _ _ _ _ _ _ _ _ _ _ )
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _ _ _ _ _ _ _ )
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B_0 sout1_B_1 sout1_B_2; (try dsimp only)
      by_cases hz : t.val = 0
      · exfalso; omega
      · rw [PhiS1_castSucc V c t, PhiS1_pos V c _ _ hz]
        iintro ⟨HΦ, Ho, ⟨%d0, H0⟩, ⟨%d1, H1⟩, ⟨%d2, H2⟩, ⟨%d3, H3⟩⟩
        ihave HΦ' := (PhiWith_out c _ _ _) $$ HΦ
        icases HΦ' with ⟨HR, HS0, HS1, HS2⟩
        iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _ _).2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HR HS0 HS1 HS2]
        · iapply (PhiWith_in c _ _ _)
          isplitl [HR]; · iexact HR
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ )
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _ _ )
          unfold owns; iexists _; isplitr
          swap; · iexact HS2
          ipureintro; exact View.read_writes_of_cover _ _ _ _ _ (scover1_B_2 c _ _ _ _ _ _ _ _ _ _ _ _ _ _ _ _ _ _ _ _ _ _ _ )
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro HΦ
  ihave HΦ' := (PhiWith_out c _ _ _) $$ HΦ
  icases HΦ' with ⟨HR, HS0, HS1, HS2⟩
  iapply (PhiWith_in c _ _ _)
  isplitl [HR]; · iexact HR
  isplitl [HS0]; · iexists _; iexact HS0
  isplitl [HS1]; · iexists _; iexact HS1
  iexists _; iexact HS2

theorem hout1 (c : Dev nD) : (dat1 V c).Φ (Fin.last cfg1.N) ⊢ Pipeline.ΦA spec1 c :=
  Phi_out1 V c _ (by rw [Fin.val_last]; have : cfg1.N = 64 := N_1; omega)

end Cert.KernelIdeal.Frm

end
-- ==== Proof.KI.Run.lean ====
/- The launch: @main as a host stretch (the flattening reshape), the projection region, the attention region and a host
   stretch (the reshape back), composed; the contents of every unscoped buffer at each boundary as a fold from the
   launch memory; each region as a segment entered from the boundary before it and left at the one after it; and the
   run — every weakly fair execution ends with every unscoped buffer at the last boundary's contents. At any float
   instance. -/
import proofs.«407828_j65481071406882_3_alg».proof.Proof.KI.Proj
import proofs.«407828_j65481071406882_3_alg».proof.Proof.KI.Attn

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through @main -/

/-- Core `c`'s buffers at launch. -/
abbrev W0 : Dev nD → Valuation τ sig (Elt F) := fun c b => (s₀ m ρ).mem ((c : Dev nD), b)
/-- After the flattening reshape: the projection region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the attention region's exit (it is entered from the projection's exit: no host line between them). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the reshape back: the end. -/
abbrev W4 : Dev nD → Valuation τ sig (Elt F) := fun c => StableHlo.after hostOps2 (W3 m ρ c)

/-! ### The arguments end as launched: no host line and no region writes one -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W2 m ρ c (Proc.devRef .tc main_arg1) := W3_of_ne m ρ c main_arg1 (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W2 m ρ c (Proc.devRef .tc main_arg2) := W3_of_ne m ρ c main_arg2 (by decide)
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = m ((c : Thread nD τ).loc main_arg2) := rfl

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec0 c ⊢ (pdats m ρ 0 c).Φ 0 from Entails.refl _)
    unfold Pipeline.ΦA
    iintro ⟨Hp, -, Hr⟩
    isplitl [Hr]; · iexact Hr
    iexact Hp
  hout c := by
    rw [Pipeline.ownSems0_none]
    refine BIBase.Entails.trans (show (pdats m ρ 0 c).Φ (Fin.last _) ⊢ Pipeline.ΦA spec0 c from Entails.refl _) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m ρ 1 c).Φ 0 from hin1 (V2 m ρ) c)
    unfold Pipeline.ΦA
    iintro ⟨Hp, -, Hr⟩
    isplitl [Hr]; · iexact Hr
    iexact Hp
  hout c := by
    rw [Pipeline.ownSems0_none]
    refine BIBase.Entails.trans (show (pdats m ρ 1 c).Φ (Fin.last _) ⊢ Pipeline.ΦA spec1 c from hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ),
    .host (hseg hostOps2 hostOps2_sub hostOps2_fresh' (W3 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    in every final state every unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_all m ρ)

end Cert.KernelIdeal.Frm

end
-- ==== Proof.Spec.lean ====
/- The specification both programs are compared with, over the reals, and the vocabulary of the comparison.

   Global attention over N = 8192 tokens of width 256: with the flattened input `xf` (8192 × 256) and the two parameter
   matrices `r`, `e` (256 × 64), the queries are `xf · r`, the keys `xf · e`, the score of query `n` against key `j` is
   their inner product over the 64 columns times 1/16 (= 1/√256), each row of scores goes through a softmax (shifted by
   the row's maximum), and the result is the softmax weights times `xf`.

   The kernel never forms a row of 8192 scores: it walks the keys in 8 blocks of 1024 and keeps, per query row, a
   running maximum `m`, a running normaliser `l` and a running accumulator `acc`, rescaling `l` and `acc` by
   `exp (m_old - m_new)` whenever the maximum moves (`oM`, `oL`, `oAcc` below, for one row and one output column);
   after the last block it divides. Over the reals the two agree because `exp (a - b) · exp (b - c) = exp (a - c)` and
   because softmax weights do not depend on the shift. -/
import Idealize.ShloMosaic.Lib.ValueIdx
import Idealize.ShloMosaic.PureOps.Ideal

noncomputable section

open scoped BigOperators

namespace Cert.Spec

open Idealize.ShloMosaic Idealize.ShloMosaic.ValueIdx

/-! ## One query row, one output column, the keys in blocks: the online recursion

`s b r` is the score against key `r` of block `b`, `v b r` that key's value in the column at hand. -/

section Online
variable {J : Type} [Fintype J] [Nonempty J]

/-- The largest score of block `b`. -/
def blockMax (s : ℕ → J → ℝ) (b : ℕ) : ℝ := Finset.univ.sup' Finset.univ_nonempty (s b)

/-- The running maximum after blocks `0 … b`. -/
def oM (s : ℕ → J → ℝ) : ℕ → ℝ
  | 0 => blockMax s 0
  | b + 1 => max (oM s b) (blockMax s (b + 1))

/-- The running normaliser after blocks `0 … b`: the old one rescaled to the new maximum, plus the new block's terms. -/
def oL (s : ℕ → J → ℝ) : ℕ → ℝ
  | 0 => ∑ r, Real.exp (s 0 r - oM s 0)
  | b + 1 => Real.exp (oM s b - oM s (b + 1)) * oL s b + ∑ r, Real.exp (s (b + 1) r - oM s (b + 1))

/-- The running accumulator after blocks `0 … b`, likewise. -/
def oAcc (s v : ℕ → J → ℝ) : ℕ → ℝ
  | 0 => ∑ r, Real.exp (s 0 r - oM s 0) * v 0 r
  | b + 1 => Real.exp (oM s b - oM s (b + 1)) * oAcc s v b + ∑ r, Real.exp (s (b + 1) r - oM s (b + 1)) * v (b + 1) r

end Online

/-! ## Arrays -/

abbrev SF : Shape := ⟨2, ![8192, 256]⟩
abbrev SW : Shape := ⟨2, ![256, 64]⟩
abbrev SQ : Shape := ⟨2, ![8192, 64]⟩
abbrev SQb : Shape := ⟨2, ![1024, 64]⟩
abbrev SVb : Shape := ⟨2, ![1024, 256]⟩
abbrev SC : Shape := ⟨2, ![1024, 1]⟩

/-- An array of extended reals from an array of reals. -/
def lift {S : Shape} (f : S.Idx → ℝ) : S.Idx → EReal := fun i => ((f i : ℝ) : EReal)

theorem lift_apply {S : Shape} (f : S.Idx → ℝ) (i : S.Idx) : lift f i = ((f i : ℝ) : EReal) := rfl

/-- A flat 8192 × 256 array times a 256 × 64 matrix. -/
def proj (xf : SF.Idx → ℝ) (w : SW.Idx → ℝ) : SQ.Idx → ℝ :=
  fun i => ∑ k : Fin 256, xf (ix2 (i 0 : Fin 8192) k) * w (ix2 k (i 1 : Fin 64))

/-- The queries as the kernel stores them: already scaled by 1/16. -/
def projScaled (xf : SF.Idx → ℝ) (w : SW.Idx → ℝ) : SQ.Idx → ℝ := fun i => proj xf w i * (1 / 16)

/-- The reference's scaled score of query `n` against key `j`. -/
def score (xf : SF.Idx → ℝ) (r e : SW.Idx → ℝ) (n j : Fin 8192) : ℝ :=
  (∑ d : Fin 64, proj xf r (ix2 n d) * proj xf e (ix2 j d)) * (1 / 16)

/-- A row's largest score. -/
def rowMax (s : Fin 8192 → Fin 8192 → ℝ) (n : Fin 8192) : ℝ :=
  Finset.univ.sup' ⟨(0 : Fin 8192), Finset.mem_univ _⟩ (s n)

/-- THE SPECIFICATION: softmax of the scaled scores (shifted by the row maximum), times the flat input. -/
def attn (xf : SF.Idx → ℝ) (r e : SW.Idx → ℝ) : SF.Idx → ℝ := fun i =>
  ∑ j : Fin 8192, (Real.exp (score xf r e (i 0 : Fin 8192) j - rowMax (score xf r e) (i 0 : Fin 8192))
      / ∑ j' : Fin 8192, Real.exp (score xf r e (i 0 : Fin 8192) j' - rowMax (score xf r e) (i 0 : Fin 8192)))
    * xf (ix2 j (i 1 : Fin 256))

/-! ## The kernel's walk over key blocks, as arrays -/

/-- Key `r` of block `b` as a row of the 8192 (block numbers are read modulo 8, so that the function is total). -/
def keyIx (b : ℕ) (r : Fin 1024) : Fin 8192 := ⟨(b % 8) * 1024 + r.val, by have := r.isLt; have := Nat.mod_lt b (show 0 < 8 by decide); omega⟩

/-- Query row `p` of query block `a` as a row of the 8192. -/
def qryIx (a : ℕ) (p : Fin 1024) : Fin 8192 := ⟨(a % 8) * 1024 + p.val, by have := p.isLt; have := Nat.mod_lt a (show 0 < 8 by decide); omega⟩

/-- The scores of one query row (of a block of 1024 query rows `q`) against a block of 1024 keys `kb`. -/
def sBlk (q kb : SQb.Idx → ℝ) (p r : Fin 1024) : ℝ := ∑ d : Fin 64, q (ix2 p d) * kb (ix2 r d)

/-- One step of the walk on whole blocks: the new running maximum … -/
def mNew (q kb : SQb.Idx → ℝ) (m : SC.Idx → ℝ) : SC.Idx → ℝ := fun y =>
  max (m y) (Finset.univ.sup' ⟨(0 : Fin 1024), Finset.mem_univ _⟩ (sBlk q kb (y 0 : Fin 1024)))
/-- … the new normaliser … -/
def lNew (q kb : SQb.Idx → ℝ) (m l : SC.Idx → ℝ) : SC.Idx → ℝ := fun y =>
  Real.exp (m y - mNew q kb m y) * l y + ∑ r : Fin 1024, Real.exp (sBlk q kb (y 0 : Fin 1024) r - mNew q kb m y)
/-- … and the new accumulator. -/
def accNew (q kb : SQb.Idx → ℝ) (vb : SVb.Idx → ℝ) (m : SC.Idx → ℝ) (acc : SVb.Idx → ℝ) : SVb.Idx → ℝ := fun y =>
  Real.exp (m (ix2 (y 0 : Fin 1024) (0 : Fin 1)) - mNew q kb m (ix2 (y 0 : Fin 1024) (0 : Fin 1))) * acc y
    + ∑ r : Fin 1024, Real.exp (sBlk q kb (y 0 : Fin 1024) r - mNew q kb m (ix2 (y 0 : Fin 1024) (0 : Fin 1))) * vb (ix2 r (y 1 : Fin 256))

/-- The first step, from the reset state (maximum -∞, normaliser and accumulator 0). -/
def mFirst (q kb : SQb.Idx → ℝ) : SC.Idx → ℝ := fun y =>
  Finset.univ.sup' ⟨(0 : Fin 1024), Finset.mem_univ _⟩ (sBlk q kb (y 0 : Fin 1024))
def lFirst (q kb : SQb.Idx → ℝ) : SC.Idx → ℝ := fun y =>
  ∑ r : Fin 1024, Real.exp (sBlk q kb (y 0 : Fin 1024) r - mFirst q kb y)
def accFirst (q kb : SQb.Idx → ℝ) (vb : SVb.Idx → ℝ) : SVb.Idx → ℝ := fun y =>
  ∑ r : Fin 1024, Real.exp (sBlk q kb (y 0 : Fin 1024) r - mFirst q kb (ix2 (y 0 : Fin 1024) (0 : Fin 1))) * vb (ix2 r (y 1 : Fin 256))

/-- The last step's division. -/
def outFinal (acc : SVb.Idx → ℝ) (l : SC.Idx → ℝ) : SVb.Idx → ℝ := fun y => acc y / l (ix2 (y 0 : Fin 1024) (0 : Fin 1))

end Cert.Spec

end
-- ==== Proof.ProjValue.lean ====
/- What the projection region leaves in its three result arrays, over the reals: from a real-valued flat input and
   parameter matrices, the scaled queries, the keys, and the input itself. -/
import proofs.«407828_j65481071406882_3_alg».proof.Proof.KI.Proj
import proofs.«407828_j65481071406882_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.ValP

open Idealize.ShloMosaic Idealize.ShloMosaic.TcCoe Idealize.ShloMosaic.ValueIdx Idealize.SL.Sem Cert.KernelIdeal Cert.KernelIdeal.Gen Cert.KernelIdeal.Frm Cert.Spec
open Idealize.ShloMosaic.Pipeline (Dat)

/-! ## Reals inside the extended reals -/

/-- A finite sum of reals, read as an extended real, is the sum of the terms read so. -/
theorem coe_sum {ι : Type} (s : Finset ι) (f : ι → ℝ) : ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- The scale the body multiplies the queries by is one sixteenth. -/
theorem scale_eq : Ideal.ofBits .f32 0x3D800000#32 = (((1 / 16 : ℝ)) : EReal) := by
  simp [Ideal.ofBits, Ideal.ieee, -EReal.coe_mul]; norm_num

/-! ## The block product at an index -/

/-- The coordinates of the two operands' entries that the product's entry (row, column) reads at the shared coordinate:
    the left operand's are (row, shared), the right one's (shared, column). -/
theorem lhs_blk_0 (i : S1024x64.Idx) (q : dot_S1024x256_S256x64_S1024x64_1_0_0_1_n_n.contr.Idx) :
    (dot_S1024x256_S256x64_S1024x64_1_0_0_1_n_n.lhsIdx i q 0).val = (i 0).val := by
  unfold DotDims.lhsIdx
  rw [dif_neg (show ¬(0 : Fin S1024x256.rank) ∈ dot_S1024x256_S256x64_S1024x64_1_0_0_1_n_n.lhsBatch by decide), dif_pos (show (0 : Fin S1024x256.rank) ∈ dot_S1024x256_S256x64_S1024x64_1_0_0_1_n_n.lhsNonContracting by decide)]
  rfl
theorem lhs_blk_1 (i : S1024x64.Idx) (q : dot_S1024x256_S256x64_S1024x64_1_0_0_1_n_n.contr.Idx) :
    (dot_S1024x256_S256x64_S1024x64_1_0_0_1_n_n.lhsIdx i q 1).val = (q ⟨0, by decide⟩).val :=
  dot_S1024x256_S256x64_S1024x64_1_0_0_1_n_n.lhsIdx_val_of_single rfl i q
theorem rhs_blk_0 (i : S1024x64.Idx) (q : dot_S1024x256_S256x64_S1024x64_1_0_0_1_n_n.contr.Idx) :
    (dot_S1024x256_S256x64_S1024x64_1_0_0_1_n_n.rhsIdx i q 0).val = (q ⟨0, by decide⟩).val :=
  dot_S1024x256_S256x64_S1024x64_1_0_0_1_n_n.rhsIdx_val_of_single rfl i q
theorem rhs_blk_1 (i : S1024x64.Idx) (q : dot_S1024x256_S256x64_S1024x64_1_0_0_1_n_n.contr.Idx) :
    (dot_S1024x256_S256x64_S1024x64_1_0_0_1_n_n.rhsIdx i q 1).val = (i 1).val := by
  unfold DotDims.rhsIdx
  rw [dif_neg (show ¬(1 : Fin S256x64.rank) ∈ dot_S1024x256_S256x64_S1024x64_1_0_0_1_n_n.rhsBatch by decide), dif_pos (show (1 : Fin S256x64.rank) ∈ dot_S1024x256_S256x64_S1024x64_1_0_0_1_n_n.rhsNonContracting by decide)]
  rfl

/-- The matrix unit's product of a 1024 × 256 block with a 256 × 64 matrix into a zero accumulator, at row `p` and
    column `q`: the sum over the 256 shared coordinates. -/
theorem blockProduct_apply (a : FVec Ideal S1024x256 .bf16) (b : FVec Ideal S256x64 .bf16) (p : Fin 1024) (q : Fin 64) :
    FloatOps.matmul dot_S1024x256_S256x64_S1024x64_1_0_0_1_n_n none a b (constant S1024x64 .f32 0x00000000#32) (ix2 p q)
      = ∑ k : Fin 256, a (ix2 p k) * b (ix2 k q) := by
  rw [Ideal.matmul_constant_zero_apply, ← Equiv.sum_comp (contrEquiv1 dot_S1024x256_S256x64_S1024x64_1_0_0_1_n_n 256 rfl rfl).symm]
  refine Finset.sum_congr rfl fun k _ => ?_
  have hk := contrEquiv1_symm_val dot_S1024x256_S256x64_S1024x64_1_0_0_1_n_n 256 rfl rfl k
  have el : dot_S1024x256_S256x64_S1024x64_1_0_0_1_n_n.lhsIdx (ix2 p q) ((contrEquiv1 dot_S1024x256_S256x64_S1024x64_1_0_0_1_n_n 256 rfl rfl).symm k) = ix2 p k := funext fun a => Fin.ext (by
    match a with
    | ⟨0, _⟩ => exact lhs_blk_0 _ _
    | ⟨1, _⟩ => exact (lhs_blk_1 _ _).trans hk)
  have er : dot_S1024x256_S256x64_S1024x64_1_0_0_1_n_n.rhsIdx (ix2 p q) ((contrEquiv1 dot_S1024x256_S256x64_S1024x64_1_0_0_1_n_n 256 rfl rfl).symm k) = ix2 k q := funext fun a => Fin.ext (by
    match a with
    | ⟨0, _⟩ => exact (rhs_blk_0 _ _).trans hk
    | ⟨1, _⟩ => exact rhs_blk_1 _ _)
  rw [el, er]

/-! ## The body's three payloads -/

/-- The copy of the input block: the change of format is the identity on extended reals. -/
theorem copy_eq (x0 : Vec Ideal S1024x256 .f32) : k0_pay1 x0 = x0 := by
  unfold k0_pay1
  rw [shapeCast_self]
  rfl

/-- The keys' payload at row `p`, column `q`. -/
theorem keys_apply (x0 : Vec Ideal S1024x256 .f32) (x2 : Vec Ideal S256x64 .f32) (p : Fin 1024) (q : Fin 64) :
    k0_pay3 x0 x2 (ix2 p q) = ∑ k : Fin 256, x0 (ix2 p k) * x2 (ix2 k q) := by
  unfold k0_pay3
  rw [copy_eq]
  exact blockProduct_apply x0 x2 p q

/-- The queries' payload at row `p`, column `q`: the same sum times the scale. -/
theorem queries_apply (x0 : Vec Ideal S1024x256 .f32) (x1 : Vec Ideal S256x64 .f32) (p : Fin 1024) (q : Fin 64) :
    k0_pay2 x0 x1 (ix2 p q) = (∑ k : Fin 256, x0 (ix2 p k) * x1 (ix2 k q)) * Ideal.ofBits .f32 0x3D800000#32 := by
  unfold k0_pay2
  rw [copy_eq]
  exact congrArg (· * Ideal.ofBits .f32 0x3D800000#32) (blockProduct_apply x0 x1 p q)

variable (V : (c : Dev nD) → (b : Ref sig .tc) → Buf (Elt Ideal) ((c : Thread nD τ).loc b))

/-! ## Where a block sits in its array -/

theorem hz : (![0, 0] : Fin 2 → Nat) = fun _ => 0 := funext fun a => by fin_cases a <;> rfl

/-- The block indices at a grid point, decided over the 8 points: the input's and the three results' blocks are the
    point's 1024 rows, full width; the two parameter matrices are one block each. -/
theorem blockIndex : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 8 := lt_of_lt_of_eq t.isLt N_0

/-- Row `p` of the block at point `t`, as a row of the 8192. -/
def rowOf (t : Fin cfg0.N) (p : Fin 1024) : Fin 8192 := ⟨t.val * 1024 + p.val, by have := point_lt t; have := p.isLt; omega⟩

theorem rowOf_val (t : Fin cfg0.N) (p : Fin 1024) : (rowOf t p).val = t.val * 1024 + p.val := rfl

/-- Entry (p, k) of the input block at point `t` is entry (t · 1024 + p, k) of the flat input. -/
theorem xblk_apply (c : Dev nD) (xf : SF.Idx → ℝ) (hx : V c main_v0 = lift xf) (t : Fin cfg0.N) (p : Fin 1024) (k : Fin 256) :
    (iblk0 V c 0 t : Vec Ideal S1024x256 .f32) (ix2 p k) = ((xf (ix2 (rowOf t p) k) : ℝ) : EReal) := by
  obtain ⟨e0, e1, -⟩ := blockIndex t
  unfold iblk0
  rw [View.read_apply]
  show V c main_v0 _ = lift xf (ix2 (rowOf t p) k)
  rw [hx]
  congr 1
  funext a; apply Fin.ext
  match a with
  | ⟨0, _⟩ => show win0_0.index t (0 : Fin 2) * 1024 + 1 * p.val = t.val * 1024 + p.val; rw [e0]; omega
  | ⟨1, _⟩ => show win0_0.index t (1 : Fin 2) * 256 + 1 * k.val = k.val; rw [e1]; omega

/-- The first parameter matrix's one block is the matrix. -/
theorem rblk_apply (c : Dev nD) (r : SW.Idx → ℝ) (hr : V c main_arg1 = lift r) (t : Fin cfg0.N) (k : Fin 256) (q : Fin 64) :
    (iblk0 V c 1 t : Vec Ideal S256x64 .f32) (ix2 k q) = ((r (ix2 k q) : ℝ) : EReal) := by
  obtain ⟨-, -, e0, e1, -⟩ := blockIndex t
  unfold iblk0
  rw [View.read_apply]
  show V c main_arg1 _ = lift r (ix2 k q)
  rw [hr]
  congr 1
  funext a; apply Fin.ext
  match a with
  | ⟨0, _⟩ => show win0_1.index t (0 : Fin 2) * 256 + 1 * k.val = k.val; rw [e0]; omega
  | ⟨1, _⟩ => show win0_1.index t (1 : Fin 2) * 64 + 1 * q.val = q.val; rw [e1]; omega

/-- The second parameter matrix's one block is the matrix. -/
theorem eblk_apply (c : Dev nD) (e : SW.Idx → ℝ) (he : V c main_arg2 = lift e) (t : Fin cfg0.N) (k : Fin 256) (q : Fin 64) :
    (iblk0 V c 2 t : Vec Ideal S256x64 .f32) (ix2 k q) = ((e (ix2 k q) : ℝ) : EReal) := by
  obtain ⟨-, -, -, -, e0, e1, -⟩ := blockIndex t
  unfold iblk0
  rw [View.read_apply]
  show V c main_arg2 _ = lift e (ix2 k q)
  rw [he]
  congr 1
  funext a; apply Fin.ext
  match a with
  | ⟨0, _⟩ => show win0_2.index t (0 : Fin 2) * 256 + 1 * k.val = k.val; rw [e0]; omega
  | ⟨1, _⟩ => show win0_2.index t (1 : Fin 2) * 64 + 1 * q.val = q.val; rw [e1]; omega

/-- The sum the matrix unit forms at row `p`, column `q`, of a block whose row `p` is row `n p` of the real input, against
    a real matrix `w`: the projection's entry at row `n p`. -/
theorem blockSum_eq (xf : SF.Idx → ℝ) (w : SW.Idx → ℝ) (x0 : Vec Ideal S1024x256 .f32) (x1 : Vec Ideal S256x64 .f32) (n : Fin 1024 → Fin 8192)
    (h0 : ∀ (p : Fin 1024) (k : Fin 256), x0 (ix2 p k) = ((xf (ix2 (n p) k) : ℝ) : EReal))
    (h1 : ∀ (k : Fin 256) (q : Fin 64), x1 (ix2 k q) = ((w (ix2 k q) : ℝ) : EReal)) (p : Fin 1024) (q : Fin 64) :
    ∑ k : Fin 256, x0 (ix2 p k) * x1 (ix2 k q) = ((proj xf w (ix2 (n p) q) : ℝ) : EReal) := by
  show _ = ((∑ k : Fin 256, xf (ix2 (n p) k) * w (ix2 k q) : ℝ) : EReal)
  rw [coe_sum]
  refine Finset.sum_congr rfl fun k _ => ?_
  rw [EReal.coe_mul, h0 p k, h1 k q]

/-- Entry (p, q) of a result's 1024 × 64 block at point `t` sits at (t · 1024 + p, q) of the array: the queries' … -/
theorem qblk_emb (t : Fin cfg0.N) (p : Fin 1024) (q : Fin 64) :
    ((cfg0.win 3).blk t).view.emb (ix2 p q) = (ix2 (rowOf t p) q : S8192x64.Idx) := by
  obtain ⟨-, -, -, -, -, -, e0, e1, -⟩ := blockIndex t
  funext a; apply Fin.ext
  match a with
  | ⟨0, _⟩ => show win0_3.index t (0 : Fin 2) * 1024 + 1 * p.val = t.val * 1024 + p.val; rw [e0]; omega
  | ⟨1, _⟩ => show win0_3.index t (1 : Fin 2) * 64 + 1 * q.val = q.val; rw [e1]; omega
/-- … the keys' … -/
theorem kblk_emb (t : Fin cfg0.N) (p : Fin 1024) (q : Fin 64) :
    ((cfg0.win 4).blk t).view.emb (ix2 p q) = (ix2 (rowOf t p) q : S8192x64.Idx) := by
  obtain ⟨-, -, -, -, -, -, -, -, e0, e1, -⟩ := blockIndex t
  funext a; apply Fin.ext
  match a with
  | ⟨0, _⟩ => show win0_4.index t (0 : Fin 2) * 1024 + 1 * p.val = t.val * 1024 + p.val; rw [e0]; omega
  | ⟨1, _⟩ => show win0_4.index t (1 : Fin 2) * 64 + 1 * q.val = q.val; rw [e1]; omega
/-- … and likewise entry (p, k) of the copy's 1024 × 256 block. -/
theorem vblk_emb (t : Fin cfg0.N) (p : Fin 1024) (k : Fin 256) :
    ((cfg0.win 5).blk t).view.emb (ix2 p k) = (ix2 (rowOf t p) k : S8192x256.Idx) := by
  obtain ⟨-, -, -, -, -, -, -, -, -, -, e0, e1⟩ := blockIndex t
  funext a; apply Fin.ext
  match a with
  | ⟨0, _⟩ => show win0_5.index t (0 : Fin 2) * 1024 + 1 * p.val = t.val * 1024 + p.val; rw [e0]; omega
  | ⟨1, _⟩ => show win0_5.index t (1 : Fin 2) * 256 + 1 * k.val = k.val; rw [e1]; omega

/-! ## What each point writes back -/

/-- Point `t` writes back block `t` of the scaled queries. -/
theorem flushedQ_eq (c : Dev nD) (xf : SF.Idx → ℝ) (r : SW.Idx → ℝ) (hx : V c main_v0 = lift xf) (hr : V c main_arg1 = lift r) (t : Fin cfg0.N) :
    (dat0 V c).flushed 3 t = ((cfg0.win 3).blk t).view.read (Elt Ideal) (lift (projScaled xf r)) := by
  show (cfg0.win 3).cut (grid0.coords t) ((dat0 V c).after 3 t) = _
  rw [after0_3]
  unfold out0_3
  rw [View.canon_unit_zero hz]
  simp only [View.ld_unit_zero (S := S1024x256) hz, View.ld_unit_zero (S := S256x64) hz]
  funext j
  obtain ⟨p, q, rfl⟩ : ∃ (p : Fin 1024) (q : Fin 64), j = ix2 p q := ⟨j 0, j 1, eq_ix2 j⟩
  show k0_pay2 (iblk0 V c 0 t) (iblk0 V c 1 t) (ix2 p q) = lift (projScaled xf r) (((cfg0.win 3).blk t).view.emb (ix2 p q))
  refine (queries_apply (iblk0 V c 0 t) (iblk0 V c 1 t) p q).trans ?_
  refine Eq.trans ?_ (congrArg (lift (projScaled xf r)) (qblk_emb t p q)).symm
  show _ = ((proj xf r (ix2 (rowOf t p) q) * (1 / 16) : ℝ) : EReal)
  rw [EReal.coe_mul, scale_eq]
  exact congrArg (· * (((1 / 16 : ℝ)) : EReal)) (blockSum_eq xf r (iblk0 V c 0 t) (iblk0 V c 1 t) (rowOf t) (xblk_apply V c xf hx t) (rblk_apply V c r hr t) p q)

/-- Point `t` writes back block `t` of the keys. -/
theorem flushedK_eq (c : Dev nD) (xf : SF.Idx → ℝ) (e : SW.Idx → ℝ) (hx : V c main_v0 = lift xf) (he : V c main_arg2 = lift e) (t : Fin cfg0.N) :
    (dat0 V c).flushed 4 t = ((cfg0.win 4).blk t).view.read (Elt Ideal) (lift (proj xf e)) := by
  show (cfg0.win 4).cut (grid0.coords t) ((dat0 V c).after 4 t) = _
  rw [after0_4]
  unfold out0_4
  rw [View.canon_unit_zero hz]
  simp only [View.ld_unit_zero (S := S1024x256) hz, View.ld_unit_zero (S := S256x64) hz]
  funext j
  obtain ⟨p, q, rfl⟩ : ∃ (p : Fin 1024) (q : Fin 64), j = ix2 p q := ⟨j 0, j 1, eq_ix2 j⟩
  show k0_pay3 (iblk0 V c 0 t) (iblk0 V c 2 t) (ix2 p q) = lift (proj xf e) (((cfg0.win 4).blk t).view.emb (ix2 p q))
  refine (keys_apply (iblk0 V c 0 t) (iblk0 V c 2 t) p q).trans ?_
  refine Eq.trans ?_ (congrArg (lift (proj xf e)) (kblk_emb t p q)).symm
  exact blockSum_eq xf e (iblk0 V c 0 t) (iblk0 V c 2 t) (rowOf t) (xblk_apply V c xf hx t) (eblk_apply V c e he t) p q

/-- Point `t` writes back block `t` of the flat input. -/
theorem flushedV_eq (c : Dev nD) (xf : SF.Idx → ℝ) (hx : V c main_v0 = lift xf) (t : Fin cfg0.N) :
    (dat0 V c).flushed 5 t = ((cfg0.win 5).blk t).view.read (Elt Ideal) (lift xf) := by
  show (cfg0.win 5).cut (grid0.coords t) ((dat0 V c).after 5 t) = _
  rw [after0_5]
  unfold out0_5
  rw [View.canon_unit_zero hz]
  simp only [View.ld_unit_zero (S := S1024x256) hz]
  funext j
  obtain ⟨p, k, rfl⟩ : ∃ (p : Fin 1024) (k : Fin 256), j = ix2 p k := ⟨j 0, j 1, eq_ix2 j⟩
  show k0_pay1 (iblk0 V c 0 t) (ix2 p k) = lift xf (((cfg0.win 5).blk t).view.emb (ix2 p k))
  refine (congrFun (copy_eq (iblk0 V c 0 t)) (ix2 p k)).trans ?_
  refine (xblk_apply V c xf hx t p k).trans ?_
  exact (congrArg (lift xf) (vblk_emb t p k)).symm

/-! ## The blocks tile the arrays: row `n` lies in block `n / 1024` -/

theorem mem_blkQ (t : Fin cfg0.N) (i : S8192x64.Idx) :
    i ∈ ((cfg0.win 3).blk t).view.set ↔ ∀ a : Fin 2, win0_3.index t a * S1024x64.size a ≤ (i a).val ∧ (i a).val < win0_3.index t a * S1024x64.size a + S1024x64.size a := by
  show i ∈ ((View.whole main_v1_0).slice (win0_3.rect t)).set ↔ _
  rw [View.set_slice_whole, Rect.mem_set_unit]
  exact Iff.rfl
theorem mem_blkK (t : Fin cfg0.N) (i : S8192x64.Idx) :
    i ∈ ((cfg0.win 4).blk t).view.set ↔ ∀ a : Fin 2, win0_4.index t a * S1024x64.size a ≤ (i a).val ∧ (i a).val < win0_4.index t a * S1024x64.size a + S1024x64.size a := by
  show i ∈ ((View.whole main_v1_1).slice (win0_4.rect t)).set ↔ _
  rw [View.set_slice_whole, Rect.mem_set_unit]
  exact Iff.rfl
theorem mem_blkV (t : Fin cfg0.N) (i : S8192x256.Idx) :
    i ∈ ((cfg0.win 5).blk t).view.set ↔ ∀ a : Fin 2, win0_5.index t a * S1024x256.size a ≤ (i a).val ∧ (i a).val < win0_5.index t a * S1024x256.size a + S1024x256.size a := by
  show i ∈ ((View.whole main_v1_2).slice (win0_5.rect t)).set ↔ _
  rw [View.set_slice_whole, Rect.mem_set_unit]
  exact Iff.rfl

/-- The point whose block holds row `n`. -/
def pointOf (n : Nat) (hn : n < 8192) : Fin cfg0.N := ⟨n / 1024, by rw [show cfg0.N = 8 from N_0]; omega⟩

theorem coverQ (i : S8192x64.Idx) : ∃ t : Fin cfg0.N, (cfg0.win 3).flush t = true ∧ i ∈ ((cfg0.win 3).blk t).view.set := by
  have h0 : (i 0).val < 8192 := idx2_lt0 i
  have h1 : (i 1).val < 64 := idx2_lt1 i
  refine ⟨pointOf (i 0).val h0, flush0_3 _, ?_⟩
  obtain ⟨-, -, -, -, -, -, e0, e1, -⟩ := blockIndex (pointOf (i 0).val h0)
  have hv : (pointOf (i 0).val h0).val = (i 0).val / 1024 := rfl
  rw [mem_blkQ]
  intro a
  match a with
  | ⟨0, _⟩ => show win0_3.index (pointOf (i 0).val h0) (0 : Fin 2) * 1024 ≤ (i 0).val ∧ (i 0).val < win0_3.index (pointOf (i 0).val h0) (0 : Fin 2) * 1024 + 1024; rw [e0, hv]; omega
  | ⟨1, _⟩ => show win0_3.index (pointOf (i 0).val h0) (1 : Fin 2) * 64 ≤ (i 1).val ∧ (i 1).val < win0_3.index (pointOf (i 0).val h0) (1 : Fin 2) * 64 + 64; rw [e1]; omega

theorem coverK (i : S8192x64.Idx) : ∃ t : Fin cfg0.N, (cfg0.win 4).flush t = true ∧ i ∈ ((cfg0.win 4).blk t).view.set := by
  have h0 : (i 0).val < 8192 := idx2_lt0 i
  have h1 : (i 1).val < 64 := idx2_lt1 i
  refine ⟨pointOf (i 0).val h0, flush0_4 _, ?_⟩
  obtain ⟨-, -, -, -, -, -, -, -, e0, e1, -⟩ := blockIndex (pointOf (i 0).val h0)
  have hv : (pointOf (i 0).val h0).val = (i 0).val / 1024 := rfl
  rw [mem_blkK]
  intro a
  match a with
  | ⟨0, _⟩ => show win0_4.index (pointOf (i 0).val h0) (0 : Fin 2) * 1024 ≤ (i 0).val ∧ (i 0).val < win0_4.index (pointOf (i 0).val h0) (0 : Fin 2) * 1024 + 1024; rw [e0, hv]; omega
  | ⟨1, _⟩ => show win0_4.index (pointOf (i 0).val h0) (1 : Fin 2) * 64 ≤ (i 1).val ∧ (i 1).val < win0_4.index (pointOf (i 0).val h0) (1 : Fin 2) * 64 + 64; rw [e1]; omega

theorem coverV (i : S8192x256.Idx) : ∃ t : Fin cfg0.N, (cfg0.win 5).flush t = true ∧ i ∈ ((cfg0.win 5).blk t).view.set := by
  have h0 : (i 0).val < 8192 := idx2_lt0 i
  have h1 : (i 1).val < 256 := idx2_lt1 i
  refine ⟨pointOf (i 0).val h0, flush0_5 _, ?_⟩
  obtain ⟨-, -, -, -, -, -, -, -, -, -, e0, e1⟩ := blockIndex (pointOf (i 0).val h0)
  have hv : (pointOf (i 0).val h0).val = (i 0).val / 1024 := rfl
  rw [mem_blkV]
  intro a
  match a with
  | ⟨0, _⟩ => show win0_5.index (pointOf (i 0).val h0) (0 : Fin 2) * 1024 ≤ (i 0).val ∧ (i 0).val < win0_5.index (pointOf (i 0).val h0) (0 : Fin 2) * 1024 + 1024; rw [e0, hv]; omega
  | ⟨1, _⟩ => show win0_5.index (pointOf (i 0).val h0) (1 : Fin 2) * 256 ≤ (i 1).val ∧ (i 1).val < win0_5.index (pointOf (i 0).val h0) (1 : Fin 2) * 256 + 256; rw [e1]; omega

/-! ## The three arrays after the region -/

/-- After the region the first result array holds the scaled queries. -/
theorem projQ_final (c : Dev nD) (xf : SF.Idx → ℝ) (r : SW.Idx → ℝ) (hx : V c main_v0 = lift xf) (hr : V c main_arg1 = lift r) :
    (dat0 V c).arrAt 3 cfg0.N = lift (projScaled xf r) :=
  (dat0 V c).arrAt_eq_of_cover 3 (lift (projScaled xf r)) (fun t _ => flushedQ_eq V c xf r hx hr t) coverQ
/-- The second holds the keys. -/
theorem projK_final (c : Dev nD) (xf : SF.Idx → ℝ) (e : SW.Idx → ℝ) (hx : V c main_v0 = lift xf) (he : V c main_arg2 = lift e) :
    (dat0 V c).arrAt 4 cfg0.N = lift (proj xf e) :=
  (dat0 V c).arrAt_eq_of_cover 4 (lift (proj xf e)) (fun t _ => flushedK_eq V c xf e hx he t) coverK
/-- The third holds the flat input. -/
theorem projV_final (c : Dev nD) (xf : SF.Idx → ℝ) (hx : V c main_v0 = lift xf) :
    (dat0 V c).arrAt 5 cfg0.N = lift xf :=
  (dat0 V c).arrAt_eq_of_cover 5 (lift xf) (fun t _ => flushedV_eq V c xf hx t) coverV

end Cert.KernelIdeal.ValP

end
-- ==== Proof.KI.AttnStep.lean ====
/- What each control case of the attention body leaves, named: the running maximum, the running normaliser and the
   accumulator after a point are the body's payloads of the query block, of the 1024-row key and value blocks the point
   reads out of the resident arrays, and of what the scratch held before (the reset values at a first key block); the
   output block at a last key block is the quotient of the new accumulator by the new normaliser. -/
import proofs.«407828_j65481071406882_3_alg».proof.Proof.KI.Attn
import Idealize.ShloMosaic.Lib.Pipeline.Value

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-- The 1024 keys a point reads out of the resident key array: the rows from 1024 × (the point's key-block number). -/
def kBlk (i : grid1.Coords) (x1 : Vec F S8192x64 .bf16) : Vec F S1024x64 .bf16 :=
  View.ld x1 (Rect.unit (s := S8192x64) (k1_off1 i) S1024x64.size (k1_off1_inb i))
/-- The 1024 value rows it reads out of the resident value array. -/
def vBlk (i : grid1.Coords) (x2 : Vec F S8192x256 .bf16) : Vec F S1024x256 .bf16 :=
  View.ld x2 (Rect.unit (s := S8192x256) (k1_off2 i) S1024x256.size (k1_off2_inb i))

/-! ## A first key block: from the reset values -/

theorem sout1_A_0_eq (c : Dev nD) (i : grid1.Coords) (arg2 : Memref sig .tc .vmem S1024x64 .bf16) (harg2 : arg2.IsWhole) (arg3 : Memref sig .tc .vmem S8192x64 .bf16) (harg3 : arg3.IsWhole) (arg4 : Memref sig .tc .vmem S8192x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : cond1_0 i) (hc1 : ¬cond1_1 i)
    (x0 : Vec F S1024x64 .bf16) (x1 : Vec F S8192x64 .bf16) (x2 : Vec F S8192x256 .bf16) :
    sout1_A_0 c i arg2 harg2 arg3 harg3 arg4 harg4 arg5 harg5 arg6 harg6 arg7 harg7 arg8 harg8 hc0 hc1 x0 x1 x2 = k1_pay2 (k1_pay9 x0 (kBlk i x1) (k1_pay4 (F := F))) := by
  unfold sout1_A_0
  rw [View.read_writes_eq_canon _ _ _ (scover1_A_0 c i arg2 harg2 arg3 harg3 arg4 harg4 arg5 harg5 arg6 harg6 arg7 harg7 arg8 harg8 hc0 hc1 x0 x1 x2)]
  unfold kernelRun1_A
  dsimp only
  sl_unfold_words
  rw [View.canon_cons_unit_zero (S := S1024x1) hz2]
  simp only [View.readAt_eq_ld, harg2.read_unread, harg3.read_unread, harg4.read_unread, harg6.read_unread, harg7.read_unread, harg8.read_unread,
    View.ld_unit_zero (S := S1024x64) hz2, View.ld_unit_zero (S := S1024x1) hz2, View.ld_unit_zero (S := S1024x256) hz2,
    View.readCov_unit_zero (S := S1024x1) _ hz2, View.readCov_unit_zero (S := S1024x256) _ hz2, shapeCast_self, kBlk, vBlk]
  all_goals rfl

theorem sout1_A_1_eq (c : Dev nD) (i : grid1.Coords) (arg2 : Memref sig .tc .vmem S1024x64 .bf16) (harg2 : arg2.IsWhole) (arg3 : Memref sig .tc .vmem S8192x64 .bf16) (harg3 : arg3.IsWhole) (arg4 : Memref sig .tc .vmem S8192x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : cond1_0 i) (hc1 : ¬cond1_1 i)
    (x0 : Vec F S1024x64 .bf16) (x1 : Vec F S8192x64 .bf16) (x2 : Vec F S8192x256 .bf16) :
    sout1_A_1 c i arg2 harg2 arg3 harg3 arg4 harg4 arg5 harg5 arg6 harg6 arg7 harg7 arg8 harg8 hc0 hc1 x0 x1 x2 = k1_pay12 x0 (kBlk i x1) (k1_pay4 (F := F)) (k1_pay4 (F := F)) (k1_pay5 (F := F)) := by
  unfold sout1_A_1
  rw [View.read_writes_eq_canon _ _ _ (scover1_A_1 c i arg2 harg2 arg3 harg3 arg4 harg4 arg5 harg5 arg6 harg6 arg7 harg7 arg8 harg8 hc0 hc1 x0 x1 x2)]
  unfold kernelRun1_A
  dsimp only
  sl_unfold_words
  rw [View.canon_cons_unit_zero (S := S1024x1) hz2]
  simp only [View.readAt_eq_ld, harg2.read_unread, harg3.read_unread, harg4.read_unread, harg6.read_unread, harg7.read_unread, harg8.read_unread,
    View.ld_unit_zero (S := S1024x64) hz2, View.ld_unit_zero (S := S1024x1) hz2, View.ld_unit_zero (S := S1024x256) hz2,
    View.readCov_unit_zero (S := S1024x1) _ hz2, View.readCov_unit_zero (S := S1024x256) _ hz2, shapeCast_self, kBlk, vBlk]
  all_goals rfl

theorem sout1_A_2_eq (c : Dev nD) (i : grid1.Coords) (arg2 : Memref sig .tc .vmem S1024x64 .bf16) (harg2 : arg2.IsWhole) (arg3 : Memref sig .tc .vmem S8192x64 .bf16) (harg3 : arg3.IsWhole) (arg4 : Memref sig .tc .vmem S8192x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : cond1_0 i) (hc1 : ¬cond1_1 i)
    (x0 : Vec F S1024x64 .bf16) (x1 : Vec F S8192x64 .bf16) (x2 : Vec F S8192x256 .bf16) :
    sout1_A_2 c i arg2 harg2 arg3 harg3 arg4 harg4 arg5 harg5 arg6 harg6 arg7 harg7 arg8 harg8 hc0 hc1 x0 x1 x2 = k1_pay1 (k1_pay7 (vBlk i x2)) (k1_pay13 x0 (kBlk i x1) (k1_pay4 (F := F)) (k1_pay4 (F := F)) (k1_pay6 (F := F))) (k1_pay14 x0 (kBlk i x1) (k1_pay4 (F := F))) := by
  unfold sout1_A_2
  rw [View.read_writes_eq_canon _ _ _ (scover1_A_2 c i arg2 harg2 arg3 harg3 arg4 harg4 arg5 harg5 arg6 harg6 arg7 harg7 arg8 harg8 hc0 hc1 x0 x1 x2)]
  unfold kernelRun1_A
  dsimp only
  sl_unfold_words
  rw [View.canon_cons_unit_zero (S := S1024x256) hz2]
  simp only [View.readAt_eq_ld, harg2.read_unread, harg3.read_unread, harg4.read_unread, harg6.read_unread, harg7.read_unread, harg8.read_unread,
    View.ld_unit_zero (S := S1024x64) hz2, View.ld_unit_zero (S := S1024x1) hz2, View.ld_unit_zero (S := S1024x256) hz2,
    View.readCov_unit_zero (S := S1024x1) _ hz2, View.readCov_unit_zero (S := S1024x256) _ hz2, shapeCast_self, kBlk, vBlk]
  all_goals rfl

/-! ## A middle key block: from what the scratch held -/

theorem sout1_B_0_eq (c : Dev nD) (i : grid1.Coords) (arg2 : Memref sig .tc .vmem S1024x64 .bf16) (harg2 : arg2.IsWhole) (arg3 : Memref sig .tc .vmem S8192x64 .bf16) (harg3 : arg3.IsWhole) (arg4 : Memref sig .tc .vmem S8192x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : ¬cond1_1 i)
    (x0 : Vec F S1024x64 .bf16) (x1 : Vec F S8192x64 .bf16) (x2 : Vec F S8192x256 .bf16) (xs0 : Vec F S1024x1 .f32) (xs1 : Vec F S1024x1 .f32) (xs2 : Vec F S1024x256 .f32) :
    sout1_B_0 c i arg2 harg2 arg3 harg3 arg4 harg4 arg5 harg5 arg6 harg6 arg7 harg7 arg8 harg8 hc0 hc1 x0 x1 x2 xs0 xs1 xs2 = k1_pay2 (k1_pay9 x0 (kBlk i x1) xs0) := by
  unfold sout1_B_0
  rw [View.read_writes_eq_canon _ _ _ (scover1_B_0 c i arg2 harg2 arg3 harg3 arg4 harg4 arg5 harg5 arg6 harg6 arg7 harg7 arg8 harg8 hc0 hc1 x0 x1 x2 xs0 xs1 xs2)]
  unfold kernelRun1_B
  dsimp only
  sl_unfold_words
  rw [View.canon_unit_zero hz2]
  simp only [View.readAt_eq_ld, harg2.read_unread, harg3.read_unread, harg4.read_unread, harg6.read_unread, harg7.read_unread, harg8.read_unread,
    View.ld_unit_zero (S := S1024x64) hz2, View.ld_unit_zero (S := S1024x1) hz2, View.ld_unit_zero (S := S1024x256) hz2,
    View.readCov_unit_zero (S := S1024x1) _ hz2, View.readCov_unit_zero (S := S1024x256) _ hz2, shapeCast_self, kBlk, vBlk]
  all_goals rfl

theorem sout1_B_1_eq (c : Dev nD) (i : grid1.Coords) (arg2 : Memref sig .tc .vmem S1024x64 .bf16) (harg2 : arg2.IsWhole) (arg3 : Memref sig .tc .vmem S8192x64 .bf16) (harg3 : arg3.IsWhole) (arg4 : Memref sig .tc .vmem S8192x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : ¬cond1_1 i)
    (x0 : Vec F S1024x64 .bf16) (x1 : Vec F S8192x64 .bf16) (x2 : Vec F S8192x256 .bf16) (xs0 : Vec F S1024x1 .f32) (xs1 : Vec F S1024x1 .f32) (xs2 : Vec F S1024x256 .f32) :
    sout1_B_1 c i arg2 harg2 arg3 harg3 arg4 harg4 arg5 harg5 arg6 harg6 arg7 harg7 arg8 harg8 hc0 hc1 x0 x1 x2 xs0 xs1 xs2 = k1_pay12 x0 (kBlk i x1) xs0 xs0 xs1 := by
  unfold sout1_B_1
  rw [View.read_writes_eq_canon _ _ _ (scover1_B_1 c i arg2 harg2 arg3 harg3 arg4 harg4 arg5 harg5 arg6 harg6 arg7 harg7 arg8 harg8 hc0 hc1 x0 x1 x2 xs0 xs1 xs2)]
  unfold kernelRun1_B
  dsimp only
  sl_unfold_words
  rw [View.canon_unit_zero hz2]
  simp only [View.readAt_eq_ld, harg2.read_unread, harg3.read_unread, harg4.read_unread, harg6.read_unread, harg7.read_unread, harg8.read_unread,
    View.ld_unit_zero (S := S1024x64) hz2, View.ld_unit_zero (S := S1024x1) hz2, View.ld_unit_zero (S := S1024x256) hz2,
    View.readCov_unit_zero (S := S1024x1) _ hz2, View.readCov_unit_zero (S := S1024x256) _ hz2, shapeCast_self, kBlk, vBlk]
  all_goals rfl

theorem sout1_B_2_eq (c : Dev nD) (i : grid1.Coords) (arg2 : Memref sig .tc .vmem S1024x64 .bf16) (harg2 : arg2.IsWhole) (arg3 : Memref sig .tc .vmem S8192x64 .bf16) (harg3 : arg3.IsWhole) (arg4 : Memref sig .tc .vmem S8192x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : ¬cond1_1 i)
    (x0 : Vec F S1024x64 .bf16) (x1 : Vec F S8192x64 .bf16) (x2 : Vec F S8192x256 .bf16) (xs0 : Vec F S1024x1 .f32) (xs1 : Vec F S1024x1 .f32) (xs2 : Vec F S1024x256 .f32) :
    sout1_B_2 c i arg2 harg2 arg3 harg3 arg4 harg4 arg5 harg5 arg6 harg6 arg7 harg7 arg8 harg8 hc0 hc1 x0 x1 x2 xs0 xs1 xs2 = k1_pay1 (k1_pay7 (vBlk i x2)) (k1_pay13 x0 (kBlk i x1) xs0 xs0 xs2) (k1_pay14 x0 (kBlk i x1) xs0) := by
  unfold sout1_B_2
  rw [View.read_writes_eq_canon _ _ _ (scover1_B_2 c i arg2 harg2 arg3 harg3 arg4 harg4 arg5 harg5 arg6 harg6 arg7 harg7 arg8 harg8 hc0 hc1 x0 x1 x2 xs0 xs1 xs2)]
  unfold kernelRun1_B
  dsimp only
  sl_unfold_words
  rw [View.canon_unit_zero hz2]
  simp only [View.readAt_eq_ld, harg2.read_unread, harg3.read_unread, harg4.read_unread, harg6.read_unread, harg7.read_unread, harg8.read_unread,
    View.ld_unit_zero (S := S1024x64) hz2, View.ld_unit_zero (S := S1024x1) hz2, View.ld_unit_zero (S := S1024x256) hz2,
    View.readCov_unit_zero (S := S1024x1) _ hz2, View.readCov_unit_zero (S := S1024x256) _ hz2, shapeCast_self, kBlk, vBlk]
  all_goals rfl

/-! ## A last key block: the same, and the output block -/

theorem sout1_C_0_eq (c : Dev nD) (i : grid1.Coords) (arg2 : Memref sig .tc .vmem S1024x64 .bf16) (harg2 : arg2.IsWhole) (arg3 : Memref sig .tc .vmem S8192x64 .bf16) (harg3 : arg3.IsWhole) (arg4 : Memref sig .tc .vmem S8192x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : cond1_1 i)
    (x0 : Vec F S1024x64 .bf16) (x1 : Vec F S8192x64 .bf16) (x2 : Vec F S8192x256 .bf16) (xs0 : Vec F S1024x1 .f32) (xs1 : Vec F S1024x1 .f32) (xs2 : Vec F S1024x256 .f32) :
    sout1_C_0 c i arg2 harg2 arg3 harg3 arg4 harg4 arg5 harg5 arg6 harg6 arg7 harg7 arg8 harg8 hc0 hc1 x0 x1 x2 xs0 xs1 xs2 = k1_pay2 (k1_pay9 x0 (kBlk i x1) xs0) := by
  unfold sout1_C_0
  rw [View.read_writes_eq_canon _ _ _ (scover1_C_0 c i arg2 harg2 arg3 harg3 arg4 harg4 arg5 harg5 arg6 harg6 arg7 harg7 arg8 harg8 hc0 hc1 x0 x1 x2 xs0 xs1 xs2)]
  unfold kernelRun1_C
  dsimp only
  sl_unfold_words
  rw [View.canon_unit_zero hz2]
  simp only [View.readAt_eq_ld, harg2.read_unread, harg3.read_unread, harg4.read_unread, harg6.read_unread, harg7.read_unread, harg8.read_unread,
    View.ld_unit_zero (S := S1024x64) hz2, View.ld_unit_zero (S := S1024x1) hz2, View.ld_unit_zero (S := S1024x256) hz2,
    View.readCov_unit_zero (S := S1024x1) _ hz2, View.readCov_unit_zero (S := S1024x256) _ hz2, shapeCast_self, kBlk, vBlk]
  all_goals rfl

theorem sout1_C_1_eq (c : Dev nD) (i : grid1.Coords) (arg2 : Memref sig .tc .vmem S1024x64 .bf16) (harg2 : arg2.IsWhole) (arg3 : Memref sig .tc .vmem S8192x64 .bf16) (harg3 : arg3.IsWhole) (arg4 : Memref sig .tc .vmem S8192x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : cond1_1 i)
    (x0 : Vec F S1024x64 .bf16) (x1 : Vec F S8192x64 .bf16) (x2 : Vec F S8192x256 .bf16) (xs0 : Vec F S1024x1 .f32) (xs1 : Vec F S1024x1 .f32) (xs2 : Vec F S1024x256 .f32) :
    sout1_C_1 c i arg2 harg2 arg3 harg3 arg4 harg4 arg5 harg5 arg6 harg6 arg7 harg7 arg8 harg8 hc0 hc1 x0 x1 x2 xs0 xs1 xs2 = k1_pay12 x0 (kBlk i x1) xs0 xs0 xs1 := by
  unfold sout1_C_1
  rw [View.read_writes_eq_canon _ _ _ (scover1_C_1 c i arg2 harg2 arg3 harg3 arg4 harg4 arg5 harg5 arg6 harg6 arg7 harg7 arg8 harg8 hc0 hc1 x0 x1 x2 xs0 xs1 xs2)]
  unfold kernelRun1_C
  dsimp only
  sl_unfold_words
  rw [View.canon_unit_zero hz2]
  simp only [View.readAt_eq_ld, harg2.read_unread, harg3.read_unread, harg4.read_unread, harg6.read_unread, harg7.read_unread, harg8.read_unread,
    View.ld_unit_zero (S := S1024x64) hz2, View.ld_unit_zero (S := S1024x1) hz2, View.ld_unit_zero (S := S1024x256) hz2,
    View.readCov_unit_zero (S := S1024x1) _ hz2, View.readCov_unit_zero (S := S1024x256) _ hz2, shapeCast_self, kBlk, vBlk]
  all_goals rfl

theorem sout1_C_2_eq (c : Dev nD) (i : grid1.Coords) (arg2 : Memref sig .tc .vmem S1024x64 .bf16) (harg2 : arg2.IsWhole) (arg3 : Memref sig .tc .vmem S8192x64 .bf16) (harg3 : arg3.IsWhole) (arg4 : Memref sig .tc .vmem S8192x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : cond1_1 i)
    (x0 : Vec F S1024x64 .bf16) (x1 : Vec F S8192x64 .bf16) (x2 : Vec F S8192x256 .bf16) (xs0 : Vec F S1024x1 .f32) (xs1 : Vec F S1024x1 .f32) (xs2 : Vec F S1024x256 .f32) :
    sout1_C_2 c i arg2 harg2 arg3 harg3 arg4 harg4 arg5 harg5 arg6 harg6 arg7 harg7 arg8 harg8 hc0 hc1 x0 x1 x2 xs0 xs1 xs2 = k1_pay1 (k1_pay7 (vBlk i x2)) (k1_pay13 x0 (kBlk i x1) xs0 xs0 xs2) (k1_pay14 x0 (kBlk i x1) xs0) := by
  unfold sout1_C_2
  rw [View.read_writes_eq_canon _ _ _ (scover1_C_2 c i arg2 harg2 arg3 harg3 arg4 harg4 arg5 harg5 arg6 harg6 arg7 harg7 arg8 harg8 hc0 hc1 x0 x1 x2 xs0 xs1 xs2)]
  unfold kernelRun1_C
  dsimp only
  sl_unfold_words
  rw [View.canon_unit_zero hz2]
  simp only [View.readAt_eq_ld, harg2.read_unread, harg3.read_unread, harg4.read_unread, harg6.read_unread, harg7.read_unread, harg8.read_unread,
    View.ld_unit_zero (S := S1024x64) hz2, View.ld_unit_zero (S := S1024x1) hz2, View.ld_unit_zero (S := S1024x256) hz2,
    View.readCov_unit_zero (S := S1024x1) _ hz2, View.readCov_unit_zero (S := S1024x256) _ hz2, shapeCast_self, kBlk, vBlk]
  all_goals rfl

theorem out1_C_3_eq (c : Dev nD) (i : grid1.Coords) (arg2 : Memref sig .tc .vmem S1024x64 .bf16) (harg2 : arg2.IsWhole) (arg3 : Memref sig .tc .vmem S8192x64 .bf16) (harg3 : arg3.IsWhole) (arg4 : Memref sig .tc .vmem S8192x256 .bf16) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x256 .f32) (harg8 : arg8.IsWhole) (hc0 : ¬cond1_0 i) (hc1 : cond1_1 i)
    (x0 : Vec F S1024x64 .bf16) (x1 : Vec F S8192x64 .bf16) (x2 : Vec F S8192x256 .bf16) (xs0 : Vec F S1024x1 .f32) (xs1 : Vec F S1024x1 .f32) (xs2 : Vec F S1024x256 .f32) :
    out1_C_3 c i arg2 harg2 arg3 harg3 arg4 harg4 arg5 harg5 arg6 harg6 arg7 harg7 arg8 harg8 hc0 hc1 x0 x1 x2 xs0 xs1 xs2 = k1_pay3 (k1_pay1 (k1_pay7 (vBlk i x2)) (k1_pay13 x0 (kBlk i x1) xs0 xs0 xs2) (k1_pay14 x0 (kBlk i x1) xs0)) (k1_pay12 x0 (kBlk i x1) xs0 xs0 xs1) := by
  unfold out1_C_3
  rw [View.read_writes_eq_canon _ _ _ (cover1_C_3 c i arg2 harg2 arg3 harg3 arg4 harg4 arg5 harg5 arg6 harg6 arg7 harg7 arg8 harg8 hc0 hc1 x0 x1 x2 xs0 xs1 xs2)]
  unfold kernelRun1_C
  dsimp only
  sl_unfold_words
  rw [View.canon_unit_zero hz2]
  simp only [View.readAt_eq_ld, harg2.read_unread, harg3.read_unread, harg4.read_unread, harg6.read_unread, harg7.read_unread, harg8.read_unread,
    View.ld_unit_zero (S := S1024x64) hz2, View.ld_unit_zero (S := S1024x1) hz2, View.ld_unit_zero (S := S1024x256) hz2,
    View.readCov_unit_zero (S := S1024x1) _ hz2, View.readCov_unit_zero (S := S1024x256) _ hz2, shapeCast_self, kBlk, vBlk]
  all_goals rfl

end Cert.KernelIdeal.Frm

end
-- ==== Proof.AttnPayload.lean ====
/- The attention body's arithmetic read at an index, over the reals: each store's value, as the body computes it from
   real-valued blocks, is the corresponding step of the walk over key blocks.

   The body forms the 1024 × 1024 scores of a block of query rows against a block of keys (a product contracting the
   64 columns), takes each row's largest score and the larger of that and the running maximum, exponentiates the
   differences, sums each row, and multiplies the exponentials into the block of values. Read at one row `p` (and one
   output column `c`) every one of these is a finite sum, a finite maximum or a pointwise operation on reals, and the image
   of a real in the extended reals commutes with all of them; from the reset state the running maximum is -∞, so the
   rescaling factor is `exp (-∞) = 0` and the old normaliser and accumulator, themselves 0, drop out. -/
import proofs.«407828_j65481071406882_3_alg».proof.Proof.Gen.KernelIdeal.Skeleton
import proofs.«407828_j65481071406882_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Val

open Idealize.ShloMosaic Idealize.ShloMosaic.ValueIdx Cert.KernelIdeal Cert.KernelIdeal.Gen Cert.Spec

/-! ## Reals inside the extended reals: sums, maxima, and the two literals -/

/-- A finite sum of images of reals is the image of the sum. -/
theorem coe_sum {ι : Type} (s : Finset ι) (f : ι → ℝ) :
    ∑ k ∈ s, ((f k : ℝ) : EReal) = ((∑ k ∈ s, f k : ℝ) : EReal) := by
  classical
  induction s using Finset.induction_on with
  | empty => rfl
  | insert a s ha ih => rw [Finset.sum_insert ha, Finset.sum_insert ha, ih, EReal.coe_add]

/-- The image of the larger of two reals is the larger of the images. -/
theorem coe_max (x y : ℝ) : ((max x y : ℝ) : EReal) = max (x : EReal) (y : EReal) :=
  EReal.coe_strictMono.monotone.map_max

/-- The maximum, started from -∞, of the images of finitely many reals (at least one) is the image of their maximum:
    both are the least upper bound of the same finite set, and -∞ lies below every image. -/
theorem fold_max_coe {ι : Type} (s : Finset ι) (hs : s.Nonempty) (f : ι → ℝ) :
    s.fold max (⊥ : EReal) (fun k => ((f k : ℝ) : EReal)) = ((s.sup' hs f : ℝ) : EReal) := by
  refine le_antisymm ?_ ?_
  · exact (Finset.fold_max_le _).mpr ⟨bot_le, fun x hx => EReal.coe_le_coe_iff.mpr (Finset.le_sup' f hx)⟩
  · obtain ⟨k, hk, e⟩ := Finset.exists_mem_eq_sup' hs f
    rw [e]
    exact (Finset.le_fold_max _).mpr (Or.inr ⟨k, hk, le_rfl⟩)

/-- The word 0xFF800000 is -∞. -/
theorem ofBits_neg_inf : Ideal.ofBits .f32 0xFF800000#32 = ⊥ := by
  simp [Ideal.ofBits, Ideal.ieee, -EReal.coe_mul]

/-! ## A column [a] or [a, 1]: its shape cast and its broadcast read at an index -/

/-- A vector of `a` entries viewed as an `a × 1` column reads, at row `p`, entry `p`. -/
theorem shapeCast_col_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- An `a × 1` column broadcast to `a × b` reads, at `(p, c)`, the column's entry of row `p`. -/
theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two products read at an index

The score product contracts axis 1 of both operands (queries times keys transposed); the value product is the plain one.
For each, the operand indices at an output index and a contraction position, coordinate by coordinate. -/

theorem lhs_qk_0 (i : S1024x1024.Idx) (q : dot_S1024x64_S1024x64_S1024x1024_1_1_0_0_n_n.contr.Idx) :
    (dot_S1024x64_S1024x64_S1024x1024_1_1_0_0_n_n.lhsIdx i q 0).val = (i 0).val := by
  unfold DotDims.lhsIdx
  rw [dif_neg (show ¬(0 : Fin S1024x64.rank) ∈ dot_S1024x64_S1024x64_S1024x1024_1_1_0_0_n_n.lhsBatch by decide), dif_pos (show (0 : Fin S1024x64.rank) ∈ dot_S1024x64_S1024x64_S1024x1024_1_1_0_0_n_n.lhsNonContracting by decide)]
  rfl
theorem lhs_qk_1 (i : S1024x1024.Idx) (q : dot_S1024x64_S1024x64_S1024x1024_1_1_0_0_n_n.contr.Idx) :
    (dot_S1024x64_S1024x64_S1024x1024_1_1_0_0_n_n.lhsIdx i q 1).val = (q ⟨0, by decide⟩).val :=
  dot_S1024x64_S1024x64_S1024x1024_1_1_0_0_n_n.lhsIdx_val_of_single rfl i q
theorem rhs_qk_0 (i : S1024x1024.Idx) (q : dot_S1024x64_S1024x64_S1024x1024_1_1_0_0_n_n.contr.Idx) :
    (dot_S1024x64_S1024x64_S1024x1024_1_1_0_0_n_n.rhsIdx i q 0).val = (i 1).val := by
  unfold DotDims.rhsIdx
  rw [dif_neg (show ¬(0 : Fin S1024x64.rank) ∈ dot_S1024x64_S1024x64_S1024x1024_1_1_0_0_n_n.rhsBatch by decide), dif_pos (show (0 : Fin S1024x64.rank) ∈ dot_S1024x64_S1024x64_S1024x1024_1_1_0_0_n_n.rhsNonContracting by decide)]
  rfl
theorem rhs_qk_1 (i : S1024x1024.Idx) (q : dot_S1024x64_S1024x64_S1024x1024_1_1_0_0_n_n.contr.Idx) :
    (dot_S1024x64_S1024x64_S1024x1024_1_1_0_0_n_n.rhsIdx i q 1).val = (q ⟨0, by decide⟩).val :=
  dot_S1024x64_S1024x64_S1024x1024_1_1_0_0_n_n.rhsIdx_val_of_single rfl i q

/-- The scores: entry `(p, r)` is the inner product over the 64 columns of query row `p` and key row `r`. -/
theorem pay8_apply (a b : FVec Ideal S1024x64 .bf16) (p r : Fin 1024) :
    k1_pay8 (F := Ideal) a b (ix2 p r) = ∑ d : Fin 64, a (ix2 p d) * b (ix2 r d) := by
  unfold k1_pay8
  simp only [matmul]
  rw [shapeCast_self, shapeCast_self]
  rw [Ideal.matmul_constant_zero_apply, ← Equiv.sum_comp (contrEquiv1 dot_S1024x64_S1024x64_S1024x1024_1_1_0_0_n_n 64 rfl rfl).symm]
  refine Finset.sum_congr rfl fun k _ => ?_
  have hk := contrEquiv1_symm_val dot_S1024x64_S1024x64_S1024x1024_1_1_0_0_n_n 64 rfl rfl k
  have el : dot_S1024x64_S1024x64_S1024x1024_1_1_0_0_n_n.lhsIdx (ix2 p r) ((contrEquiv1 dot_S1024x64_S1024x64_S1024x1024_1_1_0_0_n_n 64 rfl rfl).symm k) = ix2 p k := funext fun ax => Fin.ext (by
    match ax with
    | ⟨0, _⟩ => exact lhs_qk_0 _ _
    | ⟨1, _⟩ => exact (lhs_qk_1 _ _).trans hk)
  have er : dot_S1024x64_S1024x64_S1024x1024_1_1_0_0_n_n.rhsIdx (ix2 p r) ((contrEquiv1 dot_S1024x64_S1024x64_S1024x1024_1_1_0_0_n_n 64 rfl rfl).symm k) = ix2 r k := funext fun ax => Fin.ext (by
    match ax with
    | ⟨0, _⟩ => exact rhs_qk_0 _ _
    | ⟨1, _⟩ => exact (rhs_qk_1 _ _).trans hk)
  rw [el, er]

theorem lhs_pv_0 (i : S1024x256.Idx) (q : dot_S1024x1024_S1024x256_S1024x256_1_0_0_1_n_n.contr.Idx) :
    (dot_S1024x1024_S1024x256_S1024x256_1_0_0_1_n_n.lhsIdx i q 0).val = (i 0).val := by
  unfold DotDims.lhsIdx
  rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
  rfl
theorem lhs_pv_1 (i : S1024x256.Idx) (q : dot_S1024x1024_S1024x256_S1024x256_1_0_0_1_n_n.contr.Idx) :
    (dot_S1024x1024_S1024x256_S1024x256_1_0_0_1_n_n.lhsIdx i q 1).val = (q ⟨0, by decide⟩).val :=
  dot_S1024x1024_S1024x256_S1024x256_1_0_0_1_n_n.lhsIdx_val_of_single rfl i q
theorem rhs_pv_0 (i : S1024x256.Idx) (q : dot_S1024x1024_S1024x256_S1024x256_1_0_0_1_n_n.contr.Idx) :
    (dot_S1024x1024_S1024x256_S1024x256_1_0_0_1_n_n.rhsIdx i q 0).val = (q ⟨0, by decide⟩).val :=
  dot_S1024x1024_S1024x256_S1024x256_1_0_0_1_n_n.rhsIdx_val_of_single rfl i q
theorem rhs_pv_1 (i : S1024x256.Idx) (q : dot_S1024x1024_S1024x256_S1024x256_1_0_0_1_n_n.contr.Idx) :
    (dot_S1024x1024_S1024x256_S1024x256_1_0_0_1_n_n.rhsIdx i q 1).val = (i 1).val := by
  unfold DotDims.rhsIdx
  rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
  rfl

/-- The accumulator's store: at `(p, c)` the rescaled old accumulator plus the sum over the 1024 keys of the weight of key
    `r` in row `p` times that key's value in column `c`. -/
theorem pay1_apply (v : FVec Ideal S1024x256 .bf16) (old : FVec Ideal S1024x256 .f32) (w : FVec Ideal S1024x1024 .bf16)
    (p : Fin 1024) (c : Fin 256) :
    k1_pay1 (F := Ideal) v old w (ix2 p c) = old (ix2 p c) + ∑ r : Fin 1024, w (ix2 p r) * v (ix2 r c) := by
  unfold k1_pay1
  simp only [matmul]
  rw [shapeCast_self, addf_apply]
  rw [Ideal.matmul_constant_zero_apply, ← Equiv.sum_comp (contrEquiv1 dot_S1024x1024_S1024x256_S1024x256_1_0_0_1_n_n 1024 rfl rfl).symm]
  refine congrArg (old (ix2 p c) + ·) (Finset.sum_congr rfl fun k _ => ?_)
  have hk := contrEquiv1_symm_val dot_S1024x1024_S1024x256_S1024x256_1_0_0_1_n_n 1024 rfl rfl k
  have el : dot_S1024x1024_S1024x256_S1024x256_1_0_0_1_n_n.lhsIdx (ix2 p c) ((contrEquiv1 dot_S1024x1024_S1024x256_S1024x256_1_0_0_1_n_n 1024 rfl rfl).symm k) = ix2 p k := funext fun ax => Fin.ext (by
    match ax with
    | ⟨0, _⟩ => exact lhs_pv_0 _ _
    | ⟨1, _⟩ => exact (lhs_pv_1 _ _).trans hk)
  have er : dot_S1024x1024_S1024x256_S1024x256_1_0_0_1_n_n.rhsIdx (ix2 p c) ((contrEquiv1 dot_S1024x1024_S1024x256_S1024x256_1_0_0_1_n_n 1024 rfl rfl).symm k) = ix2 k c := funext fun ax => Fin.ext (by
    match ax with
    | ⟨0, _⟩ => exact (rhs_pv_0 _ _).trans hk
    | ⟨1, _⟩ => exact rhs_pv_1 _ _)
  rw [el, er]

/-! ## The two row reductions read at a row -/

/-- Over row `p` of a 1024 × 1024 array, the index with column coordinate `r` inserted is `(p, r)`. -/
theorem lift_row (h : S1024x1024.Reduces [1] S1024) (p r : Fin 1024) : h.lift (ix1 p) r = ix2 p r :=
  funext fun ax => Fin.ext (by match ax with | ⟨0, _⟩ => rfl | ⟨1, _⟩ => rfl)

/-- A row's maximum: the maximum from -∞ over the row's 1024 entries. -/
theorem rowMax_apply (src : FVec Ideal S1024x1024 .f32) (h : S1024x1024.Reduces [1] S1024) (hφ : FKind.Formats .f32)
    (hacc : (0xFF800000#32 : BitVec 32) = FKind.maximumf.neutral .f32 hφ) (p : Fin 1024) :
    multiReduction .maximumf [1] S1024 src 0xFF800000#32 h hφ hacc (ix1 p)
      = (Finset.univ : Finset (Fin 1024)).fold max (⊥ : EReal) (fun r => src (ix2 p r)) := by
  refine (Ideal.multiReduction_maximumf_single src 0xFF800000#32 h hφ hacc (ix1 p)).trans ?_
  show (Finset.univ : Finset (Fin 1024)).fold max (Ideal.ofBits .f32 0xFF800000#32) (src ∘ h.lift (ix1 p)) = _
  rw [ofBits_neg_inf]
  exact congrArg (Finset.fold max (⊥ : EReal) · (Finset.univ : Finset (Fin 1024))) (funext fun r => congrArg src (lift_row h p r))

/-- A row's sum: the sum of the row's 1024 entries. -/
theorem rowSum_apply (src : FVec Ideal S1024x1024 .f32) (h : S1024x1024.Reduces [1] S1024) (hφ : FKind.Formats .f32)
    (hacc : (0x00000000#32 : BitVec 32) = FKind.add.neutral .f32 hφ) (p : Fin 1024) :
    multiReduction .add [1] S1024 src 0x00000000#32 h hφ hacc (ix1 p) = ∑ r : Fin 1024, src (ix2 p r) := by
  refine (Ideal.multiReduction_add_single src 0x00000000#32 h hφ hacc (ix1 p)).trans ?_
  show ∑ r : Fin 1024, src (h.lift (ix1 p) r) = _
  exact Finset.sum_congr rfl fun r _ => congrArg src (lift_row h p r)

/-! ## The payloads read at a row, over any blocks -/

/-- The new running maximum of row `p`: the larger of the old one and the largest score of the row. -/
theorem pay9_apply (a b : FVec Ideal S1024x64 .bf16) (m : FVec Ideal S1024x1 .f32) (p : Fin 1024) :
    k1_pay9 (F := Ideal) a b m (ix2 p (0 : Fin 1))
      = max (m (ix2 p (0 : Fin 1))) ((Finset.univ : Finset (Fin 1024)).fold max (⊥ : EReal) fun r => k1_pay8 (F := Ideal) a b (ix2 p r)) := by
  unfold k1_pay9
  refine (maximumf_apply m _ (ix2 p (0 : Fin 1))).trans (congrArg (max (m (ix2 p (0 : Fin 1)))) ?_)
  refine (shapeCast_col_apply _ _ p (0 : Fin 1)).trans ?_
  exact rowMax_apply (k1_pay8 (F := Ideal) a b) _ _ _ p

/-- The rescaling factor of row `p`: the exponential of the old maximum (as the second read has it) minus the new one. -/
theorem pay10_apply (a b : FVec Ideal S1024x64 .bf16) (m m' : FVec Ideal S1024x1 .f32) (p : Fin 1024) :
    k1_pay10 (F := Ideal) a b m m' (ix2 p (0 : Fin 1))
      = Ideal.exp (m' (ix2 p (0 : Fin 1)) - k1_pay9 (F := Ideal) a b m (ix2 p (0 : Fin 1))) := rfl

/-- The weight of key `r` in row `p`: the exponential of its score minus the row's new maximum. -/
theorem pay11_apply (a b : FVec Ideal S1024x64 .bf16) (m : FVec Ideal S1024x1 .f32) (p r : Fin 1024) :
    k1_pay11 (F := Ideal) a b m (ix2 p r)
      = Ideal.exp (k1_pay8 (F := Ideal) a b (ix2 p r) - k1_pay9 (F := Ideal) a b m (ix2 p (0 : Fin 1))) := by
  unfold k1_pay11
  show Ideal.exp (k1_pay8 (F := Ideal) a b (ix2 p r) - broadcastTo S1024x1024 (k1_pay9 (F := Ideal) a b m) broadcasts_S1024x1_S1024x1024 (ix2 p r)) = _
  rw [broadcastTo_col_apply]

/-- The new normaliser of row `p`: the old one rescaled, plus the row's weights summed. -/
theorem pay12_apply (a b : FVec Ideal S1024x64 .bf16) (m m' l : FVec Ideal S1024x1 .f32) (p : Fin 1024) :
    k1_pay12 (F := Ideal) a b m m' l (ix2 p (0 : Fin 1))
      = k1_pay10 (F := Ideal) a b m m' (ix2 p (0 : Fin 1)) * l (ix2 p (0 : Fin 1))
        + ∑ r : Fin 1024, k1_pay11 (F := Ideal) a b m (ix2 p r) := by
  unfold k1_pay12
  refine (congrFun (shapeCast_self _ _) (ix2 p (0 : Fin 1))).trans ?_
  refine (addf_apply _ _ (ix2 p (0 : Fin 1))).trans (congrArg (k1_pay10 (F := Ideal) a b m m' (ix2 p (0 : Fin 1)) * l (ix2 p (0 : Fin 1)) + ·) ?_)
  refine (shapeCast_col_apply _ _ p (0 : Fin 1)).trans ?_
  exact rowSum_apply (k1_pay11 (F := Ideal) a b m) _ _ _ p

/-- The old accumulator rescaled, at `(p, c)`: row `p`'s factor times the old entry. -/
theorem pay13_apply (a b : FVec Ideal S1024x64 .bf16) (m m' : FVec Ideal S1024x1 .f32) (old : FVec Ideal S1024x256 .f32)
    (p : Fin 1024) (c : Fin 256) :
    k1_pay13 (F := Ideal) a b m m' old (ix2 p c) = k1_pay10 (F := Ideal) a b m m' (ix2 p (0 : Fin 1)) * old (ix2 p c) := by
  unfold k1_pay13
  show broadcastTo S1024x256 (k1_pay10 (F := Ideal) a b m m') broadcasts_S1024x1_S1024x256 (ix2 p c) * old (ix2 p c) = _
  rw [broadcastTo_col_apply]

/-- The weights as the second product reads them: a change of format is the identity. -/
theorem pay14_apply (a b : FVec Ideal S1024x64 .bf16) (m : FVec Ideal S1024x1 .f32) (p r : Fin 1024) :
    k1_pay14 (F := Ideal) a b m (ix2 p r) = k1_pay11 (F := Ideal) a b m (ix2 p r) := rfl

/-- The final division at `(p, c)`: the accumulator's entry by row `p`'s normaliser. -/
theorem pay3_apply (acc : FVec Ideal S1024x256 .f32) (l : FVec Ideal S1024x1 .f32) (p : Fin 1024) (c : Fin 256) :
    k1_pay3 (F := Ideal) acc l (ix2 p c) = Ideal.div (acc (ix2 p c)) (l (ix2 p (0 : Fin 1))) := by
  unfold k1_pay3
  show Ideal.div (acc (ix2 p c)) (broadcastTo S1024x256 l broadcasts_S1024x1_S1024x256 (ix2 p c)) = _
  rw [broadcastTo_col_apply]

/-- The running maximum's store is the value itself, and so is the block of values the second product reads. -/
theorem pay2_eq (v : FVec Ideal S1024x1 .f32) : k1_pay2 (F := Ideal) v = v := shapeCast_self _ _
theorem pay7_eq (v : FVec Ideal S1024x256 .bf16) : k1_pay7 (F := Ideal) v = v := shapeCast_self _ _

/-- The reset state: maximum -∞, normaliser 0, accumulator 0. -/
theorem pay4_apply (y : S1024x1.Idx) : k1_pay4 (F := Ideal) y = ⊥ := by
  unfold k1_pay4
  rw [shapeCast_self]
  exact ofBits_neg_inf
theorem pay5_apply (y : S1024x1.Idx) : k1_pay5 (F := Ideal) y = 0 := by
  unfold k1_pay5
  rw [shapeCast_self]
  exact Ideal.ofBits_zero_f32
theorem pay6_apply (y : S1024x256.Idx) : k1_pay6 (F := Ideal) y = 0 := by
  unfold k1_pay6
  rw [shapeCast_self]
  exact Ideal.ofBits_zero_f32

/-! ## On images of real blocks: the walk's steps -/

/-- The scores of images of real blocks are the images of the real scores. -/
theorem pay8_lift (q kb : SQb.Idx → ℝ) (p r : Fin 1024) :
    k1_pay8 (F := Ideal) (lift q) (lift kb) (ix2 p r) = ((sBlk q kb p r : ℝ) : EReal) := by
  refine (pay8_apply (lift q) (lift kb) p r).trans ?_
  show ∑ d : Fin 64, ((q (ix2 p d) : ℝ) : EReal) * ((kb (ix2 r d) : ℝ) : EReal) = _
  simp only [← EReal.coe_mul]
  exact coe_sum _ _

/-- The row's maximum from -∞ over images of the real scores is the image of their largest. -/
theorem rowMax_lift (q kb : SQb.Idx → ℝ) (p : Fin 1024) :
    ((Finset.univ : Finset (Fin 1024)).fold max (⊥ : EReal) fun r => k1_pay8 (F := Ideal) (lift q) (lift kb) (ix2 p r))
      = ((Finset.univ.sup' ⟨(0 : Fin 1024), Finset.mem_univ _⟩ (sBlk q kb p) : ℝ) : EReal) := by
  have e : (fun r : Fin 1024 => k1_pay8 (F := Ideal) (lift q) (lift kb) (ix2 p r)) = fun r => ((sBlk q kb p r : ℝ) : EReal) :=
    funext fun r => pay8_lift q kb p r
  rw [e]
  exact fold_max_coe Finset.univ ⟨(0 : Fin 1024), Finset.mem_univ _⟩ (sBlk q kb p)

/-- A later block: the new maximum of row `p` is the image of the walk's. -/
theorem pay9_lift (q kb : SQb.Idx → ℝ) (m : SC.Idx → ℝ) (p : Fin 1024) :
    k1_pay9 (F := Ideal) (lift q) (lift kb) (lift m) (ix2 p (0 : Fin 1)) = ((mNew q kb m (ix2 p (0 : Fin 1)) : ℝ) : EReal) := by
  refine (pay9_apply (lift q) (lift kb) (lift m) p).trans ?_
  rw [rowMax_lift]
  exact (coe_max _ _).symm

/-- The first block: the old maximum -∞ drops out of the maximum. -/
theorem pay9_first (q kb : SQb.Idx → ℝ) (p : Fin 1024) :
    k1_pay9 (F := Ideal) (lift q) (lift kb) (k1_pay4 (F := Ideal)) (ix2 p (0 : Fin 1)) = ((mFirst q kb (ix2 p (0 : Fin 1)) : ℝ) : EReal) := by
  refine (pay9_apply (lift q) (lift kb) (k1_pay4 (F := Ideal)) p).trans ?_
  rw [rowMax_lift, pay4_apply]
  exact max_bot_left _

/-- A later block: the rescaling factor is the image of `exp (m - m_new)`. -/
theorem pay10_lift (q kb : SQb.Idx → ℝ) (m : SC.Idx → ℝ) (p : Fin 1024) :
    k1_pay10 (F := Ideal) (lift q) (lift kb) (lift m) (lift m) (ix2 p (0 : Fin 1))
      = ((Real.exp (m (ix2 p (0 : Fin 1)) - mNew q kb m (ix2 p (0 : Fin 1))) : ℝ) : EReal) := by
  rw [pay10_apply, pay9_lift]
  rfl

/-- The first block: the factor is `exp (-∞ - m_new) = exp (-∞) = 0`. -/
theorem pay10_first (q kb : SQb.Idx → ℝ) (p : Fin 1024) :
    k1_pay10 (F := Ideal) (lift q) (lift kb) (k1_pay4 (F := Ideal)) (k1_pay4 (F := Ideal)) (ix2 p (0 : Fin 1)) = 0 := by
  rw [pay10_apply, pay4_apply, EReal.bot_sub]
  rfl

/-- The weight of key `r` in row `p`, a later block and the first. -/
theorem pay11_lift (q kb : SQb.Idx → ℝ) (m : SC.Idx → ℝ) (p r : Fin 1024) :
    k1_pay11 (F := Ideal) (lift q) (lift kb) (lift m) (ix2 p r)
      = ((Real.exp (sBlk q kb p r - mNew q kb m (ix2 p (0 : Fin 1))) : ℝ) : EReal) := by
  rw [pay11_apply, pay8_lift, pay9_lift]
  rfl
theorem pay11_first (q kb : SQb.Idx → ℝ) (p r : Fin 1024) :
    k1_pay11 (F := Ideal) (lift q) (lift kb) (k1_pay4 (F := Ideal)) (ix2 p r)
      = ((Real.exp (sBlk q kb p r - mFirst q kb (ix2 p (0 : Fin 1))) : ℝ) : EReal) := by
  rw [pay11_apply, pay8_lift, pay9_first]
  rfl

/-- A later key block: the new running maximum. -/
theorem pay_mNew (q kb : SQb.Idx → ℝ) (m : SC.Idx → ℝ) :
    k1_pay2 (F := Ideal) (k1_pay9 (F := Ideal) (lift q) (lift kb) (lift m)) = lift (mNew q kb m) := by
  funext y
  obtain ⟨p, u, rfl⟩ : ∃ (p : Fin 1024) (u : Fin 1), y = ix2 p u := ⟨y 0, y 1, eq_ix2 y⟩
  obtain rfl : u = 0 := Subsingleton.elim _ _
  rw [pay2_eq]
  exact pay9_lift q kb m p
/-- A later key block: the new running normaliser. -/
theorem pay_lNew (q kb : SQb.Idx → ℝ) (m l : SC.Idx → ℝ) :
    k1_pay12 (F := Ideal) (lift q) (lift kb) (lift m) (lift m) (lift l) = lift (lNew q kb m l) := by
  funext y
  obtain ⟨p, u, rfl⟩ : ∃ (p : Fin 1024) (u : Fin 1), y = ix2 p u := ⟨y 0, y 1, eq_ix2 y⟩
  obtain rfl : u = 0 := Subsingleton.elim _ _
  refine (pay12_apply (lift q) (lift kb) (lift m) (lift m) (lift l) p).trans ?_
  rw [pay10_lift, Finset.sum_congr rfl (fun r _ => pay11_lift q kb m p r), coe_sum]
  simp only [lift_apply]
  rw [← EReal.coe_mul, ← EReal.coe_add]
  rfl
/-- A later key block: the new accumulator. -/
theorem pay_accNew (q kb : SQb.Idx → ℝ) (vb : SVb.Idx → ℝ) (m : SC.Idx → ℝ) (acc : SVb.Idx → ℝ) :
    k1_pay1 (F := Ideal) (k1_pay7 (F := Ideal) (lift vb)) (k1_pay13 (F := Ideal) (lift q) (lift kb) (lift m) (lift m) (lift acc)) (k1_pay14 (F := Ideal) (lift q) (lift kb) (lift m))
      = lift (accNew q kb vb m acc) := by
  funext y
  obtain ⟨p, c, rfl⟩ : ∃ (p : Fin 1024) (c : Fin 256), y = ix2 p c := ⟨y 0, y 1, eq_ix2 y⟩
  rw [pay7_eq]
  refine (pay1_apply _ _ _ p c).trans ?_
  have hs : ∀ r : Fin 1024, k1_pay14 (F := Ideal) (lift q) (lift kb) (lift m) (ix2 p r) * lift vb (ix2 r c)
      = ((Real.exp (sBlk q kb p r - mNew q kb m (ix2 p (0 : Fin 1))) * vb (ix2 r c) : ℝ) : EReal) := fun r => by
    rw [pay14_apply, pay11_lift, lift_apply, ← EReal.coe_mul]
  rw [pay13_apply, pay10_lift, Finset.sum_congr rfl (fun r _ => hs r), coe_sum]
  simp only [lift_apply]
  rw [← EReal.coe_mul, ← EReal.coe_add]
  rfl
/-- The first key block, from the reset state (maximum -∞, normaliser 0, accumulator 0). -/
theorem pay_mFirst (q kb : SQb.Idx → ℝ) :
    k1_pay2 (F := Ideal) (k1_pay9 (F := Ideal) (lift q) (lift kb) (k1_pay4 (F := Ideal))) = lift (mFirst q kb) := by
  funext y
  obtain ⟨p, u, rfl⟩ : ∃ (p : Fin 1024) (u : Fin 1), y = ix2 p u := ⟨y 0, y 1, eq_ix2 y⟩
  obtain rfl : u = 0 := Subsingleton.elim _ _
  rw [pay2_eq]
  exact pay9_first q kb p
theorem pay_lFirst (q kb : SQb.Idx → ℝ) :
    k1_pay12 (F := Ideal) (lift q) (lift kb) (k1_pay4 (F := Ideal)) (k1_pay4 (F := Ideal)) (k1_pay5 (F := Ideal)) = lift (lFirst q kb) := by
  funext y
  obtain ⟨p, u, rfl⟩ : ∃ (p : Fin 1024) (u : Fin 1), y = ix2 p u := ⟨y 0, y 1, eq_ix2 y⟩
  obtain rfl : u = 0 := Subsingleton.elim _ _
  refine (pay12_apply (lift q) (lift kb) (k1_pay4 (F := Ideal)) (k1_pay4 (F := Ideal)) (k1_pay5 (F := Ideal)) p).trans ?_
  rw [pay10_first, pay5_apply, mul_zero, zero_add, Finset.sum_congr rfl (fun r _ => pay11_first q kb p r), coe_sum]
  rfl
theorem pay_accFirst (q kb : SQb.Idx → ℝ) (vb : SVb.Idx → ℝ) :
    k1_pay1 (F := Ideal) (k1_pay7 (F := Ideal) (lift vb)) (k1_pay13 (F := Ideal) (lift q) (lift kb) (k1_pay4 (F := Ideal)) (k1_pay4 (F := Ideal)) (k1_pay6 (F := Ideal))) (k1_pay14 (F := Ideal) (lift q) (lift kb) (k1_pay4 (F := Ideal)))
      = lift (accFirst q kb vb) := by
  funext y
  obtain ⟨p, c, rfl⟩ : ∃ (p : Fin 1024) (c : Fin 256), y = ix2 p c := ⟨y 0, y 1, eq_ix2 y⟩
  rw [pay7_eq]
  refine (pay1_apply _ _ _ p c).trans ?_
  have hs : ∀ r : Fin 1024, k1_pay14 (F := Ideal) (lift q) (lift kb) (k1_pay4 (F := Ideal)) (ix2 p r) * lift vb (ix2 r c)
      = ((Real.exp (sBlk q kb p r - mFirst q kb (ix2 p (0 : Fin 1))) * vb (ix2 r c) : ℝ) : EReal) := fun r => by
    rw [pay14_apply, pay11_first, lift_apply, ← EReal.coe_mul]
  rw [pay13_apply, pay10_first, pay6_apply, mul_zero, zero_add, Finset.sum_congr rfl (fun r _ => hs r), coe_sum]
  rfl
/-- The last key block's division, where the normaliser is not zero. -/
theorem pay_out (acc : SVb.Idx → ℝ) (l : SC.Idx → ℝ) (hl : ∀ y, l y ≠ 0) :
    k1_pay3 (F := Ideal) (lift acc) (lift l) = lift (outFinal acc l) := by
  funext y
  obtain ⟨p, c, rfl⟩ : ∃ (p : Fin 1024) (c : Fin 256), y = ix2 p c := ⟨y 0, y 1, eq_ix2 y⟩
  rw [pay3_apply, lift_apply, lift_apply, Ideal.div_coe (hl _), ← EReal.coe_mul]
  exact congrArg Real.toEReal (div_eq_mul_one_div _ _).symm

end Cert.KernelIdeal.Val

end
-- ==== Proof.AttnValue.lean ====
/- What the attention region leaves in its result array, over the reals: from real-valued query, key and value arrays,
   every row of the result is the quotient of the walk's accumulator by its normaliser after the eighth key block.

   The region walks an 8 × 8 grid: point t is query block t / 8 against key block t % 8. The query block is read through
   its window; the keys and values are resident whole and the body cuts the 1024 rows of key block t % 8 out of them.
   Three scratch buffers carry, per query row, the running maximum, the running normaliser and the accumulator from one
   key block to the next; a query block's first key block starts them afresh and its last one stores the quotient into the
   output block, which is then written back. So: the blocks as images of real arrays; the state after each point as the
   image of a recursion on the key block, by induction on the point; the stored quotient; the recursion read one row at a
   time as the one-row recursion of the specification; and the eight written-back blocks cover the result array. -/
import proofs.«407828_j65481071406882_3_alg».proof.Proof.KI.AttnStep
import proofs.«407828_j65481071406882_3_alg».proof.Proof.AttnPayload
import proofs.«407828_j65481071406882_3_alg».proof.Proof.Spec
import Idealize.ShloMosaic.Lib.ValueIdx
import Idealize.ShloMosaic.Lib.ValueLayout
import Idealize.ShloMosaic.Lib.Pipeline.Value

set_option maxRecDepth 16384

noncomputable section

open scoped BigOperators

namespace Cert.KernelIdeal.Val

open Idealize.ShloMosaic Idealize.ShloMosaic.TcCoe Idealize.ShloMosaic.ValueIdx Idealize.SL.Sem Cert.KernelIdeal Cert.KernelIdeal.Gen Cert.KernelIdeal.Frm Cert.Spec
open Idealize.ShloMosaic.Pipeline (Dat)

variable (V : (c : Dev nD) → (b : Ref sig .tc) → Buf (Elt Ideal) ((c : Thread nD τ).loc b))

/-! ## The index maps and the body's offsets, decided over the grid -/

/-- The query window's block index at a point: the point's query block, column block 0. -/
theorem att_index_q : ∀ t : Fin cfg1.N, win1_0.index t (0 : Fin 2) = t.val / 8 ∧ win1_0.index t (1 : Fin 2) = 0 :=
  (by decide +kernel : ∀ t : Fin grid1.N, win1_0.index t (0 : Fin 2) = t.val / 8 ∧ win1_0.index t (1 : Fin 2) = 0)
/-- The key window is the whole array at every point. -/
theorem att_index_k : ∀ t : Fin cfg1.N, win1_1.index t (0 : Fin 2) = 0 ∧ win1_1.index t (1 : Fin 2) = 0 :=
  (by decide +kernel : ∀ t : Fin grid1.N, win1_1.index t (0 : Fin 2) = 0 ∧ win1_1.index t (1 : Fin 2) = 0)
/-- So is the value window. -/
theorem att_index_v : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)
/-- The output window's block index: the point's query block. -/
theorem att_index_o : ∀ t : Fin cfg1.N, win1_3.index t (0 : Fin 2) = t.val / 8 ∧ win1_3.index t (1 : Fin 2) = 0 :=
  (by decide +kernel : ∀ t : Fin grid1.N, win1_3.index t (0 : Fin 2) = t.val / 8 ∧ win1_3.index t (1 : Fin 2) = 0)
/-- The rows the body cuts out of the resident keys start at 1024 × the point's key block. -/
theorem att_off_k : ∀ t : Fin cfg1.N, k1_off1 (grid1.coords t) (0 : Fin 2) = 1024 * (t.val % 8) ∧ k1_off1 (grid1.coords t) (1 : Fin 2) = 0 :=
  (by decide +kernel : ∀ t : Fin grid1.N, k1_off1 (grid1.coords t) (0 : Fin 2) = 1024 * (t.val % 8) ∧ k1_off1 (grid1.coords t) (1 : Fin 2) = 0)
/-- Likewise out of the resident values. -/
theorem att_off_v : ∀ t : Fin cfg1.N, k1_off2 (grid1.coords t) (0 : Fin 2) = 1024 * (t.val % 8) ∧ k1_off2 (grid1.coords t) (1 : Fin 2) = 0 :=
  (by decide +kernel : ∀ t : Fin grid1.N, k1_off2 (grid1.coords t) (0 : Fin 2) = 1024 * (t.val % 8) ∧ k1_off2 (grid1.coords t) (1 : Fin 2) = 0)

/-! ## The blocks a point reads, as images of real arrays -/

/-- Query block `a` of the real query array: its 1024 rows. -/
def att_qB (qS : SQ.Idx → ℝ) (a : ℕ) : SQb.Idx → ℝ := fun y => qS (ix2 (qryIx a (y 0 : Fin 1024)) (y 1 : Fin 64))
/-- Key block `b` of the real key array. -/
def att_kB (kS : SQ.Idx → ℝ) (b : ℕ) : SQb.Idx → ℝ := fun y => kS (ix2 (keyIx b (y 0 : Fin 1024)) (y 1 : Fin 64))
/-- The value rows of key block `b`. -/
def att_vB (vS : SF.Idx → ℝ) (b : ℕ) : SVb.Idx → ℝ := fun y => vS (ix2 (keyIx b (y 0 : Fin 1024)) (y 1 : Fin 256))

/-- The window blocks at a point, named at their literal types. -/
abbrev att_qblk (c : Dev nD) (t : Fin cfg1.N) : Vec Ideal S1024x64 .bf16 := iblk1 V c 0 t
abbrev att_karr (c : Dev nD) (t : Fin cfg1.N) : Vec Ideal S8192x64 .bf16 := iblk1 V c 1 t
abbrev att_varr (c : Dev nD) (t : Fin cfg1.N) : Vec Ideal S8192x256 .bf16 := iblk1 V c 2 t

/-- The query window's block at point `t` is the image of query block `t / 8`. -/
theorem att_qblk_eq (c : Dev nD) (qS : SQ.Idx → ℝ) (hq : V c main_v1_0 = lift qS) (t : Fin cfg1.N) :
    att_qblk V c t = lift (att_qB qS (t.val / 8)) := by
  obtain ⟨e0, e1⟩ := att_index_q t
  funext y
  show V c main_v1_0 (((cfg1.win 0).blk t).view.emb y) = _
  rw [hq]
  show ((qS _ : ℝ) : EReal) = ((qS _ : ℝ) : EReal)
  refine congrArg (fun j => ((qS j : ℝ) : EReal)) (funext fun a => Fin.ext ?_)
  have h0 : (y 0).val < 1024 := (y 0).isLt
  have ht : t.val < 64 := lt_of_lt_of_eq t.isLt N_1
  match a with
  | ⟨0, _⟩ => show win1_0.index t (0 : Fin 2) * 1024 + 1 * (y 0).val = (t.val / 8 % 8) * 1024 + (y 0).val; omega
  | ⟨1, _⟩ => show win1_0.index t (1 : Fin 2) * 64 + 1 * (y 1).val = (y 1).val; omega

/-- The key window's block is the whole key array. -/
theorem att_karr_eq (c : Dev nD) (kS : SQ.Idx → ℝ) (hk : V c main_v1_1 = lift kS) (t : Fin cfg1.N) :
    att_karr V c t = lift kS := by
  obtain ⟨e0, e1⟩ := att_index_k t
  funext y
  show V c main_v1_1 (((cfg1.win 1).blk t).view.emb y) = _
  rw [hk]
  refine congrArg (lift kS) (funext fun a => Fin.ext ?_)
  match a with
  | ⟨0, _⟩ => show win1_1.index t (0 : Fin 2) * 8192 + 1 * (y 0).val = (y 0).val; omega
  | ⟨1, _⟩ => show win1_1.index t (1 : Fin 2) * 64 + 1 * (y 1).val = (y 1).val; omega

/-- The value window's block is the whole value array. -/
theorem att_varr_eq (c : Dev nD) (vS : SF.Idx → ℝ) (hv : V c main_v1_2 = lift vS) (t : Fin cfg1.N) :
    att_varr V c t = lift vS := by
  obtain ⟨e0, e1⟩ := att_index_v t
  funext y
  show V c main_v1_2 (((cfg1.win 2).blk t).view.emb y) = _
  rw [hv]
  refine congrArg (lift vS) (funext fun a => Fin.ext ?_)
  match a with
  | ⟨0, _⟩ => show win1_2.index t (0 : Fin 2) * 8192 + 1 * (y 0).val = (y 0).val; omega
  | ⟨1, _⟩ => show win1_2.index t (1 : Fin 2) * 256 + 1 * (y 1).val = (y 1).val; omega

/-- The 1024 key rows the body cuts out of the resident keys at point `t` are key block `t % 8`. -/
theorem att_kBlk_eq (kS : SQ.Idx → ℝ) (t : Fin cfg1.N) :
    kBlk (F := Ideal) (grid1.coords t) (lift kS) = lift (att_kB kS (t.val % 8)) := by
  obtain ⟨e0, e1⟩ := att_off_k t
  funext y
  show ((kS _ : ℝ) : EReal) = ((kS _ : ℝ) : EReal)
  refine congrArg (fun j => ((kS j : ℝ) : EReal)) (funext fun a => Fin.ext ?_)
  match a with
  | ⟨0, _⟩ => show k1_off1 (grid1.coords t) (0 : Fin 2) + 1 * (y 0).val = (t.val % 8 % 8) * 1024 + (y 0).val; omega
  | ⟨1, _⟩ => show k1_off1 (grid1.coords t) (1 : Fin 2) + 1 * (y 1).val = (y 1).val; omega

/-- And the value rows it cuts out are those of key block `t % 8`. -/
theorem att_vBlk_eq (vS : SF.Idx → ℝ) (t : Fin cfg1.N) :
    vBlk (F := Ideal) (grid1.coords t) (lift vS) = lift (att_vB vS (t.val % 8)) := by
  obtain ⟨e0, e1⟩ := att_off_v t
  funext y
  show ((vS _ : ℝ) : EReal) = ((vS _ : ℝ) : EReal)
  refine congrArg (fun j => ((vS j : ℝ) : EReal)) (funext fun a => Fin.ext ?_)
  match a with
  | ⟨0, _⟩ => show k1_off2 (grid1.coords t) (0 : Fin 2) + 1 * (y 0).val = (t.val % 8 % 8) * 1024 + (y 0).val; omega
  | ⟨1, _⟩ => show k1_off2 (grid1.coords t) (1 : Fin 2) + 1 * (y 1).val = (y 1).val; omega

/-! ## The state after a point, over the reals -/

/-- The running maximum of query block `a` after key blocks `0 … b`. -/
def att_mSt (qS kS : SQ.Idx → ℝ) (a : ℕ) : ℕ → SC.Idx → ℝ
  | 0 => mFirst (att_qB qS a) (att_kB kS 0)
  | b + 1 => mNew (att_qB qS a) (att_kB kS (b + 1)) (att_mSt qS kS a b)
/-- Its running normaliser. -/
def att_lSt (qS kS : SQ.Idx → ℝ) (a : ℕ) : ℕ → SC.Idx → ℝ
  | 0 => lFirst (att_qB qS a) (att_kB kS 0)
  | b + 1 => lNew (att_qB qS a) (att_kB kS (b + 1)) (att_mSt qS kS a b) (att_lSt qS kS a b)
/-- Its accumulator. -/
def att_accSt (qS kS : SQ.Idx → ℝ) (vS : SF.Idx → ℝ) (a : ℕ) : ℕ → SVb.Idx → ℝ
  | 0 => accFirst (att_qB qS a) (att_kB kS 0) (att_vB vS 0)
  | b + 1 => accNew (att_qB qS a) (att_kB kS (b + 1)) (att_vB vS (b + 1)) (att_mSt qS kS a b) (att_accSt qS kS vS a b)

/-! ### One point's stores over images of real blocks -/

theorem att_first_m (i : grid1.Coords) (x0 : Vec Ideal S1024x64 .bf16) (x1 : Vec Ideal S8192x64 .bf16) (q kb : SQb.Idx → ℝ)
    (e0 : x0 = lift q) (e1 : kBlk (F := Ideal) i x1 = lift kb) :
    k1_pay2 (F := Ideal) (k1_pay9 (F := Ideal) x0 (kBlk (F := Ideal) i x1) (k1_pay4 (F := Ideal))) = lift (mFirst q kb) := by
  subst e0; rw [e1]; exact pay_mFirst q kb

theorem att_first_l (i : grid1.Coords) (x0 : Vec Ideal S1024x64 .bf16) (x1 : Vec Ideal S8192x64 .bf16) (q kb : SQb.Idx → ℝ)
    (e0 : x0 = lift q) (e1 : kBlk (F := Ideal) i x1 = lift kb) :
    k1_pay12 (F := Ideal) x0 (kBlk (F := Ideal) i x1) (k1_pay4 (F := Ideal)) (k1_pay4 (F := Ideal)) (k1_pay5 (F := Ideal)) = lift (lFirst q kb) := by
  subst e0; rw [e1]; exact pay_lFirst q kb

theorem att_first_acc (i : grid1.Coords) (x0 : Vec Ideal S1024x64 .bf16) (x1 : Vec Ideal S8192x64 .bf16) (x2 : Vec Ideal S8192x256 .bf16)
    (q kb : SQb.Idx → ℝ) (vb : SVb.Idx → ℝ)
    (e0 : x0 = lift q) (e1 : kBlk (F := Ideal) i x1 = lift kb) (e2 : vBlk (F := Ideal) i x2 = lift vb) :
    k1_pay1 (F := Ideal) (k1_pay7 (F := Ideal) (vBlk (F := Ideal) i x2)) (k1_pay13 (F := Ideal) x0 (kBlk (F := Ideal) i x1) (k1_pay4 (F := Ideal)) (k1_pay4 (F := Ideal)) (k1_pay6 (F := Ideal))) (k1_pay14 (F := Ideal) x0 (kBlk (F := Ideal) i x1) (k1_pay4 (F := Ideal)))
      = lift (accFirst q kb vb) := by
  subst e0; rw [e1, e2]; exact pay_accFirst q kb vb

theorem att_later_m (i : grid1.Coords) (x0 : Vec Ideal S1024x64 .bf16) (x1 : Vec Ideal S8192x64 .bf16) (xs0 : Vec Ideal S1024x1 .f32)
    (q kb : SQb.Idx → ℝ) (m : SC.Idx → ℝ)
    (e0 : x0 = lift q) (e1 : kBlk (F := Ideal) i x1 = lift kb) (es0 : xs0 = lift m) :
    k1_pay2 (F := Ideal) (k1_pay9 (F := Ideal) x0 (kBlk (F := Ideal) i x1) xs0) = lift (mNew q kb m) := by
  subst e0 es0; rw [e1]; exact pay_mNew q kb m

theorem att_later_l (i : grid1.Coords) (x0 : Vec Ideal S1024x64 .bf16) (x1 : Vec Ideal S8192x64 .bf16) (xs0 xs1 : Vec Ideal S1024x1 .f32)
    (q kb : SQb.Idx → ℝ) (m l : SC.Idx → ℝ)
    (e0 : x0 = lift q) (e1 : kBlk (F := Ideal) i x1 = lift kb) (es0 : xs0 = lift m) (es1 : xs1 = lift l) :
    k1_pay12 (F := Ideal) x0 (kBlk (F := Ideal) i x1) xs0 xs0 xs1 = lift (lNew q kb m l) := by
  subst e0 es0 es1; rw [e1]; exact pay_lNew q kb m l

theorem att_later_acc (i : grid1.Coords) (x0 : Vec Ideal S1024x64 .bf16) (x1 : Vec Ideal S8192x64 .bf16) (x2 : Vec Ideal S8192x256 .bf16)
    (xs0 : Vec Ideal S1024x1 .f32) (xs2 : Vec Ideal S1024x256 .f32)
    (q kb : SQb.Idx → ℝ) (vb : SVb.Idx → ℝ) (m : SC.Idx → ℝ) (acc : SVb.Idx → ℝ)
    (e0 : x0 = lift q) (e1 : kBlk (F := Ideal) i x1 = lift kb) (e2 : vBlk (F := Ideal) i x2 = lift vb) (es0 : xs0 = lift m) (es2 : xs2 = lift acc) :
    k1_pay1 (F := Ideal) (k1_pay7 (F := Ideal) (vBlk (F := Ideal) i x2)) (k1_pay13 (F := Ideal) x0 (kBlk (F := Ideal) i x1) xs0 xs0 xs2) (k1_pay14 (F := Ideal) x0 (kBlk (F := Ideal) i x1) xs0)
      = lift (accNew q kb vb m acc) := by
  subst e0 es0 es2; rw [e1, e2]; exact pay_accNew q kb vb m acc

/-- The key rows cut out of the key window's block at point `t`. -/
theorem att_kcut (c : Dev nD) (kS : SQ.Idx → ℝ) (hk : V c main_v1_1 = lift kS) (t : Fin cfg1.N) :
    kBlk (F := Ideal) (grid1.coords t) (att_karr V c t) = lift (att_kB kS (t.val % 8)) :=
  (congrArg (kBlk (F := Ideal) (grid1.coords t)) (att_karr_eq V c kS hk t)).trans (att_kBlk_eq kS t)
/-- The value rows cut out of the value window's block at point `t`. -/
theorem att_vcut (c : Dev nD) (vS : SF.Idx → ℝ) (hv : V c main_v1_2 = lift vS) (t : Fin cfg1.N) :
    vBlk (F := Ideal) (grid1.coords t) (att_varr V c t) = lift (att_vB vS (t.val % 8)) :=
  (congrArg (vBlk (F := Ideal) (grid1.coords t)) (att_varr_eq V c vS hv t)).trans (att_vBlk_eq vS t)

/-! ### The scratch after every point -/

/-- After the point at position `n` the three scratch buffers hold the images of the state of query block `n / 8` after key
    blocks `0 … n % 8`: a first key block starts from the reset values, a later one continues from the point before. -/
theorem att_state (c : Dev nD) (qS kS : SQ.Idx → ℝ) (vS : SF.Idx → ℝ)
    (hq : V c main_v1_0 = lift qS) (hk : V c main_v1_1 = lift kS) (hv : V c main_v1_2 = lift vS) :
    ∀ (n : ℕ) (hn : n < cfg1.N),
      (outsAt1 V c n hn).2.1 = lift (att_mSt qS kS (n / 8) (n % 8))
      ∧ (outsAt1 V c n hn).2.2.1 = lift (att_lSt qS kS (n / 8) (n % 8))
      ∧ (outsAt1 V c n hn).2.2.2 = lift (att_accSt qS kS vS (n / 8) (n % 8)) := by
  intro n
  induction n using Nat.strong_induction_on with
  | _ n ih =>
    intro hn
    have hN : n < 64 := lt_of_lt_of_eq hn N_1
    have eq0 := att_qblk_eq V c qS hq ⟨n, hn⟩
    have ek := att_kcut V c kS hk ⟨n, hn⟩
    have ev := att_vcut V c vS hv ⟨n, hn⟩
    by_cases h0 : n % 8 = 0
    · have h1 : ¬n % 8 = 7 := by omega
      have em : att_mSt qS kS (n / 8) (n % 8) = mFirst (att_qB qS (n / 8)) (att_kB kS (n % 8)) := by rw [h0]; rfl
      have el : att_lSt qS kS (n / 8) (n % 8) = lFirst (att_qB qS (n / 8)) (att_kB kS (n % 8)) := by rw [h0]; rfl
      have ea : att_accSt qS kS vS (n / 8) (n % 8) = accFirst (att_qB qS (n / 8)) (att_kB kS (n % 8)) (att_vB vS (n % 8)) := by rw [h0]; rfl
      rw [em, el, ea, outsAt1_A V c ⟨n, hn⟩ h0 h1]
      dsimp only
      refine ⟨?_, ?_, ?_⟩
      · exact (sout1_A_0_eq (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) scM1_0 (Memref.isWhole_whole _) scM1_1 (Memref.isWhole_whole _) scM1_2 (Memref.isWhole_whole _) ((hcond1_0 ⟨n, hn⟩).mpr h0) (fun h => h1 ((hcond1_1 ⟨n, hn⟩).mp h)) (iblk1 V c 0 ⟨n, hn⟩) (iblk1 V c 1 ⟨n, hn⟩) (iblk1 V c 2 ⟨n, hn⟩)).trans
          (att_first_m (grid1.coords ⟨n, hn⟩) (att_qblk V c ⟨n, hn⟩) (att_karr V c ⟨n, hn⟩) (att_qB qS (n / 8)) (att_kB kS (n % 8)) eq0 ek)
      · exact (sout1_A_1_eq (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) scM1_0 (Memref.isWhole_whole _) scM1_1 (Memref.isWhole_whole _) scM1_2 (Memref.isWhole_whole _) ((hcond1_0 ⟨n, hn⟩).mpr h0) (fun h => h1 ((hcond1_1 ⟨n, hn⟩).mp h)) (iblk1 V c 0 ⟨n, hn⟩) (iblk1 V c 1 ⟨n, hn⟩) (iblk1 V c 2 ⟨n, hn⟩)).trans
          (att_first_l (grid1.coords ⟨n, hn⟩) (att_qblk V c ⟨n, hn⟩) (att_karr V c ⟨n, hn⟩) (att_qB qS (n / 8)) (att_kB kS (n % 8)) eq0 ek)
      · exact (sout1_A_2_eq (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) scM1_0 (Memref.isWhole_whole _) scM1_1 (Memref.isWhole_whole _) scM1_2 (Memref.isWhole_whole _) ((hcond1_0 ⟨n, hn⟩).mpr h0) (fun h => h1 ((hcond1_1 ⟨n, hn⟩).mp h)) (iblk1 V c 0 ⟨n, hn⟩) (iblk1 V c 1 ⟨n, hn⟩) (iblk1 V c 2 ⟨n, hn⟩)).trans
          (att_first_acc (grid1.coords ⟨n, hn⟩) (att_qblk V c ⟨n, hn⟩) (att_karr V c ⟨n, hn⟩) (att_varr V c ⟨n, hn⟩) (att_qB qS (n / 8)) (att_kB kS (n % 8)) (att_vB vS (n % 8)) eq0 ek ev)
    · obtain ⟨b, hb⟩ : ∃ b, n % 8 = b + 1 := ⟨n % 8 - 1, by omega⟩
      have hp1 : (n - 1) / 8 = n / 8 := by omega
      have hp2 : (n - 1) % 8 = b := by omega
      have hlt : n - 1 < cfg1.N := Nat.lt_of_le_of_lt (Nat.sub_le _ _) hn
      obtain ⟨pm, pl, pa⟩ := ih (n - 1) (by omega) hlt
      rw [hp1, hp2] at pm pl pa
      have em : att_mSt qS kS (n / 8) (n % 8) = mNew (att_qB qS (n / 8)) (att_kB kS (n % 8)) (att_mSt qS kS (n / 8) b) := by rw [hb]; rfl
      have el : att_lSt qS kS (n / 8) (n % 8) = lNew (att_qB qS (n / 8)) (att_kB kS (n % 8)) (att_mSt qS kS (n / 8) b) (att_lSt qS kS (n / 8) b) := by rw [hb]; rfl
      have ea : att_accSt qS kS vS (n / 8) (n % 8) = accNew (att_qB qS (n / 8)) (att_kB kS (n % 8)) (att_vB vS (n % 8)) (att_mSt qS kS (n / 8) b) (att_accSt qS kS vS (n / 8) b) := by rw [hb]; rfl
      by_cases h1 : n % 8 = 7
      · rw [em, el, ea, outsAt1_C V c ⟨n, hn⟩ h0 h1]
        dsimp only
        refine ⟨?_, ?_, ?_⟩
        · exact (sout1_C_0_eq (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) scM1_0 (Memref.isWhole_whole _) scM1_1 (Memref.isWhole_whole _) scM1_2 (Memref.isWhole_whole _) (fun h => h0 ((hcond1_0 ⟨n, hn⟩).mp h)) ((hcond1_1 ⟨n, hn⟩).mpr h1) (iblk1 V c 0 ⟨n, hn⟩) (iblk1 V c 1 ⟨n, hn⟩) (iblk1 V c 2 ⟨n, hn⟩) (outsAt1 V c (n - 1) hlt).2.1 (outsAt1 V c (n - 1) hlt).2.2.1 (outsAt1 V c (n - 1) hlt).2.2.2).trans
            (att_later_m (grid1.coords ⟨n, hn⟩) (att_qblk V c ⟨n, hn⟩) (att_karr V c ⟨n, hn⟩) (outsAt1 V c (n - 1) hlt).2.1 (att_qB qS (n / 8)) (att_kB kS (n % 8)) (att_mSt qS kS (n / 8) b) eq0 ek pm)
        · exact (sout1_C_1_eq (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) scM1_0 (Memref.isWhole_whole _) scM1_1 (Memref.isWhole_whole _) scM1_2 (Memref.isWhole_whole _) (fun h => h0 ((hcond1_0 ⟨n, hn⟩).mp h)) ((hcond1_1 ⟨n, hn⟩).mpr h1) (iblk1 V c 0 ⟨n, hn⟩) (iblk1 V c 1 ⟨n, hn⟩) (iblk1 V c 2 ⟨n, hn⟩) (outsAt1 V c (n - 1) hlt).2.1 (outsAt1 V c (n - 1) hlt).2.2.1 (outsAt1 V c (n - 1) hlt).2.2.2).trans
            (att_later_l (grid1.coords ⟨n, hn⟩) (att_qblk V c ⟨n, hn⟩) (att_karr V c ⟨n, hn⟩) (outsAt1 V c (n - 1) hlt).2.1 (outsAt1 V c (n - 1) hlt).2.2.1 (att_qB qS (n / 8)) (att_kB kS (n % 8)) (att_mSt qS kS (n / 8) b) (att_lSt qS kS (n / 8) b) eq0 ek pm pl)
        · exact (sout1_C_2_eq (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) scM1_0 (Memref.isWhole_whole _) scM1_1 (Memref.isWhole_whole _) scM1_2 (Memref.isWhole_whole _) (fun h => h0 ((hcond1_0 ⟨n, hn⟩).mp h)) ((hcond1_1 ⟨n, hn⟩).mpr h1) (iblk1 V c 0 ⟨n, hn⟩) (iblk1 V c 1 ⟨n, hn⟩) (iblk1 V c 2 ⟨n, hn⟩) (outsAt1 V c (n - 1) hlt).2.1 (outsAt1 V c (n - 1) hlt).2.2.1 (outsAt1 V c (n - 1) hlt).2.2.2).trans
            (att_later_acc (grid1.coords ⟨n, hn⟩) (att_qblk V c ⟨n, hn⟩) (att_karr V c ⟨n, hn⟩) (att_varr V c ⟨n, hn⟩) (outsAt1 V c (n - 1) hlt).2.1 (outsAt1 V c (n - 1) hlt).2.2.2 (att_qB qS (n / 8)) (att_kB kS (n % 8)) (att_vB vS (n % 8)) (att_mSt qS kS (n / 8) b) (att_accSt qS kS vS (n / 8) b) eq0 ek ev pm pa)
      · rw [em, el, ea, outsAt1_B V c ⟨n, hn⟩ h0 h1]
        dsimp only
        refine ⟨?_, ?_, ?_⟩
        · exact (sout1_B_0_eq (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) scM1_0 (Memref.isWhole_whole _) scM1_1 (Memref.isWhole_whole _) scM1_2 (Memref.isWhole_whole _) (fun h => h0 ((hcond1_0 ⟨n, hn⟩).mp h)) (fun h => h1 ((hcond1_1 ⟨n, hn⟩).mp h)) (iblk1 V c 0 ⟨n, hn⟩) (iblk1 V c 1 ⟨n, hn⟩) (iblk1 V c 2 ⟨n, hn⟩) (outsAt1 V c (n - 1) hlt).2.1 (outsAt1 V c (n - 1) hlt).2.2.1 (outsAt1 V c (n - 1) hlt).2.2.2).trans
            (att_later_m (grid1.coords ⟨n, hn⟩) (att_qblk V c ⟨n, hn⟩) (att_karr V c ⟨n, hn⟩) (outsAt1 V c (n - 1) hlt).2.1 (att_qB qS (n / 8)) (att_kB kS (n % 8)) (att_mSt qS kS (n / 8) b) eq0 ek pm)
        · exact (sout1_B_1_eq (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) scM1_0 (Memref.isWhole_whole _) scM1_1 (Memref.isWhole_whole _) scM1_2 (Memref.isWhole_whole _) (fun h => h0 ((hcond1_0 ⟨n, hn⟩).mp h)) (fun h => h1 ((hcond1_1 ⟨n, hn⟩).mp h)) (iblk1 V c 0 ⟨n, hn⟩) (iblk1 V c 1 ⟨n, hn⟩) (iblk1 V c 2 ⟨n, hn⟩) (outsAt1 V c (n - 1) hlt).2.1 (outsAt1 V c (n - 1) hlt).2.2.1 (outsAt1 V c (n - 1) hlt).2.2.2).trans
            (att_later_l (grid1.coords ⟨n, hn⟩) (att_qblk V c ⟨n, hn⟩) (att_karr V c ⟨n, hn⟩) (outsAt1 V c (n - 1) hlt).2.1 (outsAt1 V c (n - 1) hlt).2.2.1 (att_qB qS (n / 8)) (att_kB kS (n % 8)) (att_mSt qS kS (n / 8) b) (att_lSt qS kS (n / 8) b) eq0 ek pm pl)
        · exact (sout1_B_2_eq (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) scM1_0 (Memref.isWhole_whole _) scM1_1 (Memref.isWhole_whole _) scM1_2 (Memref.isWhole_whole _) (fun h => h0 ((hcond1_0 ⟨n, hn⟩).mp h)) (fun h => h1 ((hcond1_1 ⟨n, hn⟩).mp h)) (iblk1 V c 0 ⟨n, hn⟩) (iblk1 V c 1 ⟨n, hn⟩) (iblk1 V c 2 ⟨n, hn⟩) (outsAt1 V c (n - 1) hlt).2.1 (outsAt1 V c (n - 1) hlt).2.2.1 (outsAt1 V c (n - 1) hlt).2.2.2).trans
            (att_later_acc (grid1.coords ⟨n, hn⟩) (att_qblk V c ⟨n, hn⟩) (att_karr V c ⟨n, hn⟩) (att_varr V c ⟨n, hn⟩) (outsAt1 V c (n - 1) hlt).2.1 (outsAt1 V c (n - 1) hlt).2.2.2 (att_qB qS (n / 8)) (att_kB kS (n % 8)) (att_vB vS (n % 8)) (att_mSt qS kS (n / 8) b) (att_accSt qS kS vS (n / 8) b) eq0 ek ev pm pa)

/-! ## The normaliser is positive, so the last key block's division is a division of reals -/

theorem att_lFirst_pos (q kb : SQb.Idx → ℝ) (y : SC.Idx) : 0 < lFirst q kb y := by
  unfold lFirst
  exact Finset.sum_pos (fun r _ => Real.exp_pos _) ⟨(0 : Fin 1024), Finset.mem_univ _⟩

theorem att_lNew_pos (q kb : SQb.Idx → ℝ) (m l : SC.Idx → ℝ) (y : SC.Idx) (hl : 0 < l y) : 0 < lNew q kb m l y := by
  unfold lNew
  exact add_pos (mul_pos (Real.exp_pos _) hl) (Finset.sum_pos (fun r _ => Real.exp_pos _) ⟨(0 : Fin 1024), Finset.mem_univ _⟩)

/-- A sum of exponentials, then each time a positive multiple of the old value plus a sum of exponentials. -/
theorem att_lSt_pos (qS kS : SQ.Idx → ℝ) (a : ℕ) : ∀ (b : ℕ) (y : SC.Idx), 0 < att_lSt qS kS a b y
  | 0, y => att_lFirst_pos _ _ y
  | b + 1, y => att_lNew_pos _ _ _ _ y (att_lSt_pos qS kS a b y)

/-- The last key block's output store over images of real blocks: the new accumulator over the new normaliser. -/
theorem att_last_out (i : grid1.Coords) (x0 : Vec Ideal S1024x64 .bf16) (x1 : Vec Ideal S8192x64 .bf16) (x2 : Vec Ideal S8192x256 .bf16)
    (xs0 xs1 : Vec Ideal S1024x1 .f32) (xs2 : Vec Ideal S1024x256 .f32)
    (q kb : SQb.Idx → ℝ) (vb : SVb.Idx → ℝ) (m l : SC.Idx → ℝ) (acc : SVb.Idx → ℝ)
    (e0 : x0 = lift q) (e1 : kBlk (F := Ideal) i x1 = lift kb) (e2 : vBlk (F := Ideal) i x2 = lift vb)
    (es0 : xs0 = lift m) (es1 : xs1 = lift l) (es2 : xs2 = lift acc) (hl : ∀ y, lNew q kb m l y ≠ 0) :
    k1_pay3 (F := Ideal) (k1_pay1 (F := Ideal) (k1_pay7 (F := Ideal) (vBlk (F := Ideal) i x2)) (k1_pay13 (F := Ideal) x0 (kBlk (F := Ideal) i x1) xs0 xs0 xs2) (k1_pay14 (F := Ideal) x0 (kBlk (F := Ideal) i x1) xs0))
        (k1_pay12 (F := Ideal) x0 (kBlk (F := Ideal) i x1) xs0 xs0 xs1)
      = lift (outFinal (accNew q kb vb m acc) (lNew q kb m l)) := by
  rw [att_later_acc i x0 x1 x2 xs0 xs2 q kb vb m acc e0 e1 e2 es0 es2, att_later_l i x0 x1 xs0 xs1 q kb m l e0 e1 es0 es1]
  exact pay_out _ _ hl

/-- At a query block's last key block the output's staging buffer holds the image of the quotient of the state after all
    eight key blocks. -/
theorem att_out (c : Dev nD) (qS kS : SQ.Idx → ℝ) (vS : SF.Idx → ℝ)
    (hq : V c main_v1_0 = lift qS) (hk : V c main_v1_1 = lift kS) (hv : V c main_v1_2 = lift vS)
    (t : Fin cfg1.N) (h7 : t.val % 8 = 7) :
    (outsAt1 V c t.val t.isLt).1 = lift (outFinal (att_accSt qS kS vS (t.val / 8) 7) (att_lSt qS kS (t.val / 8) 7)) := by
  have h0 : ¬t.val % 8 = 0 := by omega
  have hN : t.val < 64 := lt_of_lt_of_eq t.isLt N_1
  have hlt : t.val - 1 < cfg1.N := Nat.lt_of_le_of_lt (Nat.sub_le _ _) t.isLt
  have hp1 : (t.val - 1) / 8 = t.val / 8 := by omega
  have hp2 : (t.val - 1) % 8 = 6 := by omega
  obtain ⟨pm, pl, pa⟩ := att_state V c qS kS vS hq hk hv (t.val - 1) hlt
  rw [hp1, hp2] at pm pl pa
  have eq0 := att_qblk_eq V c qS hq t
  have ek := att_kcut V c kS hk t
  have ev := att_vcut V c vS hv t
  rw [h7] at ek ev
  rw [outsAt1_C V c t h0 h7]
  dsimp only
  exact (out1_C_3_eq (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h7) (iblk1 V c 0 t) (iblk1 V c 1 t) (iblk1 V c 2 t) (outsAt1 V c (t.val - 1) hlt).2.1 (outsAt1 V c (t.val - 1) hlt).2.2.1 (outsAt1 V c (t.val - 1) hlt).2.2.2).trans
    (att_last_out (grid1.coords t) (att_qblk V c t) (att_karr V c t) (att_varr V c t) (outsAt1 V c (t.val - 1) hlt).2.1 (outsAt1 V c (t.val - 1) hlt).2.2.1 (outsAt1 V c (t.val - 1) hlt).2.2.2
      (att_qB qS (t.val / 8)) (att_kB kS 7) (att_vB vS 7) (att_mSt qS kS (t.val / 8) 6) (att_lSt qS kS (t.val / 8) 6) (att_accSt qS kS vS (t.val / 8) 6)
      eq0 ek ev pm pl pa (fun y => (att_lSt_pos qS kS (t.val / 8) 7 y).ne'))

/-! ## The state, one query row at a time, is the one-row recursion of the specification -/

/-- The scores of query row `p` of query block `a` against key `k` of key block `b`. -/
def att_sRow (qS kS : SQ.Idx → ℝ) (a : ℕ) (p : Fin 1024) : ℕ → Fin 1024 → ℝ := fun b k => sBlk (att_qB qS a) (att_kB kS b) p k
/-- The values' column `c'` at key `k` of key block `b`. -/
def att_vCol (vS : SF.Idx → ℝ) (c' : Fin 256) : ℕ → Fin 1024 → ℝ := fun b k => att_vB vS b (ix2 k c')

theorem att_mSt_row (qS kS : SQ.Idx → ℝ) (a : ℕ) (p : Fin 1024) :
    ∀ b : ℕ, att_mSt qS kS a b (ix2 p (0 : Fin 1)) = oM (att_sRow qS kS a p) b
  | 0 => rfl
  | b + 1 => by
    show max (att_mSt qS kS a b (ix2 p (0 : Fin 1))) _ = max (oM (att_sRow qS kS a p) b) (blockMax (att_sRow qS kS a p) (b + 1))
    rw [att_mSt_row qS kS a p b]
    rfl

theorem att_lSt_row (qS kS : SQ.Idx → ℝ) (a : ℕ) (p : Fin 1024) :
    ∀ b : ℕ, att_lSt qS kS a b (ix2 p (0 : Fin 1)) = oL (att_sRow qS kS a p) b
  | 0 => by
    show ∑ r : Fin 1024, Real.exp (att_sRow qS kS a p 0 r - att_mSt qS kS a 0 (ix2 p (0 : Fin 1))) = ∑ r : Fin 1024, Real.exp (att_sRow qS kS a p 0 r - oM (att_sRow qS kS a p) 0)
    rw [att_mSt_row qS kS a p 0]
  | b + 1 => by
    show Real.exp (att_mSt qS kS a b (ix2 p (0 : Fin 1)) - att_mSt qS kS a (b + 1) (ix2 p (0 : Fin 1))) * att_lSt qS kS a b (ix2 p (0 : Fin 1))
        + ∑ r : Fin 1024, Real.exp (att_sRow qS kS a p (b + 1) r - att_mSt qS kS a (b + 1) (ix2 p (0 : Fin 1)))
      = Real.exp (oM (att_sRow qS kS a p) b - oM (att_sRow qS kS a p) (b + 1)) * oL (att_sRow qS kS a p) b
        + ∑ r : Fin 1024, Real.exp (att_sRow qS kS a p (b + 1) r - oM (att_sRow qS kS a p) (b + 1))
    rw [att_mSt_row qS kS a p b, att_mSt_row qS kS a p (b + 1), att_lSt_row qS kS a p b]

theorem att_accSt_row (qS kS : SQ.Idx → ℝ) (vS : SF.Idx → ℝ) (a : ℕ) (p : Fin 1024) (c' : Fin 256) :
    ∀ b : ℕ, att_accSt qS kS vS a b (ix2 p c') = oAcc (att_sRow qS kS a p) (att_vCol vS c') b
  | 0 => by
    show ∑ r : Fin 1024, Real.exp (att_sRow qS kS a p 0 r - att_mSt qS kS a 0 (ix2 p (0 : Fin 1))) * att_vCol vS c' 0 r
      = ∑ r : Fin 1024, Real.exp (att_sRow qS kS a p 0 r - oM (att_sRow qS kS a p) 0) * att_vCol vS c' 0 r
    rw [att_mSt_row qS kS a p 0]
  | b + 1 => by
    show Real.exp (att_mSt qS kS a b (ix2 p (0 : Fin 1)) - att_mSt qS kS a (b + 1) (ix2 p (0 : Fin 1))) * att_accSt qS kS vS a b (ix2 p c')
        + ∑ r : Fin 1024, Real.exp (att_sRow qS kS a p (b + 1) r - att_mSt qS kS a (b + 1) (ix2 p (0 : Fin 1))) * att_vCol vS c' (b + 1) r
      = Real.exp (oM (att_sRow qS kS a p) b - oM (att_sRow qS kS a p) (b + 1)) * oAcc (att_sRow qS kS a p) (att_vCol vS c') b
        + ∑ r : Fin 1024, Real.exp (att_sRow qS kS a p (b + 1) r - oM (att_sRow qS kS a p) (b + 1)) * att_vCol vS c' (b + 1) r
    rw [att_mSt_row qS kS a p b, att_mSt_row qS kS a p (b + 1), att_accSt_row qS kS vS a p c' b]

/-! ## From the written-back blocks to the result array -/

/-- What the result array ends holding, over the reals: row `n` is row `n % 1024` of query block `n / 1024`, and holds the
    quotient of that block's state after all eight key blocks. -/
def att_G (qS kS : SQ.Idx → ℝ) (vS : SF.Idx → ℝ) : SF.Idx → ℝ := fun i =>
  outFinal (att_accSt qS kS vS ((i 0).val / 1024) 7) (att_lSt qS kS ((i 0).val / 1024) 7)
    (ix2 (⟨(i 0).val % 1024, Nat.mod_lt _ (by decide)⟩ : Fin 1024) (i 1 : Fin 256))

/-- Read at row `p` of query block `a`. -/
theorem att_G_at (qS kS : SQ.Idx → ℝ) (vS : SF.Idx → ℝ) (a : ℕ) (p : Fin 1024) (c' : Fin 256) (i : SF.Idx)
    (h0 : (i 0).val = a * 1024 + p.val) (h1 : (i 1).val = c'.val) :
    att_G qS kS vS i = outFinal (att_accSt qS kS vS a 7) (att_lSt qS kS a 7) (ix2 p c') := by
  have hpl : p.val < 1024 := p.isLt
  have ha : (i 0).val / 1024 = a := by omega
  have hp : (⟨(i 0).val % 1024, Nat.mod_lt _ (by decide)⟩ : Fin 1024) = p := Fin.ext (by show (i 0).val % 1024 = p.val; omega)
  have hc : (i 1 : Fin 256) = c' := Fin.ext h1
  unfold att_G
  rw [ha, hp, hc]

/-- A block of the quotient, read where the output window's rectangle puts it in the array. -/
theorem att_blk_read (qS kS : SQ.Idx → ℝ) (vS : SF.Idx → ℝ) (a : ℕ) (y : S1024x256.Idx) (i : SF.Idx)
    (h0 : (i 0).val = a * 1024 + (y 0).val) (h1 : (i 1).val = (y 1).val) :
    lift (outFinal (att_accSt qS kS vS a 7) (att_lSt qS kS a 7)) y = lift (att_G qS kS vS) i := by
  rw [lift_apply, lift_apply, att_G_at qS kS vS a (y 0) (y 1) i h0 h1]
  exact congrArg (fun z : SVb.Idx => ((outFinal (att_accSt qS kS vS a 7) (att_lSt qS kS a 7) z : ℝ) : EReal)) (eq_ix2 y)

/-- What a last key block's point writes back is its block of the quotient array. -/
theorem att_flushed (c : Dev nD) (qS kS : SQ.Idx → ℝ) (vS : SF.Idx → ℝ)
    (hq : V c main_v1_0 = lift qS) (hk : V c main_v1_1 = lift kS) (hv : V c main_v1_2 = lift vS)
    (t : Fin cfg1.N) (hf : (cfg1.win 3).flush t = true) :
    (dat1 V c).flushed 3 t = ((cfg1.win 3).blk t).view.read (Elt Ideal) (lift (att_G qS kS vS)) := by
  have h7 : t.val % 8 = 7 := (flush1_3 t).mp hf
  obtain ⟨e0, e1⟩ := att_index_o t
  show (cfg1.win 3).cut (grid1.coords t) ((dat1 V c).after 3 t) = _
  rw [after1_3, att_out V c qS kS vS hq hk hv t h7]
  funext y
  show lift (outFinal (att_accSt qS kS vS (t.val / 8) 7) (att_lSt qS kS (t.val / 8) 7)) y = lift (att_G qS kS vS) (((cfg1.win 3).blk t).view.emb y)
  exact att_blk_read qS kS vS (t.val / 8) y (((cfg1.win 3).blk t).view.emb y)
    (by show win1_3.index t (0 : Fin 2) * 1024 + 1 * (y 0).val = t.val / 8 * 1024 + (y 0).val; omega)
    (by show win1_3.index t (1 : Fin 2) * 256 + 1 * (y 1).val = (y 1).val; omega)

/-- Row `n` of the result array lies in the block written back at the last key block of query block `n / 1024`. -/
theorem att_cover (i : S8192x256.Idx) :
    ∃ t : Fin cfg1.N, (cfg1.win 3).flush t = true ∧ i ∈ ((cfg1.win 3).blk t).view.set := by
  have hi0 : (i 0).val < 8192 := (i 0).isLt
  have hi1 : (i 1).val < 256 := (i 1).isLt
  have hN : cfg1.N = 64 := N_1
  obtain ⟨t, ht⟩ : ∃ t : Fin cfg1.N, t.val = 8 * ((i 0).val / 1024) + 7 := ⟨⟨8 * ((i 0).val / 1024) + 7, by rw [hN]; omega⟩, rfl⟩
  obtain ⟨e0, e1⟩ := att_index_o t
  refine ⟨t, (flush1_3 t).mpr (by omega), ?_⟩
  show i ∈ ((View.whole main_v2).slice (win1_3.rect t)).set
  rw [View.set_slice_whole, Rect.mem_set_unit]
  intro a
  match a with
  | ⟨0, _⟩ =>
    show win1_3.index t (0 : Fin 2) * 1024 ≤ (i 0).val ∧ (i 0).val < win1_3.index t (0 : Fin 2) * 1024 + 1024
    omega
  | ⟨1, _⟩ =>
    show win1_3.index t (1 : Fin 2) * 256 ≤ (i 1).val ∧ (i 1).val < win1_3.index t (1 : Fin 2) * 256 + 256
    omega

/-- One entry of the quotient array is the specification's walk over the 8 key blocks for its row and column. -/
theorem att_G_row (qS kS : SQ.Idx → ℝ) (vS : SF.Idx → ℝ) (n : Fin 8192) (c' : Fin 256) :
    att_G qS kS vS (ix2 n c')
      = oAcc (fun b k => ∑ d : Fin 64, qS (ix2 n d) * kS (ix2 (keyIx b k) d)) (fun b k => vS (ix2 (keyIx b k) c')) 7
        / oL (fun b k => ∑ d : Fin 64, qS (ix2 n d) * kS (ix2 (keyIx b k) d)) 7 := by
  have hn : n.val < 8192 := n.isLt
  obtain ⟨p, hp⟩ : ∃ p : Fin 1024, p.val = n.val % 1024 := ⟨⟨n.val % 1024, Nat.mod_lt _ (by decide)⟩, rfl⟩
  have hrow : qryIx (n.val / 1024) p = n := Fin.ext (by show (n.val / 1024 % 8) * 1024 + p.val = n.val; omega)
  have hs : att_sRow qS kS (n.val / 1024) p = fun b k => ∑ d : Fin 64, qS (ix2 n d) * kS (ix2 (keyIx b k) d) := by
    funext b k
    show ∑ d : Fin 64, qS (ix2 (qryIx (n.val / 1024) p) d) * kS (ix2 (keyIx b k) d) = _
    rw [hrow]
  rw [att_G_at qS kS vS (n.val / 1024) p c' (ix2 n c') (by show n.val = n.val / 1024 * 1024 + p.val; omega) rfl]
  show att_accSt qS kS vS (n.val / 1024) 7 (ix2 p c') / att_lSt qS kS (n.val / 1024) 7 (ix2 p (0 : Fin 1)) = _
  rw [att_accSt_row qS kS vS (n.val / 1024) p c' 7, att_lSt_row qS kS (n.val / 1024) p 7, hs]
  rfl

/-- So the quotient array is the specification's, row by row. -/
theorem att_G_eq (qS kS : SQ.Idx → ℝ) (vS : SF.Idx → ℝ) : att_G qS kS vS = fun i : SF.Idx =>
      oAcc (fun b k => ∑ d : Fin 64, qS (ix2 (i 0 : Fin 8192) d) * kS (ix2 (keyIx b k) d)) (fun b k => vS (ix2 (keyIx b k) (i 1 : Fin 256))) 7
        / oL (fun b k => ∑ d : Fin 64, qS (ix2 (i 0 : Fin 8192) d) * kS (ix2 (keyIx b k) d)) 7 :=
  funext fun i => (congrArg (att_G qS kS vS) (eq_ix2 i)).trans (att_G_row qS kS vS (i 0) (i 1))

/-- After the region the result array holds, at row `n` and column `c'`, the walk over the 8 key blocks of the scores of
    query row `n` against the keys, with the values' column `c'`: accumulator over normaliser. -/
theorem attn_final (c : Dev nD) (qS kS : SQ.Idx → ℝ) (vS : SF.Idx → ℝ)
    (hq : V c main_v1_0 = lift qS) (hk : V c main_v1_1 = lift kS) (hv : V c main_v1_2 = lift vS) :
    (dat1 V c).arrAt 3 cfg1.N = lift (fun i : SF.Idx =>
      oAcc (fun b k => ∑ d : Fin 64, qS (ix2 (i 0 : Fin 8192) d) * kS (ix2 (keyIx b k) d)) (fun b k => vS (ix2 (keyIx b k) (i 1 : Fin 256))) 7
        / oL (fun b k => ∑ d : Fin 64, qS (ix2 (i 0 : Fin 8192) d) * kS (ix2 (keyIx b k) d)) 7) := by
  refine ((dat1 V c).arrAt_eq_of_cover 3 (lift (att_G qS kS vS)) (att_flushed V c qS kS vS hq hk hv) (fun i => att_cover i)).trans ?_
  exact congrArg lift (att_G_eq qS kS vS)

end Cert.KernelIdeal.Val

end
-- ==== Proof.MathSoftmax.lean ====
/- The online recursion over key blocks computes the softmax-weighted sum: the real analysis behind the comparison. -/
import proofs.«407828_j65481071406882_3_alg».proof.Proof.Spec

noncomputable section

open scoped BigOperators

namespace Cert.Spec

open Idealize.ShloMosaic Idealize.ShloMosaic.ValueIdx

section Online
variable {J : Type} [Fintype J] [Nonempty J]

/-- Moving a shift: `exp (a - m) * exp (x - a) = exp (x - m)`. -/
private theorem exp_shift (a m x : ℝ) : Real.exp (a - m) * Real.exp (x - a) = Real.exp (x - m) := by
  rw [← Real.exp_add]
  congr 1
  ring

/-- The running normaliser is the sum, over all keys seen so far, of `exp (score - running maximum)`. -/
theorem oL_eq (s : ℕ → J → ℝ) (b : ℕ) :
    oL s b = ∑ b' ∈ Finset.range (b + 1), ∑ r, Real.exp (s b' r - oM s b) := by
  induction b with
  | zero =>
    -- one block: the definition itself
    rw [oL, Nat.zero_add, Finset.sum_range_one]
  | succ b ih =>
    -- the old terms are rescaled from the old maximum to the new one; the new block's terms are already at the new one
    rw [oL, ih, Finset.sum_range_succ _ (b + 1), Finset.mul_sum]
    congr 1
    refine Finset.sum_congr rfl fun b' _ => ?_
    rw [Finset.mul_sum]
    refine Finset.sum_congr rfl fun r _ => ?_
    exact exp_shift _ _ _

/-- The running accumulator likewise, weighted by the values. -/
theorem oAcc_eq (s v : ℕ → J → ℝ) (b : ℕ) :
    oAcc s v b = ∑ b' ∈ Finset.range (b + 1), ∑ r, Real.exp (s b' r - oM s b) * v b' r := by
  induction b with
  | zero =>
    rw [oAcc, Nat.zero_add, Finset.sum_range_one]
  | succ b ih =>
    rw [oAcc, ih, Finset.sum_range_succ _ (b + 1), Finset.mul_sum]
    congr 1
    refine Finset.sum_congr rfl fun b' _ => ?_
    rw [Finset.mul_sum]
    refine Finset.sum_congr rfl fun r _ => ?_
    rw [← mul_assoc, exp_shift]

/-- A sum of exponentials over a nonempty family of keys is positive. -/
theorem oL_pos (s : ℕ → J → ℝ) (b : ℕ) : 0 < oL s b := by
  rw [oL_eq]
  refine Finset.sum_pos (fun b' _ => ?_) Finset.nonempty_range_add_one
  exact Finset.sum_pos (fun r _ => Real.exp_pos _) Finset.univ_nonempty

/-- The quotient is the softmax-weighted sum, whatever real the softmax is shifted by. -/
theorem online_softmax (s v : ℕ → J → ℝ) (b : ℕ) (M : ℝ) :
    oAcc s v b / oL s b
      = ∑ b' ∈ Finset.range (b + 1), ∑ r, (Real.exp (s b' r - M) / ∑ b'' ∈ Finset.range (b + 1), ∑ r', Real.exp (s b'' r' - M)) * v b' r := by
  -- numerator and denominator both carry the common factor `exp (M - running maximum)`
  have hL : oL s b = Real.exp (M - oM s b) * ∑ b'' ∈ Finset.range (b + 1), ∑ r', Real.exp (s b'' r' - M) := by
    rw [oL_eq, Finset.mul_sum]
    refine Finset.sum_congr rfl fun b' _ => ?_
    rw [Finset.mul_sum]
    refine Finset.sum_congr rfl fun r _ => ?_
    exact (exp_shift _ _ _).symm
  have hA : oAcc s v b
      = Real.exp (M - oM s b) * ∑ b' ∈ Finset.range (b + 1), ∑ r, Real.exp (s b' r - M) * v b' r := by
    rw [oAcc_eq, Finset.mul_sum]
    refine Finset.sum_congr rfl fun b' _ => ?_
    rw [Finset.mul_sum]
    refine Finset.sum_congr rfl fun r _ => ?_
    rw [← mul_assoc, exp_shift]
  rw [hA, hL, mul_div_mul_left _ _ (Real.exp_pos _).ne', Finset.sum_div]
  refine Finset.sum_congr rfl fun b' _ => ?_
  rw [Finset.sum_div]
  refine Finset.sum_congr rfl fun r _ => ?_
  ring

end Online

/-- Eight blocks of 1024 keys are the 8192 keys. -/
theorem sum_keyIx (f : Fin 8192 → ℝ) : ∑ b ∈ Finset.range 8, ∑ r : Fin 1024, f (keyIx b r) = ∑ j : Fin 8192, f j := by
  -- the block number as an element of `Fin 8`, the pair (block, place in the block) as one index, and
  -- `(b, r) ↦ r + 1024 * b` is a bijection onto the 8192
  rw [Finset.sum_range (fun b => ∑ r : Fin 1024, f (keyIx b r)),
    ← Fintype.sum_prod_type' (fun (b : Fin 8) (r : Fin 1024) => f (keyIx b r))]
  refine Fintype.sum_equiv (finProdFinEquiv : Fin 8 × Fin 1024 ≃ Fin 8192) _ _ fun x => ?_
  congr 1
  apply Fin.ext
  have h8 : (x.1 : ℕ) % 8 = x.1 := Nat.mod_eq_of_lt x.1.isLt
  simp only [keyIx, finProdFinEquiv_apply_val, h8]
  omega

/-- THE COMPARISON over the reals: for query row `n` and output column `c`, the walk over the 8 key blocks — scores of the
    kernel's pre-scaled queries against the keys — ends at the specification's entry. -/
theorem walk_eq_attn (xf : SF.Idx → ℝ) (r e : SW.Idx → ℝ) (n : Fin 8192) (c : Fin 256) :
    oAcc (fun b k => ∑ d : Fin 64, projScaled xf r (ix2 n d) * proj xf e (ix2 (keyIx b k) d)) (fun b k => xf (ix2 (keyIx b k) c)) 7
      / oL (fun b k => ∑ d : Fin 64, projScaled xf r (ix2 n d) * proj xf e (ix2 (keyIx b k) d)) 7
    = attn xf r e (ix2 n c) := by
  -- scaling the query first or the inner product afterwards is the same score
  have hs : ∀ (b : ℕ) (k : Fin 1024),
      (∑ d : Fin 64, projScaled xf r (ix2 n d) * proj xf e (ix2 (keyIx b k) d)) = score xf r e n (keyIx b k) := by
    intro b k
    unfold score projScaled
    rw [Finset.sum_mul]
    refine Finset.sum_congr rfl fun d _ => ?_
    ring
  rw [online_softmax _ _ 7 (rowMax (score xf r e) n)]
  simp only [hs]
  rw [show (7 + 1 : ℕ) = 8 from rfl,
    sum_keyIx (fun j => Real.exp (score xf r e n j - rowMax (score xf r e) n)),
    sum_keyIx (fun j => (Real.exp (score xf r e n j - rowMax (score xf r e) n)
      / ∑ j' : Fin 8192, Real.exp (score xf r e n j' - rowMax (score xf r e) n)) * xf (ix2 j c))]
  rfl

end Cert.Spec

end
-- ==== Proof.KernelValue.lean ====
/- The idealized kernel's result over the reals: reading the run's last boundary — the flattening reshape, the
   projection region's three arrays, the attention region's array, the reshape back — at real-valued arguments, the
   result buffer holds the specification of the flattened input, reshaped back. -/
import proofs.«407828_j65481071406882_3_alg».proof.Proof.KI.Run
import proofs.«407828_j65481071406882_3_alg».proof.Proof.ProjValue
import proofs.«407828_j65481071406882_3_alg».proof.Proof.AttnValue
import proofs.«407828_j65481071406882_3_alg».proof.Proof.MathSoftmax
import Idealize.ShloMosaic.Lib.StableHlo.Run

set_option maxRecDepth 16384

noncomputable section

open scoped BigOperators

namespace Cert.KernelIdeal.Val

open Idealize.ShloMosaic Idealize.ShloMosaic.TcCoe Idealize.ShloMosaic.ValueIdx Idealize.SL.Sem Idealize.ShloMosaic.StableHlo
open Cert.KernelIdeal Cert.KernelIdeal.Gen Cert.KernelIdeal.Frm Cert.Spec
open Cert.KernelIdeal.ValP (projQ_final projK_final projV_final)

variable (m : (ℓ : Loc nD τ sig) → Buf (Elt Ideal) ℓ) (ρ : Dev nD → PrngReg)

/-- The projection region is entered with the flattened input in its first array … -/
theorem V1_flat (c : Dev nD) :
    (V1 m ρ c main_v0 : S8192x256.Idx → EReal)
      = shapeCast S8192x256 (m ((c : Thread nD τ).loc main_arg0)) shapeCasts_S8x1024x256_S8192x256 := by
  show StableHlo.after hostOps0 (W0 m ρ c) (Proc.devRef .tc main_v0) = _
  after_results; rfl
/-- … and the two parameter matrices as launched. -/
theorem V1_arg1 (c : Dev nD) : V1 m ρ c main_arg1 = m ((c : Thread nD τ).loc main_arg1) := by
  show StableHlo.after hostOps0 (W0 m ρ c) (Proc.devRef .tc main_arg1) = _
  after_results
theorem V1_arg2 (c : Dev nD) : V1 m ρ c main_arg2 = m ((c : Thread nD τ).loc main_arg2) := by
  show StableHlo.after hostOps0 (W0 m ρ c) (Proc.devRef .tc main_arg2) = _
  after_results
/-- The result buffer at the end is the attention region's array, reshaped back. -/
theorem W4_result (c : Dev nD) :
    (W4 m ρ c (Proc.devRef .tc main_v3) : S8x1024x256.Idx → EReal)
      = shapeCast S8x1024x256 (W3 m ρ c (Proc.devRef .tc main_v2)) shapeCasts_S8192x256_S8x1024x256 := by
  show StableHlo.after hostOps2 (W3 m ρ c) (Proc.devRef .tc main_v3) = _
  after_results; rfl

/-- At real-valued arguments the result buffer holds the specification of the flattened input, reshaped back. -/
theorem result_real (c : Dev nD) (x : S8x1024x256.Idx → ℝ) (r e : S256x64.Idx → ℝ)
    (hx : m ((c : Thread nD τ).loc main_arg0) = fun i => ((x i : ℝ) : EReal))
    (hr : m ((c : Thread nD τ).loc main_arg1) = fun i => ((r i : ℝ) : EReal))
    (he : m ((c : Thread nD τ).loc main_arg2) = fun i => ((e i : ℝ) : EReal)) :
    (W4 m ρ c (Proc.devRef .tc main_v3) : S8x1024x256.Idx → EReal)
      = shapeCast S8x1024x256 (lift (attn (shapeCast S8192x256 x shapeCasts_S8x1024x256_S8192x256) r e)) shapeCasts_S8192x256_S8x1024x256 := by
  have hflat : V1 m ρ c main_v0 = lift (shapeCast S8192x256 x shapeCasts_S8x1024x256_S8192x256) := by
    rw [V1_flat, hx]; rfl
  have h1 : V1 m ρ c main_arg1 = lift r := by rw [V1_arg1, hr]; rfl
  have h2 : V1 m ρ c main_arg2 = lift e := by rw [V1_arg2, he]; rfl
  have hq : V2 m ρ c main_v1_0 = lift (projScaled (shapeCast S8192x256 x shapeCasts_S8x1024x256_S8192x256) r) :=
    (W2_arr m ρ c 3).trans (projQ_final (V1 m ρ) c _ r hflat h1)
  have hk : V2 m ρ c main_v1_1 = lift (proj (shapeCast S8192x256 x shapeCasts_S8x1024x256_S8192x256) e) :=
    (W2_arr m ρ c 4).trans (projK_final (V1 m ρ) c _ e hflat h2)
  have hv : V2 m ρ c main_v1_2 = lift (shapeCast S8192x256 x shapeCasts_S8x1024x256_S8192x256) :=
    (W2_arr m ρ c 5).trans (projV_final (V1 m ρ) c _ hflat)
  have hA := attn_final (V2 m ρ) c _ _ _ hq hk hv
  rw [W4_result]
  refine congrArg (fun a => shapeCast S8x1024x256 a shapeCasts_S8192x256_S8x1024x256) ?_
  refine ((W3_arr m ρ c 3).trans hA).trans (congrArg lift (funext fun i => ?_))
  rw [eq_ix2 i]
  exact walk_eq_attn _ r e (i 0) (i 1)

end Cert.KernelIdeal.Val

end
-- ==== Proof.RefG.lean ====
/- The reference program's result as one function of its three arguments, index by index: over real-valued arguments
   it is the specification. -/
import proofs.«407828_j65481071406882_3_alg».proof.Proof.Gen.ReferenceIdeal.Run
import proofs.«407828_j65481071406882_3_alg».proof.Proof.Gen.ReferenceIdeal.Read
import proofs.«407828_j65481071406882_3_alg».proof.Proof.Spec
import Idealize.ShloMosaic.Lib.ValueIdx
import Idealize.ShloMosaic.Lib.ValueLayout
import Idealize.ShloMosaic.PureOps.Ideal.Laws

noncomputable section

open scoped BigOperators

namespace Cert.ReferenceIdeal.RefValue

open Idealize.ShloMosaic Idealize.ShloMosaic.ValueIdx Cert.ReferenceIdeal Cert.ReferenceIdeal.Gen Cert.ReferenceIdeal.Read Cert.Spec

/-! ## Images of reals among the extended reals -/

/-- A finite sum of images of reals is the image of the sum. -/
theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The maximum, from -∞, of finitely many images of reals (at least one) is the image of their largest. -/
theorem fold_max_coe {ι : Type} (s : Finset ι) (hs : s.Nonempty) (f : ι → ℝ) :
    s.fold max (⊥ : EReal) (fun i => ((f i : ℝ) : EReal)) = ((s.sup' hs f : ℝ) : EReal) := by
  induction hs using Finset.Nonempty.cons_induction with
  | singleton a => rw [Finset.fold_singleton, Finset.sup'_singleton]; exact max_eq_left bot_le
  | cons a s ha hs ih => rw [Finset.fold_cons, ih, Finset.sup'_cons hs]; exact (EReal.coe_strictMono.monotone.map_max).symm

/-- The same over all of `Fin n`, for any function that is pointwise the image of a real one. -/
theorem fold_max_univ {n : ℕ} (g : Fin n → EReal) (f : Fin n → ℝ) (hn : (Finset.univ : Finset (Fin n)).Nonempty)
    (hg : ∀ k, g k = ((f k : ℝ) : EReal)) :
    (Finset.univ : Finset (Fin n)).fold max (⊥ : EReal) g = ((Finset.univ.sup' hn f : ℝ) : EReal) := by
  rw [show g = fun k => ((f k : ℝ) : EReal) from funext hg]
  exact fold_max_coe _ hn f

/-! ## The four constant words -/

theorem word_one : Ideal.ofBits .f32 0x3F800000#32 = ((1 : ℝ) : EReal) := by
  simp [Ideal.ofBits, Ideal.ieee, -EReal.coe_mul]; norm_num

theorem word_256 : Ideal.ofBits .f32 0x43800000#32 = ((256 : ℝ) : EReal) := by
  simp [Ideal.ofBits, Ideal.ieee, -EReal.coe_mul]; norm_num

theorem word_neg_inf : Ideal.ofBits .f32 0xFF800000#32 = (⊥ : EReal) := by
  simp [Ideal.ofBits, Ideal.ieee]

theorem sqrt_256 : Ideal.sqrt ((256 : ℝ) : EReal) = ((16 : ℝ) : EReal) := by
  rw [Ideal.sqrt_coe, if_neg (by norm_num)]
  congr 1
  rw [show (256 : ℝ) = 16 ^ 2 by norm_num]
  exact Real.sqrt_sq (by norm_num)

/-- The scale: 1 / sqrt 256 = 1/16. -/
theorem scale_real (i : S_.Idx) : val_main_v4 (F := Ideal) i = (((1 / 16 : ℝ)) : EReal) := by
  rw [val_main_v4_apply, val_main_v3_apply, val_main_cst_apply, val_main_cst_0_apply]
  rw [Ideal.hostDivf_def, Ideal.hostUnary_sqrt_def, Ideal.ofBits_def, Ideal.ofBits_def, word_one, word_256, sqrt_256,
    Ideal.div_coe (by norm_num), ← EReal.coe_mul, one_mul]

/-! ## The two projections -/

section Stages
variable (X : (⟨S8x1024x256, .f32⟩ : BufTy).Contents (Elt Ideal)) (R E : (⟨S256x64, .f32⟩ : BufTy).Contents (Elt Ideal))
  (xf : SF.Idx → ℝ) (r e : SW.Idx → ℝ)
  (hx : val_main_v0 (F := Ideal) X = lift xf) (hr : R = lift r) (he : E = lift e)

include hx hr in
/-- The queries: the flat input times the first matrix. -/
theorem v1_real (i : S8192x64.Idx) : val_main_v1 (F := Ideal) X R i = ((proj xf r i : ℝ) : EReal) := by
  rw [val_main_v1_apply, hx, hr]
  unfold proj
  rw [← coe_sum]
  refine Finset.sum_congr rfl fun k _ => ?_
  rw [lift_apply, lift_apply, EReal.coe_mul]
  have e1 : lidx_main_v1 i k = ix2 (i 0 : Fin 8192) k :=
    funext fun a => Fin.ext (by match a with | ⟨0, _⟩ => rfl | ⟨1, _⟩ => rfl)
  have e2 : ridx_main_v1 i k = ix2 k (i 1 : Fin 64) :=
    funext fun a => Fin.ext (by match a with | ⟨0, _⟩ => rfl | ⟨1, _⟩ => rfl)
  rw [e1, e2]
  rfl

include hx he in
/-- The keys: the flat input times the second matrix. -/
theorem v2_real (i : S8192x64.Idx) : val_main_v2 (F := Ideal) X E i = ((proj xf e i : ℝ) : EReal) := by
  rw [val_main_v2_apply, hx, he]
  unfold proj
  rw [← coe_sum]
  refine Finset.sum_congr rfl fun k _ => ?_
  rw [lift_apply, lift_apply, EReal.coe_mul]
  have e1 : lidx_main_v2 i k = ix2 (i 0 : Fin 8192) k :=
    funext fun a => Fin.ext (by match a with | ⟨0, _⟩ => rfl | ⟨1, _⟩ => rfl)
  have e2 : ridx_main_v2 i k = ix2 k (i 1 : Fin 64) :=
    funext fun a => Fin.ext (by match a with | ⟨0, _⟩ => rfl | ⟨1, _⟩ => rfl)
  rw [e1, e2]
  rfl

/-! ## The scaled scores -/

include hx hr he in
/-- Query `n` against key `j`: the inner product over the 64 columns. -/
theorem v6_real (n j : Fin 8192) :
    val_main_v6 (F := Ideal) X R E (ix2 n j)
      = ((∑ d : Fin 64, proj xf r (ix2 n d) * proj xf e (ix2 j d) : ℝ) : EReal) := by
  rw [val_main_v6_apply, ← coe_sum]
  refine Finset.sum_congr rfl fun d _ => ?_
  have e1 : lidx_main_v6 (ix2 n j) d = ix2 n d :=
    funext fun a => Fin.ext (by match a with | ⟨0, _⟩ => rfl | ⟨1, _⟩ => rfl)
  have e2 : idx_main_v5 (ridx_main_v6 (ix2 n j) d) = ix2 j d :=
    funext fun a => Fin.ext (by match a with | ⟨0, _⟩ => rfl | ⟨1, _⟩ => rfl)
  rw [val_main_v5_apply, e1, e2, v1_real X R xf r hx hr, v2_real X E xf e hx he, EReal.coe_mul]

include hx hr he in
/-- … times 1/16: the reference's score. -/
theorem v8_real (n j : Fin 8192) :
    val_main_v8 (F := Ideal) X R E (ix2 n j) = ((score xf r e n j : ℝ) : EReal) := by
  rw [val_main_v8_apply, v6_real X R E xf r e hx hr he, val_main_v7_apply, scale_real, Ideal.mulf_def, ← EReal.coe_mul]
  rfl

/-! ## The row maximum -/

include hx hr he in
/-- The reduction by maximum from -∞ along a row is the image of the row's largest score. -/
theorem v9_real (n : Fin 8192) :
    val_main_v9 (F := Ideal) X R E (ix1 n) = ((rowMax (score xf r e) n : ℝ) : EReal) := by
  unfold val_main_v9
  have hy : ∀ j : Fin 8192, val_main_v8 (F := Ideal) X R E (ix2 n j) = ((score xf r e n j : ℝ) : EReal) :=
    v8_real X R E xf r e hx hr he n
  generalize val_main_v8 (F := Ideal) X R E = y at hy
  have hred : S8192x8192.Reduces [1] S8192 := by decide
  refine (Host.reduce_eq_fold_single (α := Ideal .f32) (FloatOps.maximumf (F := Ideal) (φ := .f32)) y
    (val_main_cst_1 (F := Ideal)) reducesTo_S8192x8192_S8192_d1 hred h_S_ (ix1 n)).trans ?_
  rw [val_main_cst_1_apply, Ideal.ofBits_def, word_neg_inf]
  refine fold_max_univ (n := 8192) _ (score xf r e n) _ fun k => ?_
  have e1 : hred.lift (ix1 n) k = ix2 n k :=
    funext fun a => Fin.ext (by match a with | ⟨0, _⟩ => rfl | ⟨1, _⟩ => rfl)
  show y (hred.lift (ix1 n) k) = _
  rw [e1, hy]

include hx hr he in
/-- The maximum with -∞, broadcast back along the row. -/
theorem v13_real (n j : Fin 8192) :
    val_main_v13 (F := Ideal) X R E (ix2 n j) = ((rowMax (score xf r e) n : ℝ) : EReal) := by
  have e1 : idx_main_v12 (idx_main_v13 (ix2 n j)) = ix1 n :=
    funext fun a => Fin.ext (by match a with | ⟨0, _⟩ => rfl)
  rw [val_main_v13_apply, val_main_v12_apply, e1, val_main_v11_apply, val_main_v10_apply, val_main_cst_2_apply,
    v9_real X R E xf r e hx hr he, Ideal.ofBits_def, word_neg_inf, Ideal.maximumf_def]
  exact max_eq_right bot_le

/-! ## The exponentials and the normaliser -/

include hx hr he in
/-- The exponential of a score shifted by its row's maximum. -/
theorem v15_real (n j : Fin 8192) :
    val_main_v15 (F := Ideal) X R E (ix2 n j)
      = ((Real.exp (score xf r e n j - rowMax (score xf r e) n) : ℝ) : EReal) := by
  rw [val_main_v15_apply, val_main_v14_apply, v8_real X R E xf r e hx hr he, v13_real X R E xf r e hx hr he,
    Ideal.subf_def, Ideal.hostUnary_exp_def, ← EReal.coe_sub, Ideal.exp_coe]

include hx hr he in
/-- A row's normaliser: the sum, from 0, of the row's shifted exponentials. -/
theorem v16_real (n : Fin 8192) :
    val_main_v16 (F := Ideal) X R E (ix1 n)
      = ((∑ j : Fin 8192, Real.exp (score xf r e n j - rowMax (score xf r e) n) : ℝ) : EReal) := by
  rw [val_main_v16_apply, val_main_cst_3_apply, Ideal.ofBits_def, Ideal.ofBits_zero_f32, zero_add, ← coe_sum]
  refine Finset.sum_congr rfl fun k _ => ?_
  have e1 : idx_main_v16 (ix1 n) k = ix2 n k :=
    funext fun a => Fin.ext (by match a with | ⟨0, _⟩ => rfl | ⟨1, _⟩ => rfl)
  rw [e1, v15_real X R E xf r e hx hr he]

include hx hr he in
/-- The normaliser broadcast back along the row. -/
theorem v18_real (n j : Fin 8192) :
    val_main_v18 (F := Ideal) X R E (ix2 n j)
      = ((∑ j : Fin 8192, Real.exp (score xf r e n j - rowMax (score xf r e) n) : ℝ) : EReal) := by
  have e1 : idx_main_v17 (idx_main_v18 (ix2 n j)) = ix1 n :=
    funext fun a => Fin.ext (by match a with | ⟨0, _⟩ => rfl)
  rw [val_main_v18_apply, val_main_v17_apply, e1, v16_real X R E xf r e hx hr he]

/-- A row's normaliser is a sum of exponentials over a nonempty range: positive. -/
theorem normaliser_pos (s : Fin 8192 → ℝ) (m : ℝ) : 0 < ∑ j : Fin 8192, Real.exp (s j - m) :=
  Finset.sum_pos (fun j _ => Real.exp_pos _) ⟨(0 : Fin 8192), Finset.mem_univ _⟩

include hx hr he in
/-- The softmax weight of key `j` in row `n`. -/
theorem v19_real (n j : Fin 8192) :
    val_main_v19 (F := Ideal) X R E (ix2 n j)
      = ((Real.exp (score xf r e n j - rowMax (score xf r e) n)
          / ∑ j' : Fin 8192, Real.exp (score xf r e n j' - rowMax (score xf r e) n) : ℝ) : EReal) := by
  rw [val_main_v19_apply, v15_real X R E xf r e hx hr he, v18_real X R E xf r e hx hr he, Ideal.hostDivf_def,
    Ideal.div_coe (normaliser_pos _ _).ne', ← EReal.coe_mul, mul_one_div]

/-! ## The weights times the flat input -/

include hx hr he in
/-- Row `n`, column `c` of the weights times the flat input is the specification there. -/
theorem v20_real (n : Fin 8192) (c : Fin 256) :
    val_main_v20 (F := Ideal) X R E (ix2 n c) = ((attn xf r e (ix2 n c) : ℝ) : EReal) := by
  rw [val_main_v20_apply, hx]
  unfold attn
  rw [← coe_sum]
  refine Finset.sum_congr rfl fun k _ => ?_
  have e1 : lidx_main_v20 (ix2 n c) k = ix2 n k :=
    funext fun a => Fin.ext (by match a with | ⟨0, _⟩ => rfl | ⟨1, _⟩ => rfl)
  have e2 : ridx_main_v20 (ix2 n c) k = ix2 k c :=
    funext fun a => Fin.ext (by match a with | ⟨0, _⟩ => rfl | ⟨1, _⟩ => rfl)
  rw [e1, e2, v19_real X R E xf r e hx hr he, lift_apply, EReal.coe_mul]

end Stages

/-- Over a real-valued flat input and parameter matrices, the reference's attention output (before its last reshape) is
    the specification. -/
theorem ref_eq (X : (⟨S8x1024x256, .f32⟩ : BufTy).Contents (Elt Ideal)) (R E : (⟨S256x64, .f32⟩ : BufTy).Contents (Elt Ideal))
    (xf : SF.Idx → ℝ) (r e : SW.Idx → ℝ)
    (hx : val_main_v0 (F := Ideal) X = lift xf) (hr : R = lift r) (he : E = lift e) :
    val_main_v20 (F := Ideal) X R E = lift (attn xf r e) := by
  funext i
  obtain ⟨n, c, rfl⟩ : ∃ (n : Fin 8192) (c : Fin 256), i = ix2 n c := ⟨i 0, i 1, eq_ix2 i⟩
  rw [lift_apply]
  exact v20_real X R E xf r e hx hr he n c

end Cert.ReferenceIdeal.RefValue

end
-- ==== Proof.Finite.lean ====
/- From the precondition — every float input holds finite numbers — to real-valued argument arrays.

   The precondition is the conjunction of three tests of the same form, one per argument array `a`: the `and` over all
   entries of the comparison `|a i| < +∞`. An `and` of bits that is one has every bit one, so each entry satisfies
   `max (a i) (-(a i)) < ⊤` in the extended reals. That excludes `⊤` (whose absolute value is `⊤`) and `⊥` (whose negation
   is `⊤`), so each entry is the image of a real number; choosing one real per entry gives the real array. -/
import proofs.«407828_j65481071406882_3_alg».proof.Defs
import proofs.«407828_j65481071406882_3_alg».proof.Proof.Gen.Pre_finite_inputs
import Idealize.ShloMosaic.Lib.ValueIdx
import Idealize.ShloMosaic.Lib.ReduceAll

noncomputable section

namespace Cert.Proof.Finite

open Idealize.ShloMosaic Idealize.ShloMosaic.TcCoe Idealize.SL.Sem

/-- The shape of a scalar has exactly one index. -/
instance subsingleton_scalar_idx : Subsingleton Cert.Pre_finite_inputs.S_.Idx := ⟨fun a b => funext fun d => d.elim0⟩

/-- The word the tests compare against is the extended real `+∞`. -/
theorem inf_word : Ideal.ofBits .f32 0x7F800000#32 = (⊤ : EReal) := by
  simp [Ideal.ofBits, Ideal.ieee]

/-- An extended real whose absolute value is below `+∞` is a real: `⊤` fails because `max ⊤ (-⊤) = ⊤`, and `⊥` fails
    because `-⊥ = ⊤`. -/
theorem real_of_abs_lt_inf (a : EReal)
    (h : Ideal.cmp .olt (max a (-a)) (Ideal.ofBits .f32 0x7F800000#32) = 1#1) : ∃ r : ℝ, a = (r : EReal) := by
  rw [inf_word] at h
  induction a using EReal.rec with
  | bot => simp [Ideal.cmp] at h
  | coe r => exact ⟨r, rfl⟩
  | top => simp [Ideal.cmp] at h

/-- One test: if the `and` over all entries of `|a i| < +∞` is one, the array `a` is the image of an array of reals. -/
theorem real_of_all_finite {S : Shape} {axes : List (Fin S.rank)} (a : FVec Ideal S .f32)
    (hb : Cert.Pre_finite_inputs.S_.BroadcastsInDim S (![] : Fin 0 → Fin S.rank))
    (hr : S.ReducesTo axes Cert.Pre_finite_inputs.S_) (h0 : 0 < Cert.Pre_finite_inputs.S_.numel)
    (e : Host.reduce IntOp.andi
          (cmpf .olt (Host.absf a)
            (broadcastInDim S ![] hb (constant (F := Ideal) Cert.Pre_finite_inputs.S_ .f32 0x7F800000#32)))
          (constantI Cert.Pre_finite_inputs.S_ 1 1#1) hr h0 ValueIdx.ix0 = 1#1) :
    ∃ f : S.Idx → ℝ, a = fun i => ((f i : ℝ) : EReal) := by
  have hall : ∀ i : S.Idx, ∃ r : ℝ, a i = (r : EReal) := by
    intro i
    have hi := Host.reduce_andi_all _ _ hr h0 ValueIdx.ix0 e i
    exact real_of_abs_lt_inf (a i) hi
  choose f hf using hall
  exact ⟨f, funext hf⟩

/-- Under the precondition each argument array of the idealized kernel is the image of an array of reals. -/
theorem real_of_pre [hPre : Cert.Pre_finite_inputs.Facts]
    (m : (ℓ : Loc Cert.KernelIdeal.nD Cert.KernelIdeal.τ Cert.KernelIdeal.sig) → Buf (Elt Ideal) ℓ) (h : Cert.Pre_KernelIdeal m) (c : Dev Cert.KernelIdeal.nD) :
    (∃ x : Cert.KernelIdeal.S8x1024x256.Idx → ℝ, m ((c.tc : Thread Cert.KernelIdeal.nD Cert.KernelIdeal.τ).loc Cert.KernelIdeal.main_arg0) = fun i => ((x i : ℝ) : EReal))
    ∧ (∃ r : Cert.KernelIdeal.S256x64.Idx → ℝ, m ((c.tc : Thread Cert.KernelIdeal.nD Cert.KernelIdeal.τ).loc Cert.KernelIdeal.main_arg1) = fun i => ((r i : ℝ) : EReal))
    ∧ (∃ e : Cert.KernelIdeal.S256x64.Idx → ℝ, m ((c.tc : Thread Cert.KernelIdeal.nD Cert.KernelIdeal.τ).loc Cert.KernelIdeal.main_arg2) = fun i => ((e i : ℝ) : EReal)) := by
  have hc := congrFun (h c) ValueIdx.ix0
  dsimp only [Cert.Pre_finite_inputs.fn] at hc
  obtain ⟨h01, h2⟩ := IntOp.andi_eq_one.1 hc
  obtain ⟨h0, h1⟩ := IntOp.andi_eq_one.1 h01
  exact ⟨real_of_all_finite _ _ _ _ h0, real_of_all_finite _ _ _ _ h1, real_of_all_finite _ _ _ _ h2⟩

/-- The same for the reference program's memory under its own precondition. -/
theorem real_of_pre_ref [hPre : Cert.Pre_finite_inputs.Facts]
    (m : (ℓ : Loc Cert.ReferenceIdeal.nD Cert.ReferenceIdeal.τ Cert.ReferenceIdeal.sig) → Buf (Elt Ideal) ℓ) (h : Cert.Pre_ReferenceIdeal m) (c : Dev Cert.ReferenceIdeal.nD) :
    (∃ x : Cert.ReferenceIdeal.S8x1024x256.Idx → ℝ, m ((c.tc : Thread Cert.ReferenceIdeal.nD Cert.ReferenceIdeal.τ).loc Cert.ReferenceIdeal.main_arg0) = fun i => ((x i : ℝ) : EReal))
    ∧ (∃ r : Cert.ReferenceIdeal.S256x64.Idx → ℝ, m ((c.tc : Thread Cert.ReferenceIdeal.nD Cert.ReferenceIdeal.τ).loc Cert.ReferenceIdeal.main_arg1) = fun i => ((r i : ℝ) : EReal))
    ∧ (∃ e : Cert.ReferenceIdeal.S256x64.Idx → ℝ, m ((c.tc : Thread Cert.ReferenceIdeal.nD Cert.ReferenceIdeal.τ).loc Cert.ReferenceIdeal.main_arg2) = fun i => ((e i : ℝ) : EReal)) := by
  have hc := congrFun (h c) ValueIdx.ix0
  dsimp only [Cert.Pre_finite_inputs.fn] at hc
  obtain ⟨h01, h2⟩ := IntOp.andi_eq_one.1 hc
  obtain ⟨h0, h1⟩ := IntOp.andi_eq_one.1 h01
  exact ⟨real_of_all_finite _ _ _ _ h0, real_of_all_finite _ _ _ _ h1, real_of_all_finite _ _ _ _ h2⟩

end Cert.Proof.Finite

end
-- ==== Proof.lean ====
/- Equivalence over the extended reals of a two-launch attention kernel and its reference.

   The kernel flattens its input to 8192 rows of width 256, projects it by two 256 × 64 matrices into queries (already
   scaled by 1/16 = 1/√256) and keys, keeps the flat input as the values, and then, for each block of 1024 queries,
   walks the 8192 keys in 8 blocks of 1024 keeping a running row maximum, a running normaliser and a running
   accumulator, rescaled by the exponential of the maximum's move; after the eighth block it divides. The reference
   forms all 8192 × 8192 scaled scores, takes a row softmax shifted by the row maximum, and multiplies by the flat input.

   Over finite inputs every quantity is a real number; the rescaling identity exp (a − b) · exp (b − c) = exp (a − c)
   shows that after each key block the normaliser and the accumulator are the sums, over the keys seen so far, of
   exp (score − running maximum), plain and weighted by the values; softmax weights do not depend on the shift, and
   1/√256 is exactly 1/16, so the quotient after the last block is the reference's entry.

   The frames: each program runs to the end, faults nowhere and leaves its arguments unchanged — the kernel's two
   launches as segments of @main between the two reshapes, the attention launch carrying its three scratch buffers
   from grid point to grid point through the region's invariant. The idealization rewrote nothing, so the kernel's
   idealization is its own text read over the extended reals. -/
import proofs.«407828_j65481071406882_3_alg».proof.Defs
import proofs.«407828_j65481071406882_3_alg».proof.Proof.Gen.Kernel
import proofs.«407828_j65481071406882_3_alg».proof.Proof.Gen.KernelIdeal
import proofs.«407828_j65481071406882_3_alg».proof.Proof.Gen.ReferenceIdeal
import proofs.«407828_j65481071406882_3_alg».proof.Proof.Gen.ReferenceIdeal.Run
import proofs.«407828_j65481071406882_3_alg».proof.Proof.Gen.ReferenceIdeal.Read
import proofs.«407828_j65481071406882_3_alg».proof.Proof.Gen.Pre_finite_inputs
import proofs.«407828_j65481071406882_3_alg».proof.Proof.K.Run
import proofs.«407828_j65481071406882_3_alg».proof.Proof.KI.Run
import proofs.«407828_j65481071406882_3_alg».proof.Proof.KernelValue
import proofs.«407828_j65481071406882_3_alg».proof.Proof.RefG
import proofs.«407828_j65481071406882_3_alg».proof.Proof.Finite
import Idealize.ShloMosaic.Adequacy
import Idealize.ShloMosaic.Init

noncomputable section

namespace Cert.Proof

open Idealize.ShloMosaic Idealize.ShloMosaic.TcCoe Idealize.SL.Sem Cert.Spec

theorem frame_k : Cert.frame_Kernel := fun m ρ _ => Cert.Kernel.Frm.frame m ρ
theorem frame_ki : Cert.frame_KernelIdeal := fun m ρ _ => Cert.KernelIdeal.Frm.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both idealized programs, from memories agreeing on finite arguments, end with the specification of the flattened
    input, reshaped back, in their result buffers. -/
theorem algebraic : Cert.algebraic_KernelIdeal_ReferenceIdeal := by
  intro m ρ m' ρ' hpre hagree
  refine ⟨fun c => Cert.KernelIdeal.Frm.W4 m ρ c (Proc.devRef .tc Cert.KernelIdeal.main_v3), ?_, ?_⟩
  · refine (θ_run Cert.KernelIdeal.defs _ _).mono (fun r h c => ?_) (Cert.KernelIdeal.Frm.run_all (F := Ideal) m ρ)
    exact ⟨h c _ (Cert.KernelIdeal.Frm.mem_uc Cert.KernelIdeal.main_v3 (by decide)),
      (h c _ (Cert.KernelIdeal.Frm.mem_uc Cert.KernelIdeal.main_arg0 (by decide))).trans (Cert.KernelIdeal.Frm.W4_main_arg0 m ρ c),
      (h c _ (Cert.KernelIdeal.Frm.mem_uc Cert.KernelIdeal.main_arg1 (by decide))).trans (Cert.KernelIdeal.Frm.W4_main_arg1 m ρ c),
      (h c _ (Cert.KernelIdeal.Frm.mem_uc Cert.KernelIdeal.main_arg2 (by decide))).trans (Cert.KernelIdeal.Frm.W4_main_arg2 m ρ c)⟩
  · refine (θ_run Cert.ReferenceIdeal.defs _ _).mono (fun r h c => ⟨(h c).1.trans ?_, (h c).2⟩)
      (Cert.ReferenceIdeal.Value.run (F := Ideal) m' ρ')
    obtain ⟨⟨x, hx⟩, ⟨rr, hr⟩, ⟨ee, he⟩⟩ := Cert.Proof.Finite.real_of_pre m hpre c
    rw [Cert.ReferenceIdeal.Read.val_main_v21_eq, (hagree c).1, (hagree c).2.1, (hagree c).2.2]
    refine Eq.trans ?_ (Cert.KernelIdeal.Val.result_real m ρ c x rr ee hx hr he).symm
    unfold Cert.ReferenceIdeal.Read.val_main_v21
    refine congrArg (fun a => shapeCast _ a Cert.ReferenceIdeal.Facts₀.shapeCasts_S8192x256_S8x1024x256) ?_
    exact Cert.ReferenceIdeal.RefValue.ref_eq _ _ _ _ rr ee (by rw [hx]; rfl) hr he

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
